-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S131072x6 : Shape := ⟨2, ![131072, 6]⟩
abbrev S1048576x42 : Shape := ⟨2, ![1048576, 42]⟩
abbrev S1048576 : Shape := ⟨1, ![1048576]⟩
abbrev S256x256 : Shape := ⟨2, ![256, 256]⟩
abbrev S256 : Shape := ⟨1, ![256]⟩
abbrev S6x8 : Shape := ⟨2, ![6, 8]⟩
abbrev S8x256 : Shape := ⟨2, ![8, 256]⟩
abbrev S42x8 : Shape := ⟨2, ![42, 8]⟩
abbrev S8x64 : Shape := ⟨2, ![8, 64]⟩
abbrev S256x64 : Shape := ⟨2, ![256, 64]⟩
abbrev S64x256 : Shape := ⟨2, ![64, 256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S131072x6 : S_.BroadcastsInDim S131072x6 (![] : Fin 0 → Fin S131072x6.rank)
  reducesTo_S131072x6_S_d0_1 : S131072x6.ReducesTo [0, 1] S_
  bcast_S_S1048576x42 : S_.BroadcastsInDim S1048576x42 (![] : Fin 0 → Fin S1048576x42.rank)
  reducesTo_S1048576x42_S_d0_1 : S1048576x42.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S6x8 : S_.BroadcastsInDim S6x8 (![] : Fin 0 → Fin S6x8.rank)
  reducesTo_S6x8_S_d0_1 : S6x8.ReducesTo [0, 1] S_
  bcast_S_S8x256 : S_.BroadcastsInDim S8x256 (![] : Fin 0 → Fin S8x256.rank)
  reducesTo_S8x256_S_d0_1 : S8x256.ReducesTo [0, 1] S_
  bcast_S_S42x8 : S_.BroadcastsInDim S42x8 (![] : Fin 0 → Fin S42x8.rank)
  reducesTo_S42x8_S_d0_1 : S42x8.ReducesTo [0, 1] S_
  bcast_S_S8x64 : S_.BroadcastsInDim S8x64 (![] : Fin 0 → Fin S8x64.rank)
  reducesTo_S8x64_S_d0_1 : S8x64.ReducesTo [0, 1] S_
  bcast_S_S256x64 : S_.BroadcastsInDim S256x64 (![] : Fin 0 → Fin S256x64.rank)
  reducesTo_S256x64_S_d0_1 : S256x64.ReducesTo [0, 1] S_
  bcast_S_S64x256 : S_.BroadcastsInDim S64x256 (![] : Fin 0 → Fin S64x256.rank)
  reducesTo_S64x256_S_d0_1 : S64x256.ReducesTo [0, 1] S_

variable [Facts]

def fn_part7 {F : FTy → Type} [FloatOps F] (main_arg27 : FVec F S256x256 .f32) (main_arg28 : FVec F S256 .f32) (main_v118 : IVec S_ 1) (main_v119 : FVec F S256 .f32) : IVec S_ 1 :=
  let main_cst_46 : FVec F S_ .f32 := constant S_ .f32 0x7F800000#32
  let main_v120 : FVec F S256 .f32 := broadcastInDim S256 ![] bcast_S_S256 main_cst_46
  let main_v121 : IVec S256 1 := cmpf .olt main_v119 main_v120
  let main_c_47 : IVec S_ 1 := constantI S_ 1 1#1
  let main_v122 : IVec S_ 1 := (fun x v => Host.reduce IntOp.andi x v reducesTo_S256_S_d0 h_S_) main_v121 main_c_47
  let main_v123 : IVec S_ 1 := andi main_v118 main_v122
  let main_v124 : FVec F S256x256 .f32 := Host.absf main_arg27
  let main_cst_48 : FVec F S_ .f32 := constant S_ .f32 0x7F800000#32
  let main_v125 : FVec F S256x256 .f32 := broadcastInDim S256x256 ![] bcast_S_S256x256 main_cst_48
  let main_v126 : IVec S256x256 1 := cmpf .olt main_v124 main_v125
  let main_c_49 : IVec S_ 1 := constantI S_ 1 1#1
  let main_v127 : IVec S_ 1 := (fun x v => Host.reduce IntOp.andi x v reducesTo_S256x256_S_d0_1 h_S_) main_v126 main_c_49
  let main_v128 : IVec S_ 1 := andi main_v123 main_v127
  let main_v129 : FVec F S256 .f32 := Host.absf main_arg28
  let main_cst_50 : FVec F S_ .f32 := constant S_ .f32 0x7F800000#32
  let main_v130 : FVec F S256 .f32 := broadcastInDim S256 ![] bcast_S_S256 main_cst_50
  let main_v131 : IVec S256 1 := cmpf .olt main_v129 main_v130
  let main_c_51 : IVec S_ 1 := constantI S_ 1 1#1
  let main_v132 : IVec S_ 1 := (fun x v => Host.reduce IntOp.andi x v reducesTo_S256_S_d0 h_S_) main_v131 main_c_51
  let main_v133 : IVec S_ 1 := andi main_v128 main_v132
  main_v133

def fn_part6 {F : FTy → Type} [FloatOps F] (main_arg23 : FVec F S256x256 .f32) (main_arg24 : FVec F S256 .f32) (main_arg25 : FVec F S256x256 .f32) (main_arg26 : FVec F S256 .f32) (main_arg27 : FVec F S256x256 .f32) (main_arg28 : FVec F S256 .f32) (main_v98 : IVec S_ 1) (main_v101 : IVec S256 1) (main_c_39 : IVec S_ 1) : IVec S_ 1 :=
  let main_v102 : IVec S_ 1 := (fun x v => Host.reduce IntOp.andi x v reducesTo_S256_S_d0 h_S_) main_v101 main_c_39
  let main_v103 : IVec S_ 1 := andi main_v98 main_v102
  let main_v104 : FVec F S256x256 .f32 := Host.absf main_arg23
  let main_cst_40 : FVec F S_ .f32 := constant S_ .f32 0x7F800000#32
  let main_v105 : FVec F S256x256 .f32 := broadcastInDim S256x256 ![] bcast_S_S256x256 main_cst_40
  let main_v106 : IVec S256x256 1 := cmpf .olt main_v104 main_v105
  let main_c_41 : IVec S_ 1 := constantI S_ 1 1#1
  let main_v107 : IVec S_ 1 := (fun x v => Host.reduce IntOp.andi x v reducesTo_S256x256_S_d0_1 h_S_) main_v106 main_c_41
  let main_v108 : IVec S_ 1 := andi main_v103 main_v107
  let main_v109 : FVec F S256 .f32 := Host.absf main_arg24
  let main_cst_42 : FVec F S_ .f32 := constant S_ .f32 0x7F800000#32
  let main_v110 : FVec F S256 .f32 := broadcastInDim S256 ![] bcast_S_S256 main_cst_42
  let main_v111 : IVec S256 1 := cmpf .olt main_v109 main_v110
  let main_c_43 : IVec S_ 1 := constantI S_ 1 1#1
  let main_v112 : IVec S_ 1 := (fun x v => Host.reduce IntOp.andi x v reducesTo_S256_S_d0 h_S_) main_v111 main_c_43
  let main_v113 : IVec S_ 1 := andi main_v108 main_v112
  let main_v114 : FVec F S256x256 .f32 := Host.absf main_arg25
  let main_cst_44 : FVec F S_ .f32 := constant S_ .f32 0x7F800000#32
  let main_v115 : FVec F S256x256 .f32 := broadcastInDim S256x256 ![] bcast_S_S256x256 main_cst_44
  let main_v116 : IVec S256x256 1 := cmpf .olt main_v114 main_v115
  let main_c_45 : IVec S_ 1 := constantI S_ 1 1#1
  let main_v117 : IVec S_ 1 := (fun x v => Host.reduce IntOp.andi x v reducesTo_S256x256_S_d0_1 h_S_) main_v116 main_c_45
  let main_v118 : IVec S_ 1 := andi main_v113 main_v117
  let main_v119 : FVec F S256 .f32 := Host.absf main_arg26
  fn_part7 (F := F) main_arg27 main_arg28 main_v118 main_v119

def fn_part5 {F : FTy → Type} [FloatOps F] (main_arg20 : FVec F S256 .f32) (main_arg21 : FVec F S256x256 .f32) (main_arg22 : FVec F S256 .f32) (main_arg23 : FVec F S256x256 .f32) (main_arg24 : FVec F S256 .f32) (main_arg25 : FVec F S256x256 .f32) (main_arg26 : FVec F S256 .f32) (main_arg27 : FVec F S256x256 .f32) (main_arg28 : FVec F S256 .f32) (main_v83 : IVec S_ 1) (main_v84 : FVec F S256x256 .f32) (main_cst_32 : FVec F S_ .f32) : IVec S_ 1 :=
  let main_v85 : FVec F S256x256 .f32 := broadcastInDim S256x256 ![] bcast_S_S256x256 main_cst_32
  let main_v86 : IVec S256x256 1 := cmpf .olt main_v84 main_v85
  let main_c_33 : IVec S_ 1 := constantI S_ 1 1#1
  let main_v87 : IVec S_ 1 := (fun x v => Host.reduce IntOp.andi x v reducesTo_S256x256_S_d0_1 h_S_) main_v86 main_c_33
  let main_v88 : IVec S_ 1 := andi main_v83 main_v87
  let main_v89 : FVec F S256 .f32 := Host.absf main_arg20
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256x256 .f32 := Host.absf main_arg21
  let main_cst_36 : FVec F S_ .f32 := constant S_ .f32 0x7F800000#32
  let main_v95 : FVec F S256x256 .f32 := broadcastInDim S256x256 ![] bcast_S_S256x256 main_cst_36
  let main_v96 : IVec S256x256 1 := cmpf .olt main_v94 main_v95
  let main_c_37 : IVec S_ 1 := constantI S_ 1 1#1
  let main_v97 : IVec S_ 1 := (fun x v => Host.reduce IntOp.andi x v reducesTo_S256x256_S_d0_1 h_S_) main_v96 main_c_37
  let main_v98 : IVec S_ 1 := andi main_v93 main_v97
  let main_v99 : FVec F S256 .f32 := Host.absf main_arg22
  let main_cst_38 : FVec F S_ .f32 := constant S_ .f32 0x7F800000#32
  let main_v100 : FVec F S256 .f32 := broadcastInDim S256 ![] bcast_S_S256 main_cst_38
  let main_v101 : IVec S256 1 := cmpf .olt main_v99 main_v100
  let main_c_39 : IVec S_ 1 := constantI S_ 1 1#1
  fn_part6 (F := F) main_arg23 main_arg24 main_arg25 main_arg26 main_arg27 main_arg28 main_v98 main_v101 main_c_39

def fn_part4 {F : FTy → Type} [FloatOps F] (main_arg16 : FVec F S256 .f32) (main_arg17 : FVec F S256x256 .f32) (main_arg18 : FVec F S256 .f32) (main_arg19 : FVec F S256x256 .f32) (main_arg20 : FVec F S256 .f32) (main_arg21 : FVec F S256x256 .f32) (main_arg22 : FVec F S256 .f32) (main_arg23 : FVec F S256x256 .f32) (main_arg24 : FVec F S256 .f32) (main_arg25 : FVec F S256x256 .f32) (main_arg26 : FVec F S256 .f32) (main_arg27 : FVec F S256x256 .f32) (main_arg28 : FVec F S256 .f32) (main_v63 : IVec S_ 1) (main_v67 : IVec S_ 1) : IVec S_ 1 :=
  let main_v68 : IVec S_ 1 := andi main_v63 main_v67
  let main_v69 : FVec F S256 .f32 := Host.absf main_arg16
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x256 .f32 := Host.absf main_arg17
  let main_cst_28 : FVec F S_ .f32 := constant S_ .f32 0x7F800000#32
  let main_v75 : FVec F S256x256 .f32 := broadcastInDim S256x256 ![] bcast_S_S256x256 main_cst_28
  let main_v76 : IVec S256x256 1 := cmpf .olt main_v74 main_v75
  let main_c_29 : IVec S_ 1 := constantI S_ 1 1#1
  let main_v77 : IVec S_ 1 := (fun x v => Host.reduce IntOp.andi x v reducesTo_S256x256_S_d0_1 h_S_) main_v76 main_c_29
  let main_v78 : IVec S_ 1 := andi main_v73 main_v77
  let main_v79 : FVec F S256 .f32 := Host.absf main_arg18
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256x256 .f32 := Host.absf main_arg19
  let main_cst_32 : FVec F S_ .f32 := constant S_ .f32 0x7F800000#32
  fn_part5 (F := F) main_arg20 main_arg21 main_arg22 main_arg23 main_arg24 main_arg25 main_arg26 main_arg27 main_arg28 main_v83 main_v84 main_cst_32

def fn_part3 {F : FTy → Type} [FloatOps F] (main_arg13 : FVec F S256x64 .f32) (main_arg14 : FVec F S64x256 .f32) (main_arg15 : FVec F S256x256 .f32) (main_arg16 : FVec F S256 .f32) (main_arg17 : FVec F S256x256 .f32) (main_arg18 : FVec F S256 .f32) (main_arg19 : FVec F S256x256 .f32) (main_arg20 : FVec F S256 .f32) (main_arg21 : FVec F S256x256 .f32) (main_arg22 : FVec F S256 .f32) (main_arg23 : FVec F S256x256 .f32) (main_arg24 : FVec F S256 .f32) (main_arg25 : FVec F S256x256 .f32) (main_arg26 : FVec F S256 .f32) (main_arg27 : FVec F S256x256 .f32) (main_arg28 : FVec F S256 .f32) (main_v48 : IVec S_ 1) (main_v49 : FVec F S8x64 .f32) (main_v50 : FVec F S8x64 .f32) : IVec S_ 1 :=
  let main_v51 : IVec S8x64 1 := cmpf .olt main_v49 main_v50
  let main_c_19 : IVec S_ 1 := constantI S_ 1 1#1
  let main_v52 : IVec S_ 1 := (fun x v => Host.reduce IntOp.andi x v reducesTo_S8x64_S_d0_1 h_S_) main_v51 main_c_19
  let main_v53 : IVec S_ 1 := andi main_v48 main_v52
  let main_v54 : FVec F S256x64 .f32 := Host.absf main_arg13
  let main_cst_20 : FVec F S_ .f32 := constant S_ .f32 0x7F800000#32
  let main_v55 : FVec F S256x64 .f32 := broadcastInDim S256x64 ![] bcast_S_S256x64 main_cst_20
  let main_v56 : IVec S256x64 1 := cmpf .olt main_v54 main_v55
  let main_c_21 : IVec S_ 1 := constantI S_ 1 1#1
  let main_v57 : IVec S_ 1 := (fun x v => Host.reduce IntOp.andi x v reducesTo_S256x64_S_d0_1 h_S_) main_v56 main_c_21
  let main_v58 : IVec S_ 1 := andi main_v53 main_v57
  let main_v59 : FVec F S64x256 .f32 := Host.absf main_arg14
  let main_cst_22 : FVec F S_ .f32 := constant S_ .f32 0x7F800000#32
  let main_v60 : FVec F S64x256 .f32 := broadcastInDim S64x256 ![] bcast_S_S64x256 main_cst_22
  let main_v61 : IVec S64x256 1 := cmpf .olt main_v59 main_v60
  let main_c_23 : IVec S_ 1 := constantI S_ 1 1#1
  let main_v62 : IVec S_ 1 := (fun x v => Host.reduce IntOp.andi x v reducesTo_S64x256_S_d0_1 h_S_) main_v61 main_c_23
  let main_v63 : IVec S_ 1 := andi main_v58 main_v62
  let main_v64 : FVec F S256x256 .f32 := Host.absf main_arg15
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg16 main_arg17 main_arg18 main_arg19 main_arg20 main_arg21 main_arg22 main_arg23 main_arg24 main_arg25 main_arg26 main_arg27 main_arg28 main_v63 main_v67

def fn_part2 {F : FTy → Type} [FloatOps F] (main_arg9 : FVec F S6x8 .f32) (main_arg10 : FVec F S8x256 .f32) (main_arg11 : FVec F S42x8 .f32) (main_arg12 : FVec F S8x64 .f32) (main_arg13 : FVec F S256x64 .f32) (main_arg14 : FVec F S64x256 .f32) (main_arg15 : FVec F S256x256 .f32) (main_arg16 : FVec F S256 .f32) (main_arg17 : FVec F S256x256 .f32) (main_arg18 : FVec F S256 .f32) (main_arg19 : FVec F S256x256 .f32) (main_arg20 : FVec F S256 .f32) (main_arg21 : FVec F S256x256 .f32) (main_arg22 : FVec F S256 .f32) (main_arg23 : FVec F S256x256 .f32) (main_arg24 : FVec F S256 .f32) (main_arg25 : FVec F S256x256 .f32) (main_arg26 : FVec F S256 .f32) (main_arg27 : FVec F S256x256 .f32) (main_arg28 : FVec F S256 .f32) (main_v33 : IVec S_ 1) : IVec S_ 1 :=
  let main_v34 : FVec F S6x8 .f32 := Host.absf main_arg9
  let main_cst_12 : FVec F S_ .f32 := constant S_ .f32 0x7F800000#32
  let main_v35 : FVec F S6x8 .f32 := broadcastInDim S6x8 ![] bcast_S_S6x8 main_cst_12
  let main_v36 : IVec S6x8 1 := cmpf .olt main_v34 main_v35
  let main_c_13 : IVec S_ 1 := constantI S_ 1 1#1
  let main_v37 : IVec S_ 1 := (fun x v => Host.reduce IntOp.andi x v reducesTo_S6x8_S_d0_1 h_S_) main_v36 main_c_13
  let main_v38 : IVec S_ 1 := andi main_v33 main_v37
  let main_v39 : FVec F S8x256 .f32 := Host.absf main_arg10
  let main_cst_14 : FVec F S_ .f32 := constant S_ .f32 0x7F800000#32
  let main_v40 : FVec F S8x256 .f32 := broadcastInDim S8x256 ![] bcast_S_S8x256 main_cst_14
  let main_v41 : IVec S8x256 1 := cmpf .olt main_v39 main_v40
  let main_c_15 : IVec S_ 1 := constantI S_ 1 1#1
  let main_v42 : IVec S_ 1 := (fun x v => Host.reduce IntOp.andi x v reducesTo_S8x256_S_d0_1 h_S_) main_v41 main_c_15
  let main_v43 : IVec S_ 1 := andi main_v38 main_v42
  let main_v44 : FVec F S42x8 .f32 := Host.absf main_arg11
  let main_cst_16 : FVec F S_ .f32 := constant S_ .f32 0x7F800000#32
  let main_v45 : FVec F S42x8 .f32 := broadcastInDim S42x8 ![] bcast_S_S42x8 main_cst_16
  let main_v46 : IVec S42x8 1 := cmpf .olt main_v44 main_v45
  let main_c_17 : IVec S_ 1 := constantI S_ 1 1#1
  let main_v47 : IVec S_ 1 := (fun x v => Host.reduce IntOp.andi x v reducesTo_S42x8_S_d0_1 h_S_) main_v46 main_c_17
  let main_v48 : IVec S_ 1 := andi main_v43 main_v47
  let main_v49 : FVec F S8x64 .f32 := Host.absf main_arg12
  let main_cst_18 : FVec F S_ .f32 := constant S_ .f32 0x7F800000#32
  let main_v50 : FVec F S8x64 .f32 := broadcastInDim S8x64 ![] bcast_S_S8x64 main_cst_18
  fn_part3 (F := F) main_arg13 main_arg14 main_arg15 main_arg16 main_arg17 main_arg18 main_arg19 main_arg20 main_arg21 main_arg22 main_arg23 main_arg24 main_arg25 main_arg26 main_arg27 main_arg28 main_v48 main_v49 main_v50

def fn_part1 {F : FTy → Type} [FloatOps F] (main_arg6 : FVec F S256 .f32) (main_arg7 : FVec F S256x256 .f32) (main_arg8 : FVec F S256 .f32) (main_arg9 : FVec F S6x8 .f32) (main_arg10 : FVec F S8x256 .f32) (main_arg11 : FVec F S42x8 .f32) (main_arg12 : FVec F S8x64 .f32) (main_arg13 : FVec F S256x64 .f32) (main_arg14 : FVec F S64x256 .f32) (main_arg15 : FVec F S256x256 .f32) (main_arg16 : FVec F S256 .f32) (main_arg17 : FVec F S256x256 .f32) (main_arg18 : FVec F S256 .f32) (main_arg19 : FVec F S256x256 .f32) (main_arg20 : FVec F S256 .f32) (main_arg21 : FVec F S256x256 .f32) (main_arg22 : FVec F S256 .f32) (main_arg23 : FVec F S256x256 .f32) (main_arg24 : FVec F S256 .f32) (main_arg25 : FVec F S256x256 .f32) (main_arg26 : FVec F S256 .f32) (main_arg27 : FVec F S256x256 .f32) (main_arg28 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_arg28 main_v33

def fn {F : FTy → Type} [FloatOps F] (main_arg0 : FVec F S131072x256 .f32) (main_arg1 : FVec F S131072x6 .f32) (main_arg2 : FVec F S1048576x42 .f32) (main_arg3 : IVec S1048576 32) (main_arg4 : IVec S1048576 32) (main_arg5 : FVec F S256x256 .f32) (main_arg6 : FVec F S256 .f32) (main_arg7 : FVec F S256x256 .f32) (main_arg8 : FVec F S256 .f32) (main_arg9 : FVec F S6x8 .f32) (main_arg10 : FVec F S8x256 .f32) (main_arg11 : FVec F S42x8 .f32) (main_arg12 : FVec F S8x64 .f32) (main_arg13 : FVec F S256x64 .f32) (main_arg14 : FVec F S64x256 .f32) (main_arg15 : FVec F S256x256 .f32) (main_arg16 : FVec F S256 .f32) (main_arg17 : FVec F S256x256 .f32) (main_arg18 : FVec F S256 .f32) (main_arg19 : FVec F S256x256 .f32) (main_arg20 : FVec F S256 .f32) (main_arg21 : FVec F S256x256 .f32) (main_arg22 : FVec F S256 .f32) (main_arg23 : FVec F S256x256 .f32) (main_arg24 : FVec F S256 .f32) (main_arg25 : FVec F S256x256 .f32) (main_arg26 : FVec F S256 .f32) (main_arg27 : FVec F S256x256 .f32) (main_arg28 : FVec F S256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S131072x6 .f32 := Host.absf main_arg1
  let main_cst_0 : FVec F S_ .f32 := constant S_ .f32 0x7F800000#32
  let main_v5 : FVec F S131072x6 .f32 := broadcastInDim S131072x6 ![] bcast_S_S131072x6 main_cst_0
  let main_v6 : IVec S131072x6 1 := cmpf .olt main_v4 main_v5
  let main_c_1 : IVec S_ 1 := constantI S_ 1 1#1
  let main_v7 : IVec S_ 1 := (fun x v => Host.reduce IntOp.andi x v reducesTo_S131072x6_S_d0_1 h_S_) main_v6 main_c_1
  let main_v8 : IVec S_ 1 := andi main_v3 main_v7
  let main_v9 : FVec F S1048576x42 .f32 := Host.absf main_arg2
  let main_cst_2 : FVec F S_ .f32 := constant S_ .f32 0x7F800000#32
  let main_v10 : FVec F S1048576x42 .f32 := broadcastInDim S1048576x42 ![] bcast_S_S1048576x42 main_cst_2
  let main_v11 : IVec S1048576x42 1 := cmpf .olt main_v9 main_v10
  let main_c_3 : IVec S_ 1 := constantI S_ 1 1#1
  let main_v12 : IVec S_ 1 := (fun x v => Host.reduce IntOp.andi x v reducesTo_S1048576x42_S_d0_1 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S131072x256 : Shape := ⟨2, ![131072, 256]⟩
abbrev S131072x6 : Shape := ⟨2, ![131072, 6]⟩
abbrev S1048576x42 : Shape := ⟨2, ![1048576, 42]⟩
abbrev S1048576 : Shape := ⟨1, ![1048576]⟩
abbrev S256x256 : Shape := ⟨2, ![256, 256]⟩
abbrev S256 : Shape := ⟨1, ![256]⟩
abbrev S6x8 : Shape := ⟨2, ![6, 8]⟩
abbrev S8x256 : Shape := ⟨2, ![8, 256]⟩
abbrev S42x8 : Shape := ⟨2, ![42, 8]⟩
abbrev S8x64 : Shape := ⟨2, ![8, 64]⟩
abbrev S256x64 : Shape := ⟨2, ![256, 64]⟩
abbrev S64x256 : Shape := ⟨2, ![64, 256]⟩
abbrev S131072x64 : Shape := ⟨2, ![131072, 64]⟩
abbrev S4096x256 : Shape := ⟨2, ![4096, 256]⟩
abbrev S4096x6 : Shape := ⟨2, ![4096, 6]⟩
abbrev S4096x64 : Shape := ⟨2, ![4096, 64]⟩
abbrev S1x256 : Shape := ⟨2, ![1, 256]⟩
abbrev S4096x8 : Shape := ⟨2, ![4096, 8]⟩
abbrev S1048576x64 : Shape := ⟨2, ![1048576, 64]⟩
abbrev S32768x42 : Shape := ⟨2, ![32768, 42]⟩
abbrev S32768x64 : Shape := ⟨2, ![32768, 64]⟩
abbrev S32768x8 : Shape := ⟨2, ![32768, 8]⟩
abbrev S_ : Shape := ⟨0, ![]⟩
abbrev S1048576x1 : Shape := ⟨2, ![1048576, 1]⟩

abbrev nBuf : Space → Nat
  | .hbm => 47
  | .vmem => 44
  | .smem => 0
  | _ => 0

abbrev bufTy : (tb : Table) → Fin (tcTables nBuf tb) → BufTy
  | .hbm, ⟨0, _⟩ => ⟨S131072x256, .f32⟩
  | .hbm, ⟨1, _⟩ => ⟨S131072x6, .f32⟩
  | .hbm, ⟨2, _⟩ => ⟨S1048576x42, .f32⟩
  | .hbm, ⟨3, _⟩ => ⟨S1048576, .i32⟩
  | .hbm, ⟨4, _⟩ => ⟨S1048576, .i32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S6x8, .f32⟩
  | .hbm, ⟨10, _⟩ => ⟨S8x256, .f32⟩
  | .hbm, ⟨11, _⟩ => ⟨S42x8, .f32⟩
  | .hbm, ⟨12, _⟩ => ⟨S8x64, .f32⟩
  | .hbm, ⟨13, _⟩ => ⟨S256x64, .f32⟩
  | .hbm, ⟨14, _⟩ => ⟨S64x256, .f32⟩
  | .hbm, ⟨15, _⟩ => ⟨S256x256, .f32⟩
  | .hbm, ⟨16, _⟩ => ⟨S256, .f32⟩
  | .hbm, ⟨17, _⟩ => ⟨S256x256, .f32⟩
  | .hbm, ⟨18, _⟩ => ⟨S256, .f32⟩
  | .hbm, ⟨19, _⟩ => ⟨S256x256, .f32⟩
  | .hbm, ⟨20, _⟩ => ⟨S256, .f32⟩
  | .hbm, ⟨21, _⟩ => ⟨S256x256, .f32⟩
  | .hbm, ⟨22, _⟩ => ⟨S256, .f32⟩
  | .hbm, ⟨23, _⟩ => ⟨S256x256, .f32⟩
  | .hbm, ⟨24, _⟩ => ⟨S256, .f32⟩
  | .hbm, ⟨25, _⟩ => ⟨S256x256, .f32⟩
  | .hbm, ⟨26, _⟩ => ⟨S256, .f32⟩
  | .hbm, ⟨27, _⟩ => ⟨S256x256, .f32⟩
  | .hbm, ⟨28, _⟩ => ⟨S256, .f32⟩
  | .hbm, ⟨29, _⟩ => ⟨S131072x256, .f32⟩
  | .hbm, ⟨30, _⟩ => ⟨S131072x64, .f32⟩
  | .hbm, ⟨31, _⟩ => ⟨S1048576x64, .f32⟩
  | .hbm, ⟨32, _⟩ => ⟨S_, .i32⟩
  | .hbm, ⟨33, _⟩ => ⟨S1048576, .i32⟩
  | .hbm, ⟨34, _⟩ => ⟨S1048576, .i1⟩
  | .hbm, ⟨35, _⟩ => ⟨S_, .i32⟩
  | .hbm, ⟨36, _⟩ => ⟨S1048576, .i32⟩
  | .hbm, ⟨37, _⟩ => ⟨S1048576, .i32⟩
  | .hbm, ⟨38, _⟩ => ⟨S1048576, .i32⟩
  | .hbm, ⟨39, _⟩ => ⟨S1048576x1, .i32⟩
  | .hbm, ⟨40, _⟩ => ⟨S1048576x64, .f32⟩
  | .hbm, ⟨41, _⟩ => ⟨S1048576x64, .f32⟩
  | .hbm, ⟨42, _⟩ => ⟨S_, .f32⟩
  | .hbm, ⟨43, _⟩ => ⟨S131072x64, .f32⟩
  | .hbm, ⟨44, _⟩ => ⟨S1048576x1, .i32⟩
  | .hbm, ⟨45, _⟩ => ⟨S131072x64, .f32⟩
  | .hbm, ⟨46, _⟩ => ⟨S131072x256, .f32⟩
  | .local _ .vmem, ⟨0, _⟩ => ⟨S4096x256, .f32⟩
  | .local _ .vmem, ⟨1, _⟩ => ⟨S4096x256, .f32⟩
  | .local _ .vmem, ⟨2, _⟩ => ⟨S4096x6, .f32⟩
  | .local _ .vmem, ⟨3, _⟩ => ⟨S4096x6, .f32⟩
  | .local _ .vmem, ⟨4, _⟩ => ⟨S256x256, .f32⟩
  | .local _ .vmem, ⟨5, _⟩ => ⟨S256, .f32⟩
  | .local _ .vmem, ⟨6, _⟩ => ⟨S256x256, .f32⟩
  | .local _ .vmem, ⟨7, _⟩ => ⟨S256, .f32⟩
  | .local _ .vmem, ⟨8, _⟩ => ⟨S6x8, .f32⟩
  | .local _ .vmem, ⟨9, _⟩ => ⟨S8x256, .f32⟩
  | .local _ .vmem, ⟨10, _⟩ => ⟨S256x64, .f32⟩
  | .local _ .vmem, ⟨11, _⟩ => ⟨S4096x256, .f32⟩
  | .local _ .vmem, ⟨12, _⟩ => ⟨S4096x256, .f32⟩
  | .local _ .vmem, ⟨13, _⟩ => ⟨S4096x64, .f32⟩
  | .local _ .vmem, ⟨14, _⟩ => ⟨S4096x64, .f32⟩
  | .local _ .vmem, ⟨15, _⟩ => ⟨S32768x42, .f32⟩
  | .local _ .vmem, ⟨16, _⟩ => ⟨S32768x42, .f32⟩
  | .local _ .vmem, ⟨17, _⟩ => ⟨S42x8, .f32⟩
  | .local _ .vmem, ⟨18, _⟩ => ⟨S8x64, .f32⟩
  | .local _ .vmem, ⟨19, _⟩ => ⟨S32768x64, .f32⟩
  | .local _ .vmem, ⟨20, _⟩ => ⟨S32768x64, .f32⟩
  | .local _ .vmem, ⟨21, _⟩ => ⟨S4096x256, .f32⟩
  | .local _ .vmem, ⟨22, _⟩ => ⟨S4096x256, .f32⟩
  | .local _ .vmem, ⟨23, _⟩ => ⟨S4096x64, .f32⟩
  | .local _ .vmem, ⟨24, _⟩ => ⟨S4096x64, .f32⟩
  | .local _ .vmem, ⟨25, _⟩ => ⟨S4096x256, .f32⟩
  | .local _ .vmem, ⟨26, _⟩ => ⟨S4096x256, .f32⟩
  | .local _ .vmem, ⟨27, _⟩ => ⟨S64x256, .f32⟩
  | .local _ .vmem, ⟨28, _⟩ => ⟨S256x256, .f32⟩
  | .local _ .vmem, ⟨29, _⟩ => ⟨S256, .f32⟩
  | .local _ .vmem, ⟨30, _⟩ => ⟨S256x256, .f32⟩
  | .local _ .vmem, ⟨31, _⟩ => ⟨S256, .f32⟩
  | .local _ .vmem, ⟨32, _⟩ => ⟨S256x256, .f32⟩
  | .local _ .vmem, ⟨33, _⟩ => ⟨S256, .f32⟩
  | .local _ .vmem, ⟨34, _⟩ => ⟨S256x256, .f32⟩
  | .local _ .vmem, ⟨35, _⟩ => ⟨S256, .f32⟩
  | .local _ .vmem, ⟨36, _⟩ => ⟨S256x256, .f32⟩
  | .local _ .vmem, ⟨37, _⟩ => ⟨S256, .f32⟩
  | .local _ .vmem, ⟨38, _⟩ => ⟨S256x256, .f32⟩
  | .local _ .vmem, ⟨39, _⟩ => ⟨S256, .f32⟩
  | .local _ .vmem, ⟨40, _⟩ => ⟨S256x256, .f32⟩
  | .local _ .vmem, ⟨41, _⟩ => ⟨S256, .f32⟩
  | .local _ .vmem, ⟨42, _⟩ => ⟨S4096x256, .f32⟩
  | .local _ .vmem, ⟨43, _⟩ => ⟨S4096x256, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0_0 : Ref sig .tc := ⟨.hbm, 29, rfl⟩
abbrev main_v0_1 : Ref sig .tc := ⟨.hbm, 30, rfl⟩
abbrev main_v1 : Ref sig .tc := ⟨.hbm, 31, rfl⟩
abbrev main_c : Ref sig .tc := ⟨.hbm, 32, rfl⟩
abbrev main_v2 : Ref sig .tc := ⟨.hbm, 33, rfl⟩
abbrev main_v3 : Ref sig .tc := ⟨.hbm, 34, rfl⟩
abbrev main_c_0 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_cst : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg3_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg8_0 : Ref sig .tc := ⟨.vmem, 32, rfl⟩
abbrev cc2_stg9_0 : Ref sig .tc := ⟨.vmem, 33, rfl⟩
abbrev cc2_stg10_0 : Ref sig .tc := ⟨.vmem, 34, rfl⟩
abbrev cc2_stg11_0 : Ref sig .tc := ⟨.vmem, 35, rfl⟩
abbrev cc2_stg12_0 : Ref sig .tc := ⟨.vmem, 36, rfl⟩
abbrev cc2_stg13_0 : Ref sig .tc := ⟨.vmem, 37, rfl⟩
abbrev cc2_stg14_0 : Ref sig .tc := ⟨.vmem, 38, rfl⟩
abbrev cc2_stg15_0 : Ref sig .tc := ⟨.vmem, 39, rfl⟩
abbrev cc2_stg16_0 : Ref sig .tc := ⟨.vmem, 40, rfl⟩
abbrev cc2_stg17_0 : Ref sig .tc := ⟨.vmem, 41, rfl⟩
abbrev cc2_stg18_0 : Ref sig .tc := ⟨.vmem, 42, rfl⟩
abbrev cc2_stg18_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem3_0 : DmaSem sig := 19
abbrev cc1_sem3_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem8_0 : DmaSem sig := 32
abbrev cc2_sem9_0 : DmaSem sig := 33
abbrev cc2_sem10_0 : DmaSem sig := 34
abbrev cc2_sem11_0 : DmaSem sig := 35
abbrev cc2_sem12_0 : DmaSem sig := 36
abbrev cc2_sem13_0 : DmaSem sig := 37
abbrev cc2_sem14_0 : DmaSem sig := 38
abbrev cc2_sem15_0 : DmaSem sig := 39
abbrev cc2_sem16_0 : DmaSem sig := 40
abbrev cc2_sem17_0 : DmaSem sig := 41
abbrev cc2_sem18_0 : DmaSem sig := 42
abbrev cc2_sem18_1 : DmaSem sig := 43

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S6x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4096x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4096x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S32768x42 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S42x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S32768x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_16 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_17 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_18 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4096x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S256x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S256 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S256x256 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S256 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S256x256 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S256 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S256x256 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S256 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 1 → Memref sig .tc .vmem S256x256 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false]

abbrev stage2_17 : Fin 1 → Memref sig .tc .vmem S256 .f32 := fun | 0 => Memref.whole cc2_stg17_0 | ⟨_ + 1, h⟩ => absurd h (Nat.not_lt.2 (Nat.le_add_left _ _))
abbrev sem2_17 : Fin 1 → DmaSem sig := fun | 0 => cc2_sem17_0 | ⟨_ + 1, h⟩ => absurd h (Nat.not_lt.2 (Nat.le_add_left _ _))
abbrev reads2_17 : Fin grid2.rank → Bool := ![false]

abbrev stage2_18 : Fin 2 → Memref sig .tc .vmem S4096x256 .f32 := fun | 0 => Memref.whole cc2_stg18_0 | 1 => Memref.whole cc2_stg18_1 | ⟨_ + 2, h⟩ => absurd h (Nat.not_lt.2 (Nat.le_add_left _ _))
abbrev sem2_18 : Fin 2 → DmaSem sig := fun | 0 => cc2_sem18_0 | 1 => cc2_sem18_1 | ⟨_ + 2, h⟩ => absurd h (Nat.not_lt.2 (Nat.le_add_left _ _))
abbrev reads2_18 : Fin grid2.rank → Bool := ![true]

class Facts₀ : Prop where
  inb_S4096x256_S4096x256_0_0 : ∀ a, (![0, 0] : Fin 2 → Nat) a + S4096x256.size a ≤ S4096x256.size a
  h_S4096x256 : 0 < S4096x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  inb_S4096x6_S4096x6_0_0 : ∀ a, (![0, 0] : Fin 2 → Nat) a + S4096x6.size a ≤ S4096x6.size a
  h_S4096x6 : 0 < S4096x6.numel
  inb_S6x8_S6x8_0_0 : ∀ a, (![0, 0] : Fin 2 → Nat) a + S6x8.size a ≤ S6x8.size a
  h_S6x8 : 0 < S6x8.numel
  inb_S8x256_S8x256_0_0 : ∀ a, (![0, 0] : Fin 2 → Nat) a + S8x256.size a ≤ S8x256.size a
  h_S8x256 : 0 < S8x256.numel
  inb_S256x64_S256x64_0_0 : ∀ a, (![0, 0] : Fin 2 → Nat) a + S256x64.size a ≤ S256x64.size a
  h_S256x64 : 0 < S256x64.numel
  inb_S4096x64_S4096x64_0_0 : ∀ a, (![0, 0] : Fin 2 → Nat) a + S4096x64.size a ≤ S4096x64.size a
  h_S4096x64 : 0 < S4096x64.numel
  inb_S32768x42_S32768x42_0_0 : ∀ a, (![0, 0] : Fin 2 → Nat) a + S32768x42.size a ≤ S32768x42.size a
  h_S32768x42 : 0 < S32768x42.numel
  inb_S42x8_S42x8_0_0 : ∀ a, (![0, 0] : Fin 2 → Nat) a + S42x8.size a ≤ S42x8.size a
  h_S42x8 : 0 < S42x8.numel
  inb_S8x64_S8x64_0_0 : ∀ a, (![0, 0] : Fin 2 → Nat) a + S8x64.size a ≤ S8x64.size a
  h_S8x64 : 0 < S8x64.numel
  inb_S32768x64_S32768x64_0_0 : ∀ a, (![0, 0] : Fin 2 → Nat) a + S32768x64.size a ≤ S32768x64.size a
  h_S32768x64 : 0 < S32768x64.numel
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S_S131072x64 : S_.BroadcastsInDim S131072x64 (![] : Fin 0 → Fin S131072x64.rank)
  shapeCasts_S4096x64_S4096x64 : S4096x64.ShapeCasts S4096x64
  inb_S64x256_S64x256_0_0 : ∀ a, (![0, 0] : Fin 2 → Nat) a + S64x256.size a ≤ S64x256.size a
  h_S64x256 : 0 < S64x256.numel
  shapeCasts_S4096x256_S4096x256 : S4096x256.ShapeCasts S4096x256
  dot_S4096x256_S256x256_S4096x256_1_0_0_1_n_n_wf : DotDims.WF S4096x256 S256x256 S4096x256 [1] [0] [0] [1] [] []
  dot_S4096x6_S6x8_S4096x8_1_0_0_1_n_n_wf : DotDims.WF S4096x6 S6x8 S4096x8 [1] [0] [0] [1] [] []
  dot_S4096x8_S8x256_S4096x256_1_0_0_1_n_n_wf : DotDims.WF S4096x8 S8x256 S4096x256 [1] [0] [0] [1] [] []
  dot_S4096x256_S256x64_S4096x64_1_0_0_1_n_n_wf : DotDims.WF S4096x256 S256x64 S4096x64 [1] [0] [0] [1] [] []
  dot_S32768x42_S42x8_S32768x8_1_0_0_1_n_n_wf : DotDims.WF S32768x42 S42x8 S32768x8 [1] [0] [0] [1] [] []
  dot_S32768x8_S8x64_S32768x64_1_0_0_1_n_n_wf : DotDims.WF S32768x8 S8x64 S32768x64 [1] [0] [0] [1] [] []
  gather_S131072x64_S1048576x1_S1048576x64_1_0_n_n_0_1_164_wf : GatherDims.WF S131072x64 S1048576x1 S1048576x64 [1] [0] [] [0] [] 1 ![1, 64]
  scatter_S131072x64_S1048576x1_S1048576x64_1_0_0_1_wf : ScatterDims.WF S131072x64 S1048576x1 S1048576x64 [1] [0] [0] 1
  dot_S4096x64_S64x256_S4096x256_1_0_0_1_n_n_wf : DotDims.WF S4096x64 S64x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S131072x256.size a
  hwx0_0 : ∀ i : grid0.Coords, EltTy.bits .f32 = 32 ∨ (Rect.block (s := S131072x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x6.size a ≤ S131072x6.size a
  hwx0_1 : ∀ i : grid0.Coords, EltTy.bits .f32 = 32 ∨ (Rect.block (s := S131072x6) S4096x6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S6x8.size a ≤ S6x8.size a
  hwx0_6 : ∀ i : grid0.Coords, EltTy.bits .f32 = 32 ∨ (Rect.block (s := S6x8) S6x8.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x256.size a ≤ S8x256.size a
  hwx0_7 : ∀ i : grid0.Coords, EltTy.bits .f32 = 32 ∨ (Rect.block (s := S8x256) S8x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x64.size a ≤ S256x64.size a
  hwx0_8 : ∀ i : grid0.Coords, EltTy.bits .f32 = 32 ∨ (Rect.block (s := S256x64) S256x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4096x256.size a ≤ S131072x256.size a
  hwx0_9 : ∀ i : grid0.Coords, EltTy.bits .f32 = 32 ∨ (Rect.block (s := S131072x256) S4096x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4096x64.size a ≤ S131072x64.size a
  hwx0_10 : ∀ i : grid0.Coords, EltTy.bits .f32 = 32 ∨ (Rect.block (s := S131072x64) S4096x64.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32768x42.size a ≤ S1048576x42.size a
  hwx1_0 : ∀ i : grid1.Coords, EltTy.bits .f32 = 32 ∨ (Rect.block (s := S1048576x42) S32768x42.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S42x8.size a ≤ S42x8.size a
  hwx1_1 : ∀ i : grid1.Coords, EltTy.bits .f32 = 32 ∨ (Rect.block (s := S42x8) S42x8.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x64.size a ≤ S8x64.size a
  hwx1_2 : ∀ i : grid1.Coords, EltTy.bits .f32 = 32 ∨ (Rect.block (s := S8x64) S8x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S32768x64.size a ≤ S1048576x64.size a
  hwx1_3 : ∀ i : grid1.Coords, EltTy.bits .f32 = 32 ∨ (Rect.block (s := S1048576x64) S32768x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x256.size a ≤ S131072x256.size a
  hwx2_0 : ∀ i : grid2.Coords, EltTy.bits .f32 = 32 ∨ (Rect.block (s := S131072x256) S4096x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x64.size a ≤ S131072x64.size a
  hwx2_1 : ∀ i : grid2.Coords, EltTy.bits .f32 = 32 ∨ (Rect.block (s := S131072x64) S4096x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x256.size a ≤ S131072x256.size a
  hwx2_2 : ∀ i : grid2.Coords, EltTy.bits .f32 = 32 ∨ (Rect.block (s := S131072x256) S4096x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x256.size a ≤ S64x256.size a
  hwx2_3 : ∀ i : grid2.Coords, EltTy.bits .f32 = 32 ∨ (Rect.block (s := S64x256) S64x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256.size a ≤ S256.size a
  hwx2_5 : ∀ i : grid2.Coords, EltTy.bits .f32 = 32 ∨ (Rect.block (s := S256) S256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256x256.size a ≤ S256x256.size a
  hwx2_6 : ∀ i : grid2.Coords, EltTy.bits .f32 = 32 ∨ (Rect.block (s := S256x256) S256x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S256.size a ≤ S256.size a
  hwx2_7 : ∀ i : grid2.Coords, EltTy.bits .f32 = 32 ∨ (Rect.block (s := S256) S256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S256x256.size a ≤ S256x256.size a
  hwx2_8 : ∀ i : grid2.Coords, EltTy.bits .f32 = 32 ∨ (Rect.block (s := S256x256) S256x256.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S256.size a ≤ S256.size a
  hwx2_9 : ∀ i : grid2.Coords, EltTy.bits .f32 = 32 ∨ (Rect.block (s := S256) S256.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S256x256.size a ≤ S256x256.size a
  hwx2_10 : ∀ i : grid2.Coords, EltTy.bits .f32 = 32 ∨ (Rect.block (s := S256x256) S256x256.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S256.size a ≤ S256.size a
  hwx2_11 : ∀ i : grid2.Coords, EltTy.bits .f32 = 32 ∨ (Rect.block (s := S256) S256.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S256x256.size a ≤ S256x256.size a
  hwx2_12 : ∀ i : grid2.Coords, EltTy.bits .f32 = 32 ∨ (Rect.block (s := S256x256) S256x256.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S256.size a ≤ S256.size a
  hwx2_13 : ∀ i : grid2.Coords, EltTy.bits .f32 = 32 ∨ (Rect.block (s := S256) S256.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S256x256.size a ≤ S256x256.size a
  hwx2_14 : ∀ i : grid2.Coords, EltTy.bits .f32 = 32 ∨ (Rect.block (s := S256x256) S256x256.size (cc2_transform_14 i) (hinb2_14 i)).WholeWords (EltTy.packing .f32)
  hstage2_15 : ∀ j, (stage2_15 j).IsWhole
  nbuf2_15 : grid2.bufCount reads2_15 true = 1
  hreads2_15 : ∀ i i' : grid2.Coords, (∀ a, reads2_15 a = true → i a = i' a) → cc2_transform_15 i = cc2_transform_15 i'
  hinb2_15 : ∀ (i : grid2.Coords) a, (cc2_transform_15 i a + 1) * S256.size a ≤ S256.size a
  hwx2_15 : ∀ i : grid2.Coords, EltTy.bits .f32 = 32 ∨ (Rect.block (s := S256) S256.size (cc2_transform_15 i) (hinb2_15 i)).WholeWords (EltTy.packing .f32)
  hstage2_16 : ∀ j, (stage2_16 j).IsWhole
  nbuf2_16 : grid2.bufCount reads2_16 true = 1
  hreads2_16 : ∀ i i' : grid2.Coords, (∀ a, reads2_16 a = true → i a = i' a) → cc2_transform_16 i = cc2_transform_16 i'
  hinb2_16 : ∀ (i : grid2.Coords) a, (cc2_transform_16 i a + 1) * S256x256.size a ≤ S256x256.size a
  hwx2_16 : ∀ i : grid2.Coords, EltTy.bits .f32 = 32 ∨ (Rect.block (s := S256x256) S256x256.size (cc2_transform_16 i) (hinb2_16 i)).WholeWords (EltTy.packing .f32)
  hstage2_17 : ∀ j, (stage2_17 j).IsWhole
  nbuf2_17 : grid2.bufCount reads2_17 true = 1
  hreads2_17 : ∀ i i' : grid2.Coords, (∀ a, reads2_17 a = true → i a = i' a) → cc2_transform_17 i = cc2_transform_17 i'
  hinb2_17 : ∀ (i : grid2.Coords) a, (cc2_transform_17 i a + 1) * S256.size a ≤ S256.size a
  hwx2_17 : ∀ i : grid2.Coords, EltTy.bits .f32 = 32 ∨ (Rect.block (s := S256) S256.size (cc2_transform_17 i) (hinb2_17 i)).WholeWords (EltTy.packing .f32)
  hstage2_18 : ∀ j, (stage2_18 j).IsWhole
  nbuf2_18 : grid2.bufCount reads2_18 false = 2
  hreads2_18 : ∀ i i' : grid2.Coords, (∀ a, reads2_18 a = true → i a = i' a) → cc2_transform_18 i = cc2_transform_18 i'
  hinb2_18 : ∀ (i : grid2.Coords) a, (cc2_transform_18 i a + 1) * S4096x256.size a ≤ S131072x256.size a
  hwx2_18 : ∀ i : grid2.Coords, EltTy.bits .f32 = 32 ∨ (Rect.block (s := S131072x256) S4096x256.size (cc2_transform_18 i) (hinb2_18 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x6_S6x8_S4096x8_1_0_0_1_n_n : DotDims S4096x6 S6x8 S4096x8 where
  lhsContracting := [1]
  rhsContracting := [0]
  lhsNonContracting := [0]
  rhsNonContracting := [1]
  lhsBatch := []
  rhsBatch := []
  wf := dot_S4096x6_S6x8_S4096x8_1_0_0_1_n_n_wf
def dot_S4096x8_S8x256_S4096x256_1_0_0_1_n_n : DotDims S4096x8 S8x256 S4096x256 where
  lhsContracting := [1]
  rhsContracting := [0]
  lhsNonContracting := [0]
  rhsNonContracting := [1]
  lhsBatch := []
  rhsBatch := []
  wf := dot_S4096x8_S8x256_S4096x256_1_0_0_1_n_n_wf
def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf
def dot_S32768x42_S42x8_S32768x8_1_0_0_1_n_n : DotDims S32768x42 S42x8 S32768x8 where
  lhsContracting := [1]
  rhsContracting := [0]
  lhsNonContracting := [0]
  rhsNonContracting := [1]
  lhsBatch := []
  rhsBatch := []
  wf := dot_S32768x42_S42x8_S32768x8_1_0_0_1_n_n_wf
def dot_S32768x8_S8x64_S32768x64_1_0_0_1_n_n : DotDims S32768x8 S8x64 S32768x64 where
  lhsContracting := [1]
  rhsContracting := [0]
  lhsNonContracting := [0]
  rhsNonContracting := [1]
  lhsBatch := []
  rhsBatch := []
  wf := dot_S32768x8_S8x64_S32768x64_1_0_0_1_n_n_wf
def gather_S131072x64_S1048576x1_S1048576x64_1_0_n_n_0_1_164 : GatherDims S131072x64 S1048576x1 S1048576x64 where
  offsetDims := [1]
  collapsedSliceDims := [0]
  operandBatchingDims := []
  startIndicesBatchingDims := []
  startIndexMap := [0]
  indexVectorDim := 1
  sliceSizes := ![1, 64]
  wf := gather_S131072x64_S1048576x1_S1048576x64_1_0_n_n_0_1_164_wf
def scatter_S131072x64_S1048576x1_S1048576x64_1_0_0_1 : ScatterDims S131072x64 S1048576x1 S1048576x64 where
  updateWindowDims := [1]
  insertedWindowDims := [0]
  scatterDimsToOperandDims := [0]
  indexVectorDim := 1
  wf := scatter_S131072x64_S1048576x1_S1048576x64_1_0_0_1_wf
def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S6x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S8x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg13) S256x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0_0) S4096x256.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_1) S4096x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_arg2) S32768x42.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg11) S42x8.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg12) S8x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S32768x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v0_0) S4096x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S4096x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg0) S4096x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg14) S64x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg15) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg16) S256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg17) S256x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg18) S256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg19) S256x256.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg20) S256.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg21) S256x256.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_arg22) S256.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_arg23) S256x256.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_arg24) S256.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_arg25) S256x256.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_arg26) S256.size cc2_transform_15 reads2_15 false true 1 stage2_15 sem2_15
    hrank2 hreads2_15 hinb2_15 nbuf2_15 (Memref.isWhole_whole _) hwx2_15 hstage2_15

abbrev win2_16 : Pipeline.Window sig grid2 :=
  Pipeline.Window.ofSpec (Memref.whole main_arg27) S256x256.size cc2_transform_16 reads2_16 false true 1 stage2_16 sem2_16
    hrank2 hreads2_16 hinb2_16 nbuf2_16 (Memref.isWhole_whole _) hwx2_16 hstage2_16

abbrev win2_17 : Pipeline.Window sig grid2 :=
  Pipeline.Window.ofSpec (Memref.whole main_arg28) S256.size cc2_transform_17 reads2_17 false true 1 stage2_17 sem2_17
    hrank2 hreads2_17 hinb2_17 nbuf2_17 (Memref.isWhole_whole _) hwx2_17 hstage2_17

abbrev win2_18 : Pipeline.Window sig grid2 :=
  Pipeline.Window.ofSpec (Memref.whole main_v13) S4096x256.size cc2_transform_18 reads2_18 true false 2 stage2_18 sem2_18
    hrank2 hreads2_18 hinb2_18 nbuf2_18 (Memref.isWhole_whole _) hwx2_18 hstage2_18

abbrev win2 : Fin 19 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | 17 => win2_17 | 18 => win2_18 | ⟨_ + 19, h⟩ => absurd h (Nat.not_lt.2 (Nat.le_add_left _ _))
abbrev spec2 : Fin 19 → Pipeline.WinSpec sig grid2.rank := fun w => (win2 w).toWinSpec

class Facts : Prop extends Facts₀ where

variable [Facts]
-- ==== ReferenceIdeal.lean ====
abbrev S131072x256 : Shape := ⟨2, ![131072, 256]⟩
abbrev S131072x6 : Shape := ⟨2, ![131072, 6]⟩
abbrev S1048576x42 : Shape := ⟨2, ![1048576, 42]⟩
abbrev S1048576 : Shape := ⟨1, ![1048576]⟩
abbrev S256x256 : Shape := ⟨2, ![256, 256]⟩
abbrev S256 : Shape := ⟨1, ![256]⟩
abbrev S6x8 : Shape := ⟨2, ![6, 8]⟩
abbrev S8x256 : Shape := ⟨2, ![8, 256]⟩
abbrev S42x8 : Shape := ⟨2, ![42, 8]⟩
abbrev S8x64 : Shape := ⟨2, ![8, 64]⟩
abbrev S256x64 : Shape := ⟨2, ![256, 64]⟩
abbrev S64x256 : Shape := ⟨2, ![64, 256]⟩
abbrev S1x256 : Shape := ⟨2, ![1, 256]⟩
abbrev S_ : Shape := ⟨0, ![]⟩
abbrev S131072x8 : Shape := ⟨2, ![131072, 8]⟩
abbrev S131072x64 : Shape := ⟨2, ![131072, 64]⟩
abbrev S1048576x8 : Shape := ⟨2, ![1048576, 8]⟩
abbrev S1048576x64 : Shape := ⟨2, ![1048576, 64]⟩
abbrev S1048576x1 : Shape := ⟨2, ![1048576, 1]⟩

abbrev nBuf : Space → Nat
  | .hbm => 190
  | .vmem => 0
  | .smem => 0
  | _ => 0

abbrev hbmTy0_0 (i : Nat) : BufTy := match i % 128 with
  | 0 => ⟨S131072x256, .f32⟩
  | 1 => ⟨S131072x6, .f32⟩
  | 2 => ⟨S1048576x42, .f32⟩
  | 3 => ⟨S1048576, .i32⟩
  | 4 => ⟨S1048576, .i32⟩
  | 5 => ⟨S256x256, .f32⟩
  | 6 => ⟨S256, .f32⟩
  | 7 => ⟨S256x256, .f32⟩
  | 8 => ⟨S256, .f32⟩
  | 9 => ⟨S6x8, .f32⟩
  | 10 => ⟨S8x256, .f32⟩
  | 11 => ⟨S42x8, .f32⟩
  | 12 => ⟨S8x64, .f32⟩
  | 13 => ⟨S256x64, .f32⟩
  | 14 => ⟨S64x256, .f32⟩
  | 15 => ⟨S256x256, .f32⟩
  | 16 => ⟨S256, .f32⟩
  | 17 => ⟨S256x256, .f32⟩
  | 18 => ⟨S256, .f32⟩
  | 19 => ⟨S256x256, .f32⟩
  | 20 => ⟨S256, .f32⟩
  | 21 => ⟨S256x256, .f32⟩
  | 22 => ⟨S256, .f32⟩
  | 23 => ⟨S256x256, .f32⟩
  | 24 => ⟨S256, .f32⟩
  | 25 => ⟨S256x256, .f32⟩
  | 26 => ⟨S256, .f32⟩
  | 27 => ⟨S256x256, .f32⟩
  | 28 => ⟨S256, .f32⟩
  | 29 => ⟨S131072x256, .f32⟩
  | 30 => ⟨S1x256, .f32⟩
  | 31 => ⟨S131072x256, .f32⟩
  | 32 => ⟨S131072x256, .f32⟩
  | 33 => ⟨S131072x256, .f32⟩
  | 34 => ⟨S131072x256, .f32⟩
  | 35 => ⟨S_, .f32⟩
  | 36 => ⟨S131072x256, .f32⟩
  | 37 => ⟨S131072x256, .f32⟩
  | 38 => ⟨S_, .f32⟩
  | 39 => ⟨S131072x256, .f32⟩
  | 40 => ⟨S131072x256, .f32⟩
  | 41 => ⟨S131072x256, .f32⟩
  | 42 => ⟨S131072x256, .f32⟩
  | 43 => ⟨S1x256, .f32⟩
  | 44 => ⟨S131072x256, .f32⟩
  | 45 => ⟨S131072x256, .f32⟩
  | 46 => ⟨S131072x256, .f32⟩
  | 47 => ⟨S131072x256, .f32⟩
  | 48 => ⟨S_, .f32⟩
  | 49 => ⟨S131072x256, .f32⟩
  | 50 => ⟨S131072x256, .f32⟩
  | 51 => ⟨S_, .f32⟩
  | 52 => ⟨S131072x256, .f32⟩
  | 53 => ⟨S131072x256, .f32⟩
  | 54 => ⟨S131072x256, .f32⟩
  | 55 => ⟨S131072x8, .f32⟩
  | 56 => ⟨S131072x256, .f32⟩
  | 57 => ⟨S131072x256, .f32⟩
  | 58 => ⟨S131072x64, .f32⟩
  | 59 => ⟨S131072x64, .f32⟩
  | 60 => ⟨S131072x64, .f32⟩
  | 61 => ⟨S_, .f32⟩
  | 62 => ⟨S131072x64, .f32⟩
  | 63 => ⟨S131072x64, .f32⟩
  | 64 => ⟨S_, .f32⟩
  | 65 => ⟨S131072x64, .f32⟩
  | 66 => ⟨S131072x64, .f32⟩
  | 67 => ⟨S131072x64, .f32⟩
  | 68 => ⟨S1048576x8, .f32⟩
  | 69 => ⟨S1048576x64, .f32⟩
  | 70 => ⟨S_, .i32⟩
  | 71 => ⟨S1048576, .i32⟩
  | 72 => ⟨S1048576, .i1⟩
  | 73 => ⟨S_, .i32⟩
  | 74 => ⟨S1048576, .i32⟩
  | 75 => ⟨S1048576, .i32⟩
  | 76 => ⟨S1048576, .i32⟩
  | 77 => ⟨S1048576x1, .i32⟩
  | 78 => ⟨S1048576x64, .f32⟩
  | 79 => ⟨S1048576x64, .f32⟩
  | 80 => ⟨S_, .f32⟩
  | 81 => ⟨S131072x64, .f32⟩
  | 82 => ⟨S1048576x1, .i32⟩
  | 83 => ⟨S131072x64, .f32⟩
  | 84 => ⟨S131072x256, .f32⟩
  | 85 => ⟨S131072x256, .f32⟩
  | 86 => ⟨S131072x256, .f32⟩
  | 87 => ⟨S_, .f32⟩
  | 88 => ⟨S131072x256, .f32⟩
  | 89 => ⟨S131072x256, .f32⟩
  | 90 => ⟨S_, .f32⟩
  | 91 => ⟨S131072x256, .f32⟩
  | 92 => ⟨S131072x256, .f32⟩
  | 93 => ⟨S131072x256, .f32⟩
  | 94 => ⟨S131072x256, .f32⟩
  | 95 => ⟨S131072x256, .f32⟩
  | 96 => ⟨S1x256, .f32⟩
  | 97 => ⟨S131072x256, .f32⟩
  | 98 => ⟨S131072x256, .f32⟩
  | 99 => ⟨S131072x256, .f32⟩
  | 100 => ⟨S131072x256, .f32⟩
  | 101 => ⟨S_, .f32⟩
  | 102 => ⟨S131072x256, .f32⟩
  | 103 => ⟨S131072x256, .f32⟩
  | 104 => ⟨S_, .f32⟩
  | 105 => ⟨S131072x256, .f32⟩
  | 106 => ⟨S131072x256, .f32⟩
  | 107 => ⟨S131072x256, .f32⟩
  | 108 => ⟨S131072x256, .f32⟩
  | 109 => ⟨S1x256, .f32⟩
  | 110 => ⟨S131072x256, .f32⟩
  | 111 => ⟨S131072x256, .f32⟩
  | 112 => ⟨S131072x256, .f32⟩
  | 113 => ⟨S131072x256, .f32⟩
  | 114 => ⟨S_, .f32⟩
  | 115 => ⟨S131072x256, .f32⟩
  | 116 => ⟨S131072x256, .f32⟩
  | 117 => ⟨S_, .f32⟩
  | 118 => ⟨S131072x256, .f32⟩
  | 119 => ⟨S131072x256, .f32⟩
  | 120 => ⟨S131072x256, .f32⟩
  | 121 => ⟨S131072x256, .f32⟩
  | 122 => ⟨S131072x256, .f32⟩
  | 123 => ⟨S1x256, .f32⟩
  | 124 => ⟨S131072x256, .f32⟩
  | 125 => ⟨S131072x256, .f32⟩
  | 126 => ⟨S131072x256, .f32⟩
  | 127 => ⟨S131072x256, .f32⟩
  | _ => ⟨S131072x256, .f32⟩

abbrev hbmTy0_1 (i : Nat) : BufTy := match i % 128 with
  | 0 => ⟨S_, .f32⟩
  | 1 => ⟨S131072x256, .f32⟩
  | 2 => ⟨S131072x256, .f32⟩
  | 3 => ⟨S_, .f32⟩
  | 4 => ⟨S131072x256, .f32⟩
  | 5 => ⟨S131072x256, .f32⟩
  | 6 => ⟨S131072x256, .f32⟩
  | 7 => ⟨S131072x256, .f32⟩
  | 8 => ⟨S131072x256, .f32⟩
  | 9 => ⟨S1x256, .f32⟩
  | 10 => ⟨S131072x256, .f32⟩
  | 11 => ⟨S131072x256, .f32⟩
  | 12 => ⟨S131072x256, .f32⟩
  | 13 => ⟨S131072x256, .f32⟩
  | 14 => ⟨S_, .f32⟩
  | 15 => ⟨S131072x256, .f32⟩
  | 16 => ⟨S131072x256, .f32⟩
  | 17 => ⟨S_, .f32⟩
  | 18 => ⟨S131072x256, .f32⟩
  | 19 => ⟨S131072x256, .f32⟩
  | 20 => ⟨S131072x256, .f32⟩
  | 21 => ⟨S131072x256, .f32⟩
  | 22 => ⟨S1x256, .f32⟩
  | 23 => ⟨S131072x256, .f32⟩
  | 24 => ⟨S131072x256, .f32⟩
  | 25 => ⟨S131072x256, .f32⟩
  | 26 => ⟨S131072x256, .f32⟩
  | 27 => ⟨S_, .f32⟩
  | 28 => ⟨S131072x256, .f32⟩
  | 29 => ⟨S131072x256, .f32⟩
  | 30 => ⟨S_, .f32⟩
  | 31 => ⟨S131072x256, .f32⟩
  | 32 => ⟨S131072x256, .f32⟩
  | 33 => ⟨S131072x256, .f32⟩
  | 34 => ⟨S131072x256, .f32⟩
  | 35 => ⟨S131072x256, .f32⟩
  | 36 => ⟨S1x256, .f32⟩
  | 37 => ⟨S131072x256, .f32⟩
  | 38 => ⟨S131072x256, .f32⟩
  | 39 => ⟨S131072x256, .f32⟩
  | 40 => ⟨S131072x256, .f32⟩
  | 41 => ⟨S_, .f32⟩
  | 42 => ⟨S131072x256, .f32⟩
  | 43 => ⟨S131072x256, .f32⟩
  | 44 => ⟨S_, .f32⟩
  | 45 => ⟨S131072x256, .f32⟩
  | 46 => ⟨S131072x256, .f32⟩
  | 47 => ⟨S131072x256, .f32⟩
  | 48 => ⟨S131072x256, .f32⟩
  | 49 => ⟨S1x256, .f32⟩
  | 50 => ⟨S131072x256, .f32⟩
  | 51 => ⟨S131072x256, .f32⟩
  | 52 => ⟨S131072x256, .f32⟩
  | 53 => ⟨S131072x256, .f32⟩
  | 54 => ⟨S_, .f32⟩
  | 55 => ⟨S131072x256, .f32⟩
  | 56 => ⟨S131072x256, .f32⟩
  | 57 => ⟨S_, .f32⟩
  | 58 => ⟨S131072x256, .f32⟩
  | 59 => ⟨S131072x256, .f32⟩
  | 60 => ⟨S131072x256, .f32⟩
  | 61 => ⟨S131072x256, .f32⟩
  | _ => ⟨S131072x256, .f32⟩

abbrev hbmTy (i : Nat) : BufTy := match i / 128 with
  | 0 => hbmTy0_0 i
  | 1 => hbmTy0_1 i
  | _ => ⟨S131072x256, .f32⟩

abbrev bufTy : (tb : Table) → Fin (tcTables nBuf tb) → BufTy
  | .hbm, ⟨i, _⟩ => hbmTy i
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_call1_v0 : Ref sig .tc := ⟨.hbm, 46, rfl⟩
abbrev main_call1_v1 : Ref sig .tc := ⟨.hbm, 47, rfl⟩
abbrev main_call1_cst : Ref sig .tc := ⟨.hbm, 48, rfl⟩
abbrev main_call1_v2 : Ref sig .tc := ⟨.hbm, 49, rfl⟩
abbrev main_call1_v3 : Ref sig .tc := ⟨.hbm, 50, rfl⟩
abbrev main_call1_cst_0 : Ref sig .tc := ⟨.hbm, 51, rfl⟩
abbrev main_call1_v4 : Ref sig .tc := ⟨.hbm, 52, rfl⟩
abbrev main_call1_v5 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_call2_v0 : Ref sig .tc := ⟨.hbm, 59, rfl⟩
abbrev main_call2_v1 : Ref sig .tc := ⟨.hbm, 60, rfl⟩
abbrev main_call2_cst : Ref sig .tc := ⟨.hbm, 61, rfl⟩
abbrev main_call2_v2 : Ref sig .tc := ⟨.hbm, 62, rfl⟩
abbrev main_call2_v3 : Ref sig .tc := ⟨.hbm, 63, rfl⟩
abbrev main_call2_cst_0 : Ref sig .tc := ⟨.hbm, 64, rfl⟩
abbrev main_call2_v4 : Ref sig .tc := ⟨.hbm, 65, rfl⟩
abbrev main_call2_v5 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_c : Ref sig .tc := ⟨.hbm, 70, rfl⟩
abbrev main_v17 : Ref sig .tc := ⟨.hbm, 71, rfl⟩
abbrev main_v18 : Ref sig .tc := ⟨.hbm, 72, rfl⟩
abbrev main_c_0 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_cst : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_call3_v0 : Ref sig .tc := ⟨.hbm, 85, rfl⟩
abbrev main_call3_v1 : Ref sig .tc := ⟨.hbm, 86, rfl⟩
abbrev main_call3_cst : Ref sig .tc := ⟨.hbm, 87, rfl⟩
abbrev main_call3_v2 : Ref sig .tc := ⟨.hbm, 88, rfl⟩
abbrev main_call3_v3 : Ref sig .tc := ⟨.hbm, 89, rfl⟩
abbrev main_call3_cst_0 : Ref sig .tc := ⟨.hbm, 90, rfl⟩
abbrev main_call3_v4 : Ref sig .tc := ⟨.hbm, 91, rfl⟩
abbrev main_call3_v5 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_call4_v0 : Ref sig .tc := ⟨.hbm, 99, rfl⟩
abbrev main_call4_v1 : Ref sig .tc := ⟨.hbm, 100, rfl⟩
abbrev main_call4_cst : Ref sig .tc := ⟨.hbm, 101, rfl⟩
abbrev main_call4_v2 : Ref sig .tc := ⟨.hbm, 102, rfl⟩
abbrev main_call4_v3 : Ref sig .tc := ⟨.hbm, 103, rfl⟩
abbrev main_call4_cst_0 : Ref sig .tc := ⟨.hbm, 104, rfl⟩
abbrev main_call4_v4 : Ref sig .tc := ⟨.hbm, 105, rfl⟩
abbrev main_call4_v5 : Ref sig .tc := ⟨.hbm, 106, rfl⟩
abbrev main_v35 : Ref sig .tc := ⟨.hbm, 107, rfl⟩
abbrev main_v36 : Ref sig .tc := ⟨.hbm, 108, rfl⟩
abbrev main_v37 : Ref sig .tc := ⟨.hbm, 109, rfl⟩
abbrev main_v38 : Ref sig .tc := ⟨.hbm, 110, rfl⟩
abbrev main_v39 : Ref sig .tc := ⟨.hbm, 111, rfl⟩
abbrev main_call5_v0 : Ref sig .tc := ⟨.hbm, 112, rfl⟩
abbrev main_call5_v1 : Ref sig .tc := ⟨.hbm, 113, rfl⟩
abbrev main_call5_cst : Ref sig .tc := ⟨.hbm, 114, rfl⟩
abbrev main_call5_v2 : Ref sig .tc := ⟨.hbm, 115, rfl⟩
abbrev main_call5_v3 : Ref sig .tc := ⟨.hbm, 116, rfl⟩
abbrev main_call5_cst_0 : Ref sig .tc := ⟨.hbm, 117, rfl⟩
abbrev main_call5_v4 : Ref sig .tc := ⟨.hbm, 118, rfl⟩
abbrev main_call5_v5 : Ref sig .tc := ⟨.hbm, 119, rfl⟩
abbrev main_v40 : Ref sig .tc := ⟨.hbm, 120, rfl⟩
abbrev main_v41 : Ref sig .tc := ⟨.hbm, 121, rfl⟩
abbrev main_v42 : Ref sig .tc := ⟨.hbm, 122, rfl⟩
abbrev main_v43 : Ref sig .tc := ⟨.hbm, 123, rfl⟩
abbrev main_v44 : Ref sig .tc := ⟨.hbm, 124, rfl⟩
abbrev main_v45 : Ref sig .tc := ⟨.hbm, 125, rfl⟩
abbrev main_call6_v0 : Ref sig .tc := ⟨.hbm, 126, rfl⟩
abbrev main_call6_v1 : Ref sig .tc := ⟨.hbm, 127, rfl⟩
abbrev main_call6_cst : Ref sig .tc := ⟨.hbm, 128, rfl⟩
abbrev main_call6_v2 : Ref sig .tc := ⟨.hbm, 129, rfl⟩
abbrev main_call6_v3 : Ref sig .tc := ⟨.hbm, 130, rfl⟩
abbrev main_call6_cst_0 : Ref sig .tc := ⟨.hbm, 131, rfl⟩
abbrev main_call6_v4 : Ref sig .tc := ⟨.hbm, 132, rfl⟩
abbrev main_call6_v5 : Ref sig .tc := ⟨.hbm, 133, rfl⟩
abbrev main_v46 : Ref sig .tc := ⟨.hbm, 134, rfl⟩
abbrev main_v47 : Ref sig .tc := ⟨.hbm, 135, rfl⟩
abbrev main_v48 : Ref sig .tc := ⟨.hbm, 136, rfl⟩
abbrev main_v49 : Ref sig .tc := ⟨.hbm, 137, rfl⟩
abbrev main_v50 : Ref sig .tc := ⟨.hbm, 138, rfl⟩
abbrev main_v51 : Ref sig .tc := ⟨.hbm, 139, rfl⟩
abbrev main_call7_v0 : Ref sig .tc := ⟨.hbm, 140, rfl⟩
abbrev main_call7_v1 : Ref sig .tc := ⟨.hbm, 141, rfl⟩
abbrev main_call7_cst : Ref sig .tc := ⟨.hbm, 142, rfl⟩
abbrev main_call7_v2 : Ref sig .tc := ⟨.hbm, 143, rfl⟩
abbrev main_call7_v3 : Ref sig .tc := ⟨.hbm, 144, rfl⟩
abbrev main_call7_cst_0 : Ref sig .tc := ⟨.hbm, 145, rfl⟩
abbrev main_call7_v4 : Ref sig .tc := ⟨.hbm, 146, rfl⟩
abbrev main_call7_v5 : Ref sig .tc := ⟨.hbm, 147, rfl⟩
abbrev main_v52 : Ref sig .tc := ⟨.hbm, 148, rfl⟩
abbrev main_v53 : Ref sig .tc := ⟨.hbm, 149, rfl⟩
abbrev main_v54 : Ref sig .tc := ⟨.hbm, 150, rfl⟩
abbrev main_v55 : Ref sig .tc := ⟨.hbm, 151, rfl⟩
abbrev main_v56 : Ref sig .tc := ⟨.hbm, 152, rfl⟩
abbrev main_call8_v0 : Ref sig .tc := ⟨.hbm, 153, rfl⟩
abbrev main_call8_v1 : Ref sig .tc := ⟨.hbm, 154, rfl⟩
abbrev main_call8_cst : Ref sig .tc := ⟨.hbm, 155, rfl⟩
abbrev main_call8_v2 : Ref sig .tc := ⟨.hbm, 156, rfl⟩
abbrev main_call8_v3 : Ref sig .tc := ⟨.hbm, 157, rfl⟩
abbrev main_call8_cst_0 : Ref sig .tc := ⟨.hbm, 158, rfl⟩
abbrev main_call8_v4 : Ref sig .tc := ⟨.hbm, 159, rfl⟩
abbrev main_call8_v5 : Ref sig .tc := ⟨.hbm, 160, rfl⟩
abbrev main_v57 : Ref sig .tc := ⟨.hbm, 161, rfl⟩
abbrev main_v58 : Ref sig .tc := ⟨.hbm, 162, rfl⟩
abbrev main_v59 : Ref sig .tc := ⟨.hbm, 163, rfl⟩
abbrev main_v60 : Ref sig .tc := ⟨.hbm, 164, rfl⟩
abbrev main_v61 : Ref sig .tc := ⟨.hbm, 165, rfl⟩
abbrev main_v62 : Ref sig .tc := ⟨.hbm, 166, rfl⟩
abbrev main_call9_v0 : Ref sig .tc := ⟨.hbm, 167, rfl⟩
abbrev main_call9_v1 : Ref sig .tc := ⟨.hbm, 168, rfl⟩
abbrev main_call9_cst : Ref sig .tc := ⟨.hbm, 169, rfl⟩
abbrev main_call9_v2 : Ref sig .tc := ⟨.hbm, 170, rfl⟩
abbrev main_call9_v3 : Ref sig .tc := ⟨.hbm, 171, rfl⟩
abbrev main_call9_cst_0 : Ref sig .tc := ⟨.hbm, 172, rfl⟩
abbrev main_call9_v4 : Ref sig .tc := ⟨.hbm, 173, rfl⟩
abbrev main_call9_v5 : Ref sig .tc := ⟨.hbm, 174, rfl⟩
abbrev main_v63 : Ref sig .tc := ⟨.hbm, 175, rfl⟩
abbrev main_v64 : Ref sig .tc := ⟨.hbm, 176, rfl⟩
abbrev main_v65 : Ref sig .tc := ⟨.hbm, 177, rfl⟩
abbrev main_v66 : Ref sig .tc := ⟨.hbm, 178, rfl⟩
abbrev main_v67 : Ref sig .tc := ⟨.hbm, 179, rfl⟩
abbrev main_call10_v0 : Ref sig .tc := ⟨.hbm, 180, rfl⟩
abbrev main_call10_v1 : Ref sig .tc := ⟨.hbm, 181, rfl⟩
abbrev main_call10_cst : Ref sig .tc := ⟨.hbm, 182, rfl⟩
abbrev main_call10_v2 : Ref sig .tc := ⟨.hbm, 183, rfl⟩
abbrev main_call10_v3 : Ref sig .tc := ⟨.hbm, 184, rfl⟩
abbrev main_call10_cst_0 : Ref sig .tc := ⟨.hbm, 185, rfl⟩
abbrev main_call10_v4 : Ref sig .tc := ⟨.hbm, 186, rfl⟩
abbrev main_call10_v5 : Ref sig .tc := ⟨.hbm, 187, rfl⟩
abbrev main_v68 : Ref sig .tc := ⟨.hbm, 188, rfl⟩
abbrev main_v69 : Ref sig .tc := ⟨.hbm, 189, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  bcast_S_S131072x256 : S_.BroadcastsInDim S131072x256 (![] : Fin 0 → Fin S131072x256.rank)
  bcast_S_S131072x64 : S_.BroadcastsInDim S131072x64 (![] : Fin 0 → Fin S131072x64.rank)
  bcast_S_S1048576 : S_.BroadcastsInDim S1048576 (![] : Fin 0 → Fin S1048576.rank)
  bcast_S1048576_S1048576x1_0 : S1048576.BroadcastsInDim S1048576x1 (![0] : Fin 1 → Fin S1048576x1.rank)
  dot_S131072x256_S256x256_S131072x256_1_0_0_1_n_n_wf : DotDims.WF S131072x256 S256x256 S131072x256 [1] [0] [0] [1] [] []
  dot_S131072x6_S6x8_S131072x8_1_0_0_1_n_n_wf : DotDims.WF S131072x6 S6x8 S131072x8 [1] [0] [0] [1] [] []
  dot_S131072x8_S8x256_S131072x256_1_0_0_1_n_n_wf : DotDims.WF S131072x8 S8x256 S131072x256 [1] [0] [0] [1] [] []
  dot_S131072x256_S256x64_S131072x64_1_0_0_1_n_n_wf : DotDims.WF S131072x256 S256x64 S131072x64 [1] [0] [0] [1] [] []
  dot_S1048576x42_S42x8_S1048576x8_1_0_0_1_n_n_wf : DotDims.WF S1048576x42 S42x8 S1048576x8 [1] [0] [0] [1] [] []
  dot_S1048576x8_S8x64_S1048576x64_1_0_0_1_n_n_wf : DotDims.WF S1048576x8 S8x64 S1048576x64 [1] [0] [0] [1] [] []
  gather_S131072x64_S1048576x1_S1048576x64_1_0_n_n_0_1_164_wf : GatherDims.WF S131072x64 S1048576x1 S1048576x64 [1] [0] [] [0] [] 1 ![1, 64]
  scatter_S131072x64_S1048576x1_S1048576x64_1_0_0_1_wf : ScatterDims.WF S131072x64 S1048576x1 S1048576x64 [1] [0] [0] 1
  dot_S131072x64_S64x256_S131072x256_1_0_0_1_n_n_wf : DotDims.WF S131072x64 S64x256 S131072x256 [1] [0] [0] [1] [] []

variable [Facts₀]

def dot_S131072x256_S256x256_S131072x256_1_0_0_1_n_n : DotDims S131072x256 S256x256 S131072x256 where
  lhsContracting := [1]
  rhsContracting := [0]
  lhsNonContracting := [0]
  rhsNonContracting := [1]
  lhsBatch := []
  rhsBatch := []
  wf := dot_S131072x256_S256x256_S131072x256_1_0_0_1_n_n_wf
def dot_S131072x6_S6x8_S131072x8_1_0_0_1_n_n : DotDims S131072x6 S6x8 S131072x8 where
  lhsContracting := [1]
  rhsContracting := [0]
  lhsNonContracting := [0]
  rhsNonContracting := [1]
  lhsBatch := []
  rhsBatch := []
  wf := dot_S131072x6_S6x8_S131072x8_1_0_0_1_n_n_wf
def dot_S131072x8_S8x256_S131072x256_1_0_0_1_n_n : DotDims S131072x8 S8x256 S131072x256 where
  lhsContracting := [1]
  rhsContracting := [0]
  lhsNonContracting := [0]
  rhsNonContracting := [1]
  lhsBatch := []
  rhsBatch := []
  wf := dot_S131072x8_S8x256_S131072x256_1_0_0_1_n_n_wf
def dot_S131072x256_S256x64_S131072x64_1_0_0_1_n_n : DotDims S131072x256 S256x64 S131072x64 where
  lhsContracting := [1]
  rhsContracting := [0]
  lhsNonContracting := [0]
  rhsNonContracting := [1]
  lhsBatch := []
  rhsBatch := []
  wf := dot_S131072x256_S256x64_S131072x64_1_0_0_1_n_n_wf
def dot_S1048576x42_S42x8_S1048576x8_1_0_0_1_n_n : DotDims S1048576x42 S42x8 S1048576x8 where
  lhsContracting := [1]
  rhsContracting := [0]
  lhsNonContracting := [0]
  rhsNonContracting := [1]
  lhsBatch := []
  rhsBatch := []
  wf := dot_S1048576x42_S42x8_S1048576x8_1_0_0_1_n_n_wf
def dot_S1048576x8_S8x64_S1048576x64_1_0_0_1_n_n : DotDims S1048576x8 S8x64 S1048576x64 where
  lhsContracting := [1]
  rhsContracting := [0]
  lhsNonContracting := [0]
  rhsNonContracting := [1]
  lhsBatch := []
  rhsBatch := []
  wf := dot_S1048576x8_S8x64_S1048576x64_1_0_0_1_n_n_wf
def gather_S131072x64_S1048576x1_S1048576x64_1_0_n_n_0_1_164 : GatherDims S131072x64 S1048576x1 S1048576x64 where
  offsetDims := [1]
  collapsedSliceDims := [0]
  operandBatchingDims := []
  startIndicesBatchingDims := []
  startIndexMap := [0]
  indexVectorDim := 1
  sliceSizes := ![1, 64]
  wf := gather_S131072x64_S1048576x1_S1048576x64_1_0_n_n_0_1_164_wf
def scatter_S131072x64_S1048576x1_S1048576x64_1_0_0_1 : ScatterDims S131072x64 S1048576x1 S1048576x64 where
  updateWindowDims := [1]
  insertedWindowDims := [0]
  scatterDimsToOperandDims := [0]
  indexVectorDim := 1
  wf := scatter_S131072x64_S1048576x1_S1048576x64_1_0_0_1_wf
def dot_S131072x64_S64x256_S131072x256_1_0_0_1_n_n : DotDims S131072x64 S64x256 S131072x256 where
  lhsContracting := [1]
  rhsContracting := [0]
  lhsNonContracting := [0]
  rhsNonContracting := [1]
  lhsBatch := []
  rhsBatch := []
  wf := dot_S131072x64_S64x256_S131072x256_1_0_0_1_n_n_wf

class Facts : Prop extends Facts₀ where

variable [Facts]
-- ==== Proof.Spec.lean ====
/-
  The mathematics of the message-passing block, stated once over the extended reals.

  Every large array of the block is a stack of ROWS (one per edge, or one per triplet), and every dense stage acts
  on each row by itself: a row vector times a weight matrix, plus a bias row, through x · logistic x.  So the whole
  block is described by a few functions of ROWS (`Fin k → EReal`), and an array-level function is "apply the row
  function to row i".  The one stage that mixes rows (the gather of rows by one index list, the product with the
  triplet rows, and the sum into slots by a second index list) is kept as an opaque function of whole arrays; it is
  literally the same host operations in the two programs.
-/
import Idealize.ShloMosaic.PureOps.Ideal
import Idealize.ShloMosaic.Lib.ValueIdx

noncomputable section

namespace Cert.Spec

open Idealize.ShloMosaic Idealize.ShloMosaic.ValueIdx
open scoped BigOperators

/-- A rank-2 array of extended reals with `n` rows of length `k`. -/
abbrev Mat (n k : Nat) : Type := (⟨2, ![n, k]⟩ : Shape).Idx → EReal
/-- A rank-1 array of extended reals of length `n`. -/
abbrev Vc (n : Nat) : Type := (⟨1, ![n]⟩ : Shape).Idx → EReal

/-- Row `i` of a rank-2 array. -/
def row {n k : Nat} (X : Mat n k) (i : Fin n) : Fin k → EReal := fun j => X (ix2 i j)

/-- A row vector times a matrix: entry `j` is the sum over `k` of `v k · W[k, j]`. -/
def vm {a b : Nat} (v : Fin a → EReal) (W : Mat a b) : Fin b → EReal := fun j => ∑ k : Fin a, v k * W (ix2 k j)

/-- A rank-1 array read as a row. -/
def vec {b : Nat} (β : Vc b) : Fin b → EReal := fun j => β (ix1 j)

/-- The affine map of a dense layer on one row: `v · W + β`. -/
def lin {a b : Nat} (v : Fin a → EReal) (W : Mat a b) (β : Vc b) : Fin b → EReal := fun j => vm v W j + vec β j

/-- `z ↦ z · logistic z`, entry by entry. -/
def silu {b : Nat} (v : Fin b → EReal) : Fin b → EReal := fun j => v j * Ideal.logistic (v j)

/-- A residual layer on one row: `h + silu (silu (h·W₁ + β₁)·W₂ + β₂)`. -/
def res {b : Nat} (h : Fin b → EReal) (W1 : Mat b b) (β1 : Vc b) (W2 : Mat b b) (β2 : Vc b) : Fin b → EReal :=
  fun j => h j + silu (lin (silu (lin h W1 β1)) W2 β2) j

/-! ## The rows of the edge-wise stage -/

/-- The `ji` branch of an edge: `silu (x·W_ji + b_ji)`. -/
def xjiRow (x : Fin 256 → EReal) (Wji : Mat 256 256) (bji : Vc 256) : Fin 256 → EReal := silu (lin x Wji bji)

/-- The radial gate of an edge: `(rbf·W_rbf1)·W_rbf2`. -/
def gateRow (rbf : Fin 6 → EReal) (Wr1 : Mat 6 8) (Wr2 : Mat 8 256) : Fin 256 → EReal := vm (vm rbf Wr1) Wr2

/-- The gated `kj` branch of an edge before the down-projection: `silu (x·W_kj + b_kj) · gate`, entry by entry. -/
def xkjGated (x : Fin 256 → EReal) (rbf : Fin 6 → EReal) (Wkj : Mat 256 256) (bkj : Vc 256) (Wr1 : Mat 6 8) (Wr2 : Mat 8 256) :
    Fin 256 → EReal := fun j => silu (lin x Wkj bkj) j * gateRow rbf Wr1 Wr2 j

/-- The down-projected `kj` branch of an edge: `silu ((silu (x·W_kj + b_kj) · gate)·W_down)`. -/
def xkjdRow (x : Fin 256 → EReal) (rbf : Fin 6 → EReal) (Wkj : Mat 256 256) (bkj : Vc 256) (Wr1 : Mat 6 8) (Wr2 : Mat 8 256)
    (Wd : Mat 256 64) : Fin 64 → EReal := silu (vm (xkjGated x rbf Wkj bkj Wr1 Wr2) Wd)

/-! ## The row of the triplet stage -/

/-- The angular factor of a triplet: `(sbf·W_sbf1)·W_sbf2`. -/
def sRow (sbf : Fin 42 → EReal) (Ws1 : Mat 42 8) (Ws2 : Mat 8 64) : Fin 64 → EReal := vm (vm sbf Ws1) Ws2

/-! ## The row of the stage after the aggregation -/

/-- `x_ji + silu (agg·W_up)`. -/
def h0Row (xji : Fin 256 → EReal) (agg : Fin 64 → EReal) (Wup : Mat 64 256) : Fin 256 → EReal :=
  fun j => xji j + silu (vm agg Wup) j

/-- The skip connection: `silu (h·W_lin + b_lin) + x`. -/
def skipRow (h x : Fin 256 → EReal) (Wl : Mat 256 256) (bl : Vc 256) : Fin 256 → EReal :=
  fun j => silu (lin h Wl bl) j + x j

/-- The whole stage on one edge: the sum of the two branches, one residual layer, the skip, two residual layers. -/
def hRow (xji : Fin 256 → EReal) (agg : Fin 64 → EReal) (x : Fin 256 → EReal) (Wup : Mat 64 256)
    (Wb1 : Mat 256 256) (bb1 : Vc 256) (Wb2 : Mat 256 256) (bb2 : Vc 256) (Wl : Mat 256 256) (bl : Vc 256)
    (Wa1 : Mat 256 256) (ba1 : Vc 256) (Wa2 : Mat 256 256) (ba2 : Vc 256)
    (Wc1 : Mat 256 256) (bc1 : Vc 256) (Wc2 : Mat 256 256) (bc2 : Vc 256) : Fin 256 → EReal :=
  res (res (skipRow (res (h0Row xji agg Wup) Wb1 bb1 Wb2 bb2) x Wl bl) Wa1 ba1 Wa2 ba2) Wc1 bc1 Wc2 bc2

/-! ## The arrays: the row function applied to every row -/

/-- The `ji` branch of every edge. -/
def Xji (x : Mat 131072 256) (Wji : Mat 256 256) (bji : Vc 256) : Mat 131072 256 :=
  fun y => xjiRow (row x (y 0)) Wji bji (y 1)

/-- The down-projected `kj` branch of every edge. -/
def Xkjd (x : Mat 131072 256) (rbf : Mat 131072 6) (Wkj : Mat 256 256) (bkj : Vc 256) (Wr1 : Mat 6 8) (Wr2 : Mat 8 256)
    (Wd : Mat 256 64) : Mat 131072 64 :=
  fun y => xkjdRow (row x (y 0)) (row rbf (y 0)) Wkj bkj Wr1 Wr2 Wd (y 1)

/-- The angular factor of every triplet. -/
def Ss (sbf : Mat 1048576 42) (Ws1 : Mat 42 8) (Ws2 : Mat 8 64) : Mat 1048576 64 :=
  fun y => sRow (row sbf (y 0)) Ws1 Ws2 (y 1)

/-- The stage after the aggregation on every edge. -/
def Hh (xji : Mat 131072 256) (agg : Mat 131072 64) (x : Mat 131072 256) (Wup : Mat 64 256)
    (Wb1 : Mat 256 256) (bb1 : Vc 256) (Wb2 : Mat 256 256) (bb2 : Vc 256) (Wl : Mat 256 256) (bl : Vc 256)
    (Wa1 : Mat 256 256) (ba1 : Vc 256) (Wa2 : Mat 256 256) (ba2 : Vc 256)
    (Wc1 : Mat 256 256) (bc1 : Vc 256) (Wc2 : Mat 256 256) (bc2 : Vc 256) : Mat 131072 256 :=
  fun y => hRow (row xji (y 0)) (row agg (y 0)) (row x (y 0)) Wup Wb1 bb1 Wb2 bb2 Wl bl Wa1 ba1 Wa2 ba2 Wc1 bc1 Wc2 bc2 (y 1)

/-! ## The last stage, layer by layer -/

/-- `x_ji + silu (agg·W_up)` on every edge. -/
def H0 (xji : Mat 131072 256) (agg : Mat 131072 64) (Wup : Mat 64 256) : Mat 131072 256 :=
  fun y => h0Row (row xji (y 0)) (row agg (y 0)) Wup (y 1)

/-- A residual layer on every edge. -/
def Res (h : Mat 131072 256) (W1 : Mat 256 256) (β1 : Vc 256) (W2 : Mat 256 256) (β2 : Vc 256) : Mat 131072 256 :=
  fun y => res (row h (y 0)) W1 β1 W2 β2 (y 1)

/-- The skip connection on every edge. -/
def Skip (h x : Mat 131072 256) (Wl : Mat 256 256) (bl : Vc 256) : Mat 131072 256 :=
  fun y => skipRow (row h (y 0)) (row x (y 0)) Wl bl (y 1)

theorem row_H0 (xji : Mat 131072 256) (agg : Mat 131072 64) (Wup : Mat 64 256) (i : Fin 131072) :
    row (H0 xji agg Wup) i = h0Row (row xji i) (row agg i) Wup := rfl

theorem row_Res (h : Mat 131072 256) (W1 : Mat 256 256) (β1 : Vc 256) (W2 : Mat 256 256) (β2 : Vc 256) (i : Fin 131072) :
    row (Res h W1 β1 W2 β2) i = res (row h i) W1 β1 W2 β2 := rfl

theorem row_Skip (h x : Mat 131072 256) (Wl : Mat 256 256) (bl : Vc 256) (i : Fin 131072) :
    row (Skip h x Wl bl) i = skipRow (row h i) (row x i) Wl bl := rfl

/-- The last stage is its layers one after the other. -/
theorem Hh_eq (xji : Mat 131072 256) (agg : Mat 131072 64) (x : Mat 131072 256) (Wup : Mat 64 256)
    (Wb1 : Mat 256 256) (bb1 : Vc 256) (Wb2 : Mat 256 256) (bb2 : Vc 256) (Wl : Mat 256 256) (bl : Vc 256)
    (Wa1 : Mat 256 256) (ba1 : Vc 256) (Wa2 : Mat 256 256) (ba2 : Vc 256)
    (Wc1 : Mat 256 256) (bc1 : Vc 256) (Wc2 : Mat 256 256) (bc2 : Vc 256) :
    Hh xji agg x Wup Wb1 bb1 Wb2 bb2 Wl bl Wa1 ba1 Wa2 ba2 Wc1 bc1 Wc2 bc2
      = Res (Res (Skip (Res (H0 xji agg Wup) Wb1 bb1 Wb2 bb2) x Wl bl) Wa1 ba1 Wa2 ba2) Wc1 bc1 Wc2 bc2 := rfl

end Cert.Spec

end
-- ==== Proof.Aggregate.lean ====
/-
  The one stage that mixes rows: the rows of the down-projected `kj` branch gathered by the first index list (a negative
  index counted from the end, as jnp does), multiplied entry by entry with the triplets' angular factors, and summed
  into the slots the second index list names, from a zero array.  Both programs spell it with the same fourteen host
  operations; here they are one function of the dimension records and broadcast evidence a program names them with,
  so that neither side ever opens the gather or the scatter.
-/
import Idealize.ShloMosaic.PureOps.Ideal
import Idealize.ShloMosaic.Lib.ValueIdx
import proofs.«403022_j57904749085210_1_alg».proof.Proof.Spec

noncomputable section

namespace Cert.Spec

open Idealize.ShloMosaic

/-- The aggregate: `scatter_add (0, idx_ji, gather (xkjd, idx_kj') · s)`, with `idx_kj' = idx_kj + 131072` where
    `idx_kj < 0`. -/
def Agg (gd : GatherDims ⟨2, ![131072, 64]⟩ ⟨2, ![1048576, 1]⟩ ⟨2, ![1048576, 64]⟩)
    (sd : ScatterDims ⟨2, ![131072, 64]⟩ ⟨2, ![1048576, 1]⟩ ⟨2, ![1048576, 64]⟩)
    (hT : (⟨0, ![]⟩ : Shape).BroadcastsInDim ⟨1, ![1048576]⟩ ![])
    (hC : (⟨1, ![1048576]⟩ : Shape).BroadcastsInDim ⟨2, ![1048576, 1]⟩ ![0])
    (hZ : (⟨0, ![]⟩ : Shape).BroadcastsInDim ⟨2, ![131072, 64]⟩ ![])
    (xkjd : Mat 131072 64) (s : Mat 1048576 64) (ikj iji : IVec ⟨1, ![1048576]⟩ 32) : Mat 131072 64 :=
  Host.scatterAdd (F := Ideal) (φ := .f32) sd
    (broadcastInDim ⟨2, ![131072, 64]⟩ ![] hZ (constant (F := Ideal) ⟨0, ![]⟩ .f32 0x00000000#32))
    (broadcastInDim ⟨2, ![1048576, 1]⟩ ![0] hC iji)
    (mulf (F := Ideal) (φ := .f32)
      (Host.gather gd xkjd (broadcastInDim ⟨2, ![1048576, 1]⟩ ![0] hC
        (select (cmpi .slt ikj (broadcastInDim ⟨1, ![1048576]⟩ ![] hT (constantI ⟨0, ![]⟩ 32 0#32)))
          (addi ikj (broadcastInDim ⟨1, ![1048576]⟩ ![] hT (constantI ⟨0, ![]⟩ 32 131072#32))) ikj)))
      s)

end Cert.Spec

end
-- ==== Proof.LibRowOps.lean ====
/-
  General lemmas: the dense-layer operations of a kernel body and of a host program, at the ideal instance, read ROW BY
  ROW.  A rank-2 array is a stack of rows (`Cert.Spec.row`); a rows-times-matrix contraction, a bias broadcast along
  the rows, the elementwise operations and x · logistic x all act on each row by itself, and here each is read on one
  row as the corresponding function of rows (`Cert.Spec.vm`, `vec`, `silu`).
-/
import Idealize.ShloMosaic.PureOps.Ideal
import Idealize.ShloMosaic.PureOps.Ideal.Laws
import Idealize.ShloMosaic.Lib.ValueIdx
import Idealize.ShloMosaic.Lib.Pipeline.Value
import proofs.«403022_j57904749085210_1_alg».proof.Proof.Spec

noncomputable section

namespace Cert.RowOps

open Idealize.ShloMosaic Idealize.ShloMosaic.ValueIdx Cert.Spec
open scoped BigOperators

/-- The axis lists of a plain rows-times-matrix contraction `[n, a] · [a, b] → [n, b]`: no batch axis, the left
    operand's axis 1 contracted against the right operand's axis 0. -/
structure PlainDot {n a b : Nat} (d : DotDims ⟨2, ![n, a]⟩ ⟨2, ![a, b]⟩ ⟨2, ![n, b]⟩) : Prop where
  lc : d.lhsContracting = ([1] : List (Fin 2))
  rc : d.rhsContracting = ([0] : List (Fin 2))
  ln : d.lhsNonContracting = ([0] : List (Fin 2))
  rn : d.rhsNonContracting = ([1] : List (Fin 2))
  lb : d.lhsBatch = ([] : List (Fin 2))
  rb : d.rhsBatch = ([] : List (Fin 2))

namespace PlainDot

variable {n a b : Nat} {d : DotDims ⟨2, ![n, a]⟩ ⟨2, ![a, b]⟩ ⟨2, ![n, b]⟩}

/-- Such a contraction runs over one axis. -/
theorem contr_rank (hd : PlainDot d) : d.contr.rank = 1 := by
  rw [d.rank_contr, hd.lc]; rfl

/-- That one axis has the length `a` of the left operand's rows. -/
theorem contr_size (hd : PlainDot d) : d.contr.size ⟨0, by rw [hd.contr_rank]; exact Nat.one_pos⟩ = a := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand is read on the result's row … -/
theorem lhsIdx_zero (hd : PlainDot d) (j : (⟨2, ![n, b]⟩ : Shape).Idx) (q : d.contr.Idx) : (d.lhsIdx j q 0).val = (j 0).val := by
  obtain ⟨lc, rc, ln, rn, lb, rb, wf⟩ := d
  obtain ⟨h1, h2, h3, h4, h5, h6⟩ := hd
  simp only at h1 h2 h3 h4 h5 h6
  subst h1 h2 h3 h4 h5 h6
  unfold DotDims.lhsIdx
  rw [dif_neg (show ¬ ((0 : Fin 2) ∈ ([] : List (Fin 2))) by decide), dif_pos (show (0 : Fin 2) ∈ ([0] : List (Fin 2)) by decide)]
  rfl

/-- … at the contraction position; -/
theorem lhsIdx_one (hd : PlainDot d) (j : (⟨2, ![n, b]⟩ : Shape).Idx) (q : d.contr.Idx) :
    (d.lhsIdx j q 1).val = (q ⟨0, by rw [hd.contr_rank]; exact Nat.one_pos⟩).val :=
  d.lhsIdx_val_of_single hd.lc j q

/-- the right operand is read at the contraction position … -/
theorem rhsIdx_zero (hd : PlainDot d) (j : (⟨2, ![n, b]⟩ : Shape).Idx) (q : d.contr.Idx) :
    (d.rhsIdx j q 0).val = (q ⟨0, by rw [hd.contr_rank]; exact Nat.one_pos⟩).val :=
  d.rhsIdx_val_of_single hd.rc j q

/-- … on the result's column. -/
theorem rhsIdx_one (hd : PlainDot d) (j : (⟨2, ![n, b]⟩ : Shape).Idx) (q : d.contr.Idx) : (d.rhsIdx j q 1).val = (j 1).val := by
  obtain ⟨lc, rc, ln, rn, lb, rb, wf⟩ := d
  obtain ⟨h1, h2, h3, h4, h5, h6⟩ := hd
  simp only at h1 h2 h3 h4 h5 h6
  subst h1 h2 h3 h4 h5 h6
  unfold DotDims.rhsIdx
  rw [dif_neg (show ¬ ((1 : Fin 2) ∈ ([] : List (Fin 2))) by decide), dif_pos (show (1 : Fin 2) ∈ ([1] : List (Fin 2)) by decide)]
  rfl

/-- The contraction's sum at the entry (i, j), re-indexed by its one coordinate: the sum over `k` of `X[i, k] · W[k, j]`. -/
theorem sum_eq (hd : PlainDot d) (X : (⟨2, ![n, a]⟩ : Shape).Idx → EReal) (W : (⟨2, ![a, b]⟩ : Shape).Idx → EReal) (i : Fin n) (j : Fin b) :
    ∑ k : d.contr.Idx, X (d.lhsIdx (ix2 i j) k) * W (d.rhsIdx (ix2 i j) k) = ∑ k : Fin a, X (ix2 i k) * W (ix2 k j) := by
  rw [← Equiv.sum_comp (contrEquiv1 d a hd.contr_rank hd.contr_size).symm]
  refine Finset.sum_congr rfl fun k _ => ?_
  have hk := contrEquiv1_symm_val d a hd.contr_rank hd.contr_size k
  have el : d.lhsIdx (ix2 i j) ((contrEquiv1 d a hd.contr_rank hd.contr_size).symm k) = ix2 i k :=
    funext fun c => Fin.ext (by
      match c with
      | ⟨0, _⟩ => exact hd.lhsIdx_zero _ _
      | ⟨1, _⟩ => exact (hd.lhsIdx_one _ _).trans hk)
  have er : d.rhsIdx (ix2 i j) ((contrEquiv1 d a hd.contr_rank hd.contr_size).symm k) = ix2 k j :=
    funext fun c => Fin.ext (by
      match c with
      | ⟨0, _⟩ => exact (hd.rhsIdx_zero _ _).trans hk
      | ⟨1, _⟩ => exact hd.rhsIdx_one _ _)
  rw [el, er]

end PlainDot

/-- Row `i` of a host `dot_general` of that form is row `i` of the left operand times the matrix. -/
theorem row_dotGeneral {n a b : Nat} {φ₁ φ₂ : FTy} (d : DotDims ⟨2, ![n, a]⟩ ⟨2, ![a, b]⟩ ⟨2, ![n, b]⟩) (hd : PlainDot d)
    (prec : Option ContractPrecision) (sched : HostSchedule) (X : FVec Ideal ⟨2, ![n, a]⟩ φ₁) (W : FVec Ideal ⟨2, ![a, b]⟩ φ₂)
    (i : Fin n) : row (FloatOps.dotGeneral d prec sched X W) i = vm (row X i) W := by
  funext j
  unfold row vm
  exact (Ideal.dotGeneral_apply d prec sched X W (ix2 i j)).trans (hd.sum_eq X W i j)

/-- Row `i` of a kernel's matrix product of that form into the zero accumulator is row `i` of the left operand times
    the matrix. -/
theorem row_matmul_zero {n a b : Nat} {φ₁ φ₂ : FTy} (d : DotDims ⟨2, ![n, a]⟩ ⟨2, ![a, b]⟩ ⟨2, ![n, b]⟩) (hd : PlainDot d)
    (prec : Option ContractPrecision) (X : FVec Ideal ⟨2, ![n, a]⟩ φ₁) (W : FVec Ideal ⟨2, ![a, b]⟩ φ₂)
    (i : Fin n) : row (FloatOps.matmul d prec X W (constant ⟨2, ![n, b]⟩ .f32 0x00000000#32)) i = vm (row X i) W := by
  funext j
  unfold row vm
  exact (Ideal.matmul_constant_zero_apply d prec X W (ix2 i j)).trans (hd.sum_eq X W i j)

theorem row_addf {n k : Nat} {φ : FTy} (A B : FVec Ideal ⟨2, ![n, k]⟩ φ) (i : Fin n) :
    row (addf A B) i = fun j => row A i j + row B i j := rfl

theorem row_mulf {n k : Nat} {φ : FTy} (A B : FVec Ideal ⟨2, ![n, k]⟩ φ) (i : Fin n) :
    row (mulf A B) i = fun j => row A i j * row B i j := rfl

theorem row_logistic {n k : Nat} {φ : FTy} (A : FVec Ideal ⟨2, ![n, k]⟩ φ) (i : Fin n) :
    row (logistic A) i = fun j => Ideal.logistic (row A i j) := rfl

/-- A change of float format is the identity at the ideal instance. -/
theorem truncf_eq {s : Shape} {φ ψ : FTy} (A : FVec Ideal s φ) (h : ψ.bits < φ.bits) : (truncf ψ A h : FVec Ideal s ψ) = A := rfl

/-- A kernel's bias row, a length-256 vector cast to [1, 256] and broadcast along `n` rows: every row is the vector. -/
theorem row_bias_kernel {n : Nat} {φ : FTy} (β : FVec Ideal ⟨1, ![256]⟩ φ)
    (h1 : (⟨1, ![256]⟩ : Shape).ShapeCasts ⟨2, ![1, 256]⟩) (h2 : (⟨2, ![1, 256]⟩ : Shape).Broadcasts ⟨2, ![n, 256]⟩) (i : Fin n) :
    row (broadcastTo ⟨2, ![n, 256]⟩ (shapeCast ⟨2, ![1, 256]⟩ β h1) h2) i = vec β := by
  funext j
  unfold row vec
  -- the broadcast reads its one row, the cast to one row reads the vector at the column
  refine (broadcastTo_apply (shapeCast ⟨2, ![1, 256]⟩ β h1) h2 (ix2 i j) (ix2 (0 : Fin 1) j) (fun a => ?_)).trans ?_
  · match a with
    | ⟨0, _⟩ => show (0 : Nat) = if (1 : Nat) = 1 then 0 else _; rw [if_pos rfl]
    | ⟨1, _⟩ => show j.val = if (256 : Nat) = 1 then 0 else j.val; rw [if_neg (by decide)]
  · refine (shapeCast_addUnit_apply ![256] β h1 (ix2 (0 : Fin 1) j)).trans ?_
    exact congrArg β (funext fun c => match c with | ⟨0, _⟩ => rfl)

/-- A host program's bias row, a length-256 vector broadcast to [1, 256] and then along `n` rows: every row is the
    vector. -/
theorem row_bias_host {n : Nat} {φ : FTy} (β : FVec Ideal ⟨1, ![256]⟩ φ)
    (h1 : (⟨1, ![256]⟩ : Shape).BroadcastsInDim ⟨2, ![1, 256]⟩ ![1])
    (h2 : (⟨2, ![1, 256]⟩ : Shape).BroadcastsInDim ⟨2, ![n, 256]⟩ ![0, 1]) (i : Fin n) :
    row (broadcastInDim ⟨2, ![n, 256]⟩ ![0, 1] h2 (broadcastInDim ⟨2, ![1, 256]⟩ ![1] h1 β)) i = vec β := by
  funext j
  unfold row vec
  -- the outer broadcast reads its one row, the inner one reads the vector at the column
  refine (broadcastInDim_apply ![0, 1] h2 (broadcastInDim ⟨2, ![1, 256]⟩ ![1] h1 β) (ix2 i j) (ix2 (0 : Fin 1) j) (fun a => ?_)).trans ?_
  · match a with
    | ⟨0, _⟩ => show (0 : Nat) = if (1 : Nat) = 1 then 0 else _; rw [if_pos rfl]
    | ⟨1, _⟩ => show j.val = if (256 : Nat) = 1 then 0 else j.val; rw [if_neg (by decide)]
  · exact broadcastInDim_apply ![1] h1 β (ix2 (0 : Fin 1) j) (ix1 j) (fun a => match a with
      | ⟨0, _⟩ => by show j.val = if (256 : Nat) = 1 then 0 else j.val; rw [if_neg (by decide)])

/-- The f32 word `0x3F800000` is the extended real `1`. -/
private theorem ofBits_f32_one_word : Ideal.ofBits .f32 0x3F800000#32 = 1 := by
  simp [Ideal.ofBits, Ideal.ieee, -EReal.coe_mul]; norm_num

/-- jax's host expansion of `x · logistic x` — `x · (1 / (1 + exp (−x)))` with the two ones broadcast scalars — on one
    row is `silu` of the row. -/
theorem row_silu_host {n k : Nat} (X : FVec Ideal ⟨2, ![n, k]⟩ .f32)
    (h : (⟨0, ![]⟩ : Shape).BroadcastsInDim ⟨2, ![n, k]⟩ ![]) (i : Fin n) :
    row (mulf X (Host.divf (broadcastInDim ⟨2, ![n, k]⟩ ![] h (constant (F := Ideal) ⟨0, ![]⟩ .f32 0x3F800000#32))
      (addf (broadcastInDim ⟨2, ![n, k]⟩ ![] h (constant (F := Ideal) ⟨0, ![]⟩ .f32 0x3F800000#32)) (Host.exp (Host.negf X))))) i
      = silu (row X i) := by
  funext j
  have hone : broadcastInDim ⟨2, ![n, k]⟩ ![] h (constant (F := Ideal) ⟨0, ![]⟩ .f32 0x3F800000#32) (ix2 i j) = (1 : EReal) :=
    ofBits_f32_one_word
  unfold row silu
  show X (ix2 i j) * FloatOps.hostDivf
      (broadcastInDim ⟨2, ![n, k]⟩ ![] h (constant (F := Ideal) ⟨0, ![]⟩ .f32 0x3F800000#32) (ix2 i j))
      (FloatOps.addf (broadcastInDim ⟨2, ![n, k]⟩ ![] h (constant (F := Ideal) ⟨0, ![]⟩ .f32 0x3F800000#32) (ix2 i j))
        (FloatOps.hostUnary .exp (FloatOps.hostNegf (X (ix2 i j))))) = X (ix2 i j) * Ideal.logistic (X (ix2 i j))
  -- with both ones in place, 1 / (1 + exp (−x)) is the logistic function by definition
  rw [hone]
  rfl

/-- A kernel's `x · logistic x` on one row is `silu` of the row. -/
theorem row_silu_kernel {n k : Nat} {φ : FTy} (X : FVec Ideal ⟨2, ![n, k]⟩ φ) (i : Fin n) :
    row (mulf X (logistic X)) i = silu (row X i) := rfl

end Cert.RowOps

end
-- ==== Proof.KRegion0.lean ====
import proofs.«403022_j57904749085210_1_alg».proof.Proof.Gen.KernelIdeal.Frame
import proofs.«403022_j57904749085210_1_alg».proof.Proof.Spec
import proofs.«403022_j57904749085210_1_alg».proof.Proof.LibRowOps
import Idealize.ShloMosaic.Lib.Pipeline.Value

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

-- The TensorCore's buffer contents when the edge-wise region is entered.
variable (V : (c : Dev nD) → (b : Ref sig .tc) → Buf (Elt Ideal) ((c : Thread nD τ).loc b))

/-! ## The rows of the two payloads -/

/-- The two-axis origin is the zero offset on every axis. -/
theorem origin2 : (![0, 0] : Fin 2 → Nat) = fun _ => 0 :=
  funext fun a => by match a with | ⟨0, _⟩ => rfl | ⟨1, _⟩ => rfl

/-- The one-axis origin is the zero offset. -/
theorem origin1 : (![0] : Fin 1 → Nat) = fun _ => 0 :=
  funext fun a => by match a with | ⟨0, _⟩ => rfl

/-- Each matrix product of the edge-wise stage contracts the left operand's columns against the right operand's rows. -/
theorem plain_256_256 : Cert.RowOps.PlainDot dot_S4096x256_S256x256_S4096x256_1_0_0_1_n_n := ⟨rfl, rfl, rfl, rfl, rfl, rfl⟩
theorem plain_6_8 : Cert.RowOps.PlainDot dot_S4096x6_S6x8_S4096x8_1_0_0_1_n_n := ⟨rfl, rfl, rfl, rfl, rfl, rfl⟩
theorem plain_8_256 : Cert.RowOps.PlainDot dot_S4096x8_S8x256_S4096x256_1_0_0_1_n_n := ⟨rfl, rfl, rfl, rfl, rfl, rfl⟩
theorem plain_256_64 : Cert.RowOps.PlainDot dot_S4096x256_S256x64_S4096x64_1_0_0_1_n_n := ⟨rfl, rfl, rfl, rfl, rfl, rfl⟩

/-- Row `p` of the first payload of a block of edges is the `ji` branch of the block's row `p`. -/
theorem xji_row (x0 : Vec Ideal S4096x256 .f32) (w : Vec Ideal S256x256 .f32) (b : Vec Ideal S256 .f32) (p : Fin 4096) :
    Cert.Spec.row (k0_pay2 (F := Ideal) x0 w b) p = Cert.Spec.xjiRow (Cert.Spec.row x0 p) w b := by
  unfold k0_pay2 k0_pay1
  simp only [Cert.RowOps.truncf_eq]
  rw [Cert.RowOps.row_silu_kernel (φ := .f32), Cert.RowOps.row_addf (φ := .f32),
    Cert.RowOps.row_matmul_zero (φ₁ := .bf16) (φ₂ := .bf16) _ plain_256_256, Cert.RowOps.row_bias_kernel (φ := .f32)]
  rfl

/-- Row `p` of the second payload of a block of edges is the down-projected `kj` branch of the block's rows `p`. -/
theorem xkjd_row (x0 : Vec Ideal S4096x256 .f32) (w : Vec Ideal S256x256 .f32) (b : Vec Ideal S256 .f32)
    (rbf : Vec Ideal S4096x6 .f32) (wr1 : Vec Ideal S6x8 .f32) (wr2 : Vec Ideal S8x256 .f32) (wd : Vec Ideal S256x64 .f32) (p : Fin 4096) :
    Cert.Spec.row (k0_pay3 (F := Ideal) x0 w b rbf wr1 wr2 wd) p
      = Cert.Spec.xkjdRow (Cert.Spec.row x0 p) (Cert.Spec.row rbf p) w b wr1 wr2 wd := by
  unfold k0_pay3 k0_pay1
  simp only [Cert.RowOps.truncf_eq]
  rw [Cert.RowOps.row_silu_kernel (φ := .f32), Cert.RowOps.row_matmul_zero (φ₁ := .bf16) (φ₂ := .bf16) _ plain_256_64,
    Cert.RowOps.row_mulf (φ := .f32), Cert.RowOps.row_silu_kernel (φ := .f32), Cert.RowOps.row_addf (φ := .f32),
    Cert.RowOps.row_matmul_zero (φ₁ := .bf16) (φ₂ := .bf16) _ plain_256_256, Cert.RowOps.row_bias_kernel (φ := .f32),
    Cert.RowOps.row_matmul_zero (φ₁ := .bf16) (φ₂ := .bf16) _ plain_8_256,
    Cert.RowOps.row_matmul_zero (φ₁ := .bf16) (φ₂ := .bf16) _ plain_6_8]
  rfl

/-! ## What the body leaves in the two output buffers, row by row -/

/-- Row `p` of the first output buffer after the body: the `ji` branch of row `p` of the block of edges. -/
theorem xji_buffer_row (x0 : Vec Ideal S4096x256 .f32) (x1 : Vec Ideal S4096x6 .f32) (x2 : Vec Ideal S256x256 .f32)
    (x3 : Vec Ideal S256 .f32) (x4 : Vec Ideal S256x256 .f32) (x5 : Vec Ideal S256 .f32) (x6 : Vec Ideal S6x8 .f32)
    (x7 : Vec Ideal S8x256 .f32) (x8 : Vec Ideal S256x64 .f32) (p : Fin 4096) :
    Cert.Spec.row (out0_9 (F := Ideal) x0 x1 x2 x3 x4 x5 x6 x7 x8) p = Cert.Spec.xjiRow (Cert.Spec.row x0 p) x2 x3 := by
  unfold out0_9
  rw [View.canon_unit_zero origin2]
  simp only [View.ld_unit_zero (S := S4096x256) origin2, View.ld_unit_zero (S := S256x256) origin2,
    View.ld_unit_zero (S := S256) origin1]
  exact xji_row x0 x2 x3 p

/-- Row `p` of the second output buffer after the body: the down-projected `kj` branch of rows `p` of the blocks. -/
theorem xkjd_buffer_row (x0 : Vec Ideal S4096x256 .f32) (x1 : Vec Ideal S4096x6 .f32) (x2 : Vec Ideal S256x256 .f32)
    (x3 : Vec Ideal S256 .f32) (x4 : Vec Ideal S256x256 .f32) (x5 : Vec Ideal S256 .f32) (x6 : Vec Ideal S6x8 .f32)
    (x7 : Vec Ideal S8x256 .f32) (x8 : Vec Ideal S256x64 .f32) (p : Fin 4096) :
    Cert.Spec.row (out0_10 (F := Ideal) x0 x1 x2 x3 x4 x5 x6 x7 x8) p
      = Cert.Spec.xkjdRow (Cert.Spec.row x0 p) (Cert.Spec.row x1 p) x4 x5 x6 x7 x8 := by
  unfold out0_10
  rw [View.canon_unit_zero origin2]
  simp only [View.ld_unit_zero (S := S4096x256) origin2, View.ld_unit_zero (S := S256x256) origin2,
    View.ld_unit_zero (S := S256) origin1, View.ld_unit_zero (S := S4096x6) origin2, View.ld_unit_zero (S := S6x8) origin2,
    View.ld_unit_zero (S := S8x256) origin2, View.ld_unit_zero (S := S256x64) origin2]
  exact xkjd_row x0 x4 x5 x1 x6 x7 x8 p

/-! ## The blocks of the windows, as rows of their arrays -/

/-- The index maps over the 32 grid points: the four row-blocked windows (edge features, radial basis, the two outputs)
    are at block `t` of the rows at point `t`, and every weight window stays at its one block. -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ win0_3.index t (0 : Fin 1) = 0
    ∧ (win0_4.index t (0 : Fin 2) = 0 ∧ win0_4.index t (1 : Fin 2) = 0)
    ∧ win0_5.index t (0 : Fin 1) = 0
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)

/-- Row `p` of the block of edge features at point `t` is row `4096 t + p` of the array. -/
theorem x_block_row (c : Dev nD) (t : Fin cfg0.N) (p : Fin 4096) (r : Fin 131072) (hr : r.val = t.val * 4096 + p.val) :
    Cert.Spec.row (iblk0 (F := Ideal) V c 0 t : Vec Ideal S4096x256 .f32) p
      = Cert.Spec.row (V c main_arg0 : Vec Ideal S131072x256 .f32) r := by
  obtain ⟨⟨e0, e1⟩, -⟩ := index_facts t
  funext q
  show V c main_arg0 (((cfg0.win 0).blk t).view.emb (ix2 p q)) = V c main_arg0 (ix2 r q)
  refine congrArg (V c main_arg0) (funext fun a => Fin.ext ?_)
  match a with
  | ⟨0, _⟩ => show win0_0.index t (0 : Fin 2) * 4096 + 1 * p.val = r.val; omega
  | ⟨1, _⟩ => show win0_0.index t (1 : Fin 2) * 256 + 1 * q.val = q.val; omega

/-- Row `p` of the block of the radial basis at point `t` is row `4096 t + p` of the array. -/
theorem rbf_block_row (c : Dev nD) (t : Fin cfg0.N) (p : Fin 4096) (r : Fin 131072) (hr : r.val = t.val * 4096 + p.val) :
    Cert.Spec.row (iblk0 (F := Ideal) V c 1 t : Vec Ideal S4096x6 .f32) p
      = Cert.Spec.row (V c main_arg1 : Vec Ideal S131072x6 .f32) r := by
  obtain ⟨-, ⟨e0, e1⟩, -⟩ := index_facts t
  funext q
  show V c main_arg1 (((cfg0.win 1).blk t).view.emb (ix2 p q)) = V c main_arg1 (ix2 r q)
  refine congrArg (V c main_arg1) (funext fun a => Fin.ext ?_)
  match a with
  | ⟨0, _⟩ => show win0_1.index t (0 : Fin 2) * 4096 + 1 * p.val = r.val; omega
  | ⟨1, _⟩ => show win0_1.index t (1 : Fin 2) * 6 + 1 * q.val = q.val; omega

/-- Each weight window's one block is its whole array, at every point. -/
theorem wji_block (c : Dev nD) (t : Fin cfg0.N) : (iblk0 (F := Ideal) V c 2 t : Vec Ideal S256x256 .f32) = V c main_arg5 := by
  obtain ⟨-, -, ⟨e0, e1⟩, -⟩ := index_facts t
  funext y
  show V c main_arg5 (((cfg0.win 2).blk t).view.emb y) = V c main_arg5 y
  refine congrArg (V c main_arg5) (funext fun a => Fin.ext ?_)
  match a with
  | ⟨0, _⟩ => show win0_2.index t (0 : Fin 2) * 256 + 1 * (y 0).val = (y 0).val; omega
  | ⟨1, _⟩ => show win0_2.index t (1 : Fin 2) * 256 + 1 * (y 1).val = (y 1).val; omega

theorem bji_block (c : Dev nD) (t : Fin cfg0.N) : (iblk0 (F := Ideal) V c 3 t : Vec Ideal S256 .f32) = V c main_arg6 := by
  obtain ⟨-, -, -, e0, -⟩ := index_facts t
  funext y
  show V c main_arg6 (((cfg0.win 3).blk t).view.emb y) = V c main_arg6 y
  refine congrArg (V c main_arg6) (funext fun a => Fin.ext ?_)
  match a with
  | ⟨0, _⟩ => show win0_3.index t (0 : Fin 1) * 256 + 1 * (y 0).val = (y 0).val; omega

theorem wkj_block (c : Dev nD) (t : Fin cfg0.N) : (iblk0 (F := Ideal) V c 4 t : Vec Ideal S256x256 .f32) = V c main_arg7 := by
  obtain ⟨-, -, -, -, ⟨e0, e1⟩, -⟩ := index_facts t
  funext y
  show V c main_arg7 (((cfg0.win 4).blk t).view.emb y) = V c main_arg7 y
  refine congrArg (V c main_arg7) (funext fun a => Fin.ext ?_)
  match a with
  | ⟨0, _⟩ => show win0_4.index t (0 : Fin 2) * 256 + 1 * (y 0).val = (y 0).val; omega
  | ⟨1, _⟩ => show win0_4.index t (1 : Fin 2) * 256 + 1 * (y 1).val = (y 1).val; omega

theorem bkj_block (c : Dev nD) (t : Fin cfg0.N) : (iblk0 (F := Ideal) V c 5 t : Vec Ideal S256 .f32) = V c main_arg8 := by
  obtain ⟨-, -, -, -, -, e0, -⟩ := index_facts t
  funext y
  show V c main_arg8 (((cfg0.win 5).blk t).view.emb y) = V c main_arg8 y
  refine congrArg (V c main_arg8) (funext fun a => Fin.ext ?_)
  match a with
  | ⟨0, _⟩ => show win0_5.index t (0 : Fin 1) * 256 + 1 * (y 0).val = (y 0).val; omega

theorem wrbf1_block (c : Dev nD) (t : Fin cfg0.N) : (iblk0 (F := Ideal) V c 6 t : Vec Ideal S6x8 .f32) = V c main_arg9 := by
  obtain ⟨-, -, -, -, -, -, ⟨e0, e1⟩, -⟩ := index_facts t
  funext y
  show V c main_arg9 (((cfg0.win 6).blk t).view.emb y) = V c main_arg9 y
  refine congrArg (V c main_arg9) (funext fun a => Fin.ext ?_)
  match a with
  | ⟨0, _⟩ => show win0_6.index t (0 : Fin 2) * 6 + 1 * (y 0).val = (y 0).val; omega
  | ⟨1, _⟩ => show win0_6.index t (1 : Fin 2) * 8 + 1 * (y 1).val = (y 1).val; omega

theorem wrbf2_block (c : Dev nD) (t : Fin cfg0.N) : (iblk0 (F := Ideal) V c 7 t : Vec Ideal S8x256 .f32) = V c main_arg10 := by
  obtain ⟨-, -, -, -, -, -, -, ⟨e0, e1⟩, -⟩ := index_facts t
  funext y
  show V c main_arg10 (((cfg0.win 7).blk t).view.emb y) = V c main_arg10 y
  refine congrArg (V c main_arg10) (funext fun a => Fin.ext ?_)
  match a with
  | ⟨0, _⟩ => show win0_7.index t (0 : Fin 2) * 8 + 1 * (y 0).val = (y 0).val; omega
  | ⟨1, _⟩ => show win0_7.index t (1 : Fin 2) * 256 + 1 * (y 1).val = (y 1).val; omega

theorem wdown_block (c : Dev nD) (t : Fin cfg0.N) : (iblk0 (F := Ideal) V c 8 t : Vec Ideal S256x64 .f32) = V c main_arg13 := by
  obtain ⟨-, -, -, -, -, -, -, -, ⟨e0, e1⟩, -⟩ := index_facts t
  funext y
  show V c main_arg13 (((cfg0.win 8).blk t).view.emb y) = V c main_arg13 y
  refine congrArg (V c main_arg13) (funext fun a => Fin.ext ?_)
  match a with
  | ⟨0, _⟩ => show win0_8.index t (0 : Fin 2) * 256 + 1 * (y 0).val = (y 0).val; omega
  | ⟨1, _⟩ => show win0_8.index t (1 : Fin 2) * 64 + 1 * (y 1).val = (y 1).val; omega

/-! ## The write-backs, and the two arrays after the region -/

/-- Row `r` of the `ji` branch of every edge is the `ji` branch of row `r`. -/
theorem row_Xji (x : Cert.Spec.Mat 131072 256) (W : Cert.Spec.Mat 256 256) (β : Cert.Spec.Vc 256) (r : Fin 131072) :
    Cert.Spec.row (Cert.Spec.Xji x W β) r = Cert.Spec.xjiRow (Cert.Spec.row x r) W β := rfl

/-- Row `r` of the down-projected `kj` branch of every edge is that branch of rows `r`. -/
theorem row_Xkjd (x : Cert.Spec.Mat 131072 256) (rbf : Cert.Spec.Mat 131072 6) (W : Cert.Spec.Mat 256 256) (β : Cert.Spec.Vc 256)
    (W1 : Cert.Spec.Mat 6 8) (W2 : Cert.Spec.Mat 8 256) (Wd : Cert.Spec.Mat 256 64) (r : Fin 131072) :
    Cert.Spec.row (Cert.Spec.Xkjd x rbf W β W1 W2 Wd) r
      = Cert.Spec.xkjdRow (Cert.Spec.row x r) (Cert.Spec.row rbf r) W β W1 W2 Wd := rfl

/-- A buffer of 4096 rows whose row `p` is row `4096 t + p` of an array `G` is, written back at point `t` through the
    first output window, the window's block `t` of `G`. -/
theorem xji_window_rows (t : Fin cfg0.N) (X : Vec Ideal S4096x256 .f32) (G : Vec Ideal S131072x256 .f32)
    (h : ∀ (p : Fin 4096) (r : Fin 131072), r.val = t.val * 4096 + p.val → Cert.Spec.row X p = Cert.Spec.row G r) :
    (cfg0.win 9).cut (grid0.coords t) X = ((cfg0.win 9).blk t).view.read (Elt Ideal) G := by
  obtain ⟨-, -, -, -, -, -, -, -, -, ⟨e0, e1⟩, -⟩ := index_facts t
  have ht : t.val < 32 := lt_of_lt_of_eq t.isLt N_0
  refine funext fun (j : S4096x256.Idx) => ?_
  obtain ⟨p, q, rfl⟩ : ∃ (p : Fin 4096) (q : Fin 256), j = ix2 p q := ⟨j 0, j 1, eq_ix2 j⟩
  have hp : p.val < 4096 := p.isLt
  have hemb : ((cfg0.win 9).blk t).view.emb (ix2 p q) = (ix2 (⟨t.val * 4096 + p.val, by omega⟩ : Fin 131072) q : S131072x256.Idx) := by
    refine funext fun a => Fin.ext ?_
    match a with
    | ⟨0, _⟩ => show win0_9.index t (0 : Fin 2) * 4096 + 1 * p.val = t.val * 4096 + p.val; omega
    | ⟨1, _⟩ => show win0_9.index t (1 : Fin 2) * 256 + 1 * q.val = q.val; omega
  show X (ix2 p q) = G (((cfg0.win 9).blk t).view.emb (ix2 p q))
  rw [hemb]
  exact congrFun (h p ⟨t.val * 4096 + p.val, by omega⟩ rfl) q

/-- What point `t` writes back to the first output array: its block of the `ji` branch of every edge. -/
theorem xji_flushed (c : Dev nD) (t : Fin cfg0.N) :
    (dat0 (F := Ideal) V c).flushed 9 t
      = ((cfg0.win 9).blk t).view.read (Elt Ideal) (Cert.Spec.Xji (V c main_arg0) (V c main_arg5) (V c main_arg6)) := by
  show (cfg0.win 9).cut (grid0.coords t) ((dat0 V c).after 9 t) = _
  rw [after0_9]
  refine xji_window_rows t _ _ fun p r hr => ?_
  refine (xji_buffer_row (iblk0 V c 0 t) (iblk0 V c 1 t) (iblk0 V c 2 t) (iblk0 V c 3 t) (iblk0 V c 4 t) (iblk0 V c 5 t) (iblk0 V c 6 t) (iblk0 V c 7 t) (iblk0 V c 8 t) p).trans ?_
  rw [x_block_row V c t p r hr, wji_block V c t, bji_block V c t]
  exact (row_Xji _ _ _ r).symm

/-- A buffer of 4096 rows whose row `p` is row `4096 t + p` of an array `G` is, written back at point `t` through the
    second output window, the window's block `t` of `G`. -/
theorem xkjd_window_rows (t : Fin cfg0.N) (X : Vec Ideal S4096x64 .f32) (G : Vec Ideal S131072x64 .f32)
    (h : ∀ (p : Fin 4096) (r : Fin 131072), r.val = t.val * 4096 + p.val → Cert.Spec.row X p = Cert.Spec.row G r) :
    (cfg0.win 10).cut (grid0.coords t) X = ((cfg0.win 10).blk t).view.read (Elt Ideal) G := by
  obtain ⟨-, -, -, -, -, -, -, -, -, -, ⟨e0, e1⟩⟩ := index_facts t
  have ht : t.val < 32 := lt_of_lt_of_eq t.isLt N_0
  refine funext fun (j : S4096x64.Idx) => ?_
  obtain ⟨p, q, rfl⟩ : ∃ (p : Fin 4096) (q : Fin 64), j = ix2 p q := ⟨j 0, j 1, eq_ix2 j⟩
  have hp : p.val < 4096 := p.isLt
  have hemb : ((cfg0.win 10).blk t).view.emb (ix2 p q) = (ix2 (⟨t.val * 4096 + p.val, by omega⟩ : Fin 131072) q : S131072x64.Idx) := by
    refine funext fun a => Fin.ext ?_
    match a with
    | ⟨0, _⟩ => show win0_10.index t (0 : Fin 2) * 4096 + 1 * p.val = t.val * 4096 + p.val; omega
    | ⟨1, _⟩ => show win0_10.index t (1 : Fin 2) * 64 + 1 * q.val = q.val; omega
  show X (ix2 p q) = G (((cfg0.win 10).blk t).view.emb (ix2 p q))
  rw [hemb]
  exact congrFun (h p ⟨t.val * 4096 + p.val, by omega⟩ rfl) q

/-- What point `t` writes back to the second output array: its block of the down-projected `kj` branch of every edge. -/
theorem xkjd_flushed (c : Dev nD) (t : Fin cfg0.N) :
    (dat0 (F := Ideal) V c).flushed 10 t
      = ((cfg0.win 10).blk t).view.read (Elt Ideal)
          (Cert.Spec.Xkjd (V c main_arg0) (V c main_arg1) (V c main_arg7) (V c main_arg8) (V c main_arg9) (V c main_arg10) (V c main_arg13)) := by
  show (cfg0.win 10).cut (grid0.coords t) ((dat0 V c).after 10 t) = _
  rw [after0_10]
  refine xkjd_window_rows t _ _ fun p r hr => ?_
  refine (xkjd_buffer_row (iblk0 V c 0 t) (iblk0 V c 1 t) (iblk0 V c 2 t) (iblk0 V c 3 t) (iblk0 V c 4 t) (iblk0 V c 5 t) (iblk0 V c 6 t) (iblk0 V c 7 t) (iblk0 V c 8 t) p).trans ?_
  rw [x_block_row V c t p r hr, rbf_block_row V c t p r hr, wkj_block V c t, bkj_block V c t, wrbf1_block V c t,
    wrbf2_block V c t, wdown_block V c t]
  exact (row_Xkjd _ _ _ _ _ _ _ r).symm

/-- An index of the first output array lies in point `t`'s block iff, on each axis, it lies in the block's range. -/
theorem xji_mem_block (t : Fin cfg0.N) (i : S131072x256.Idx) :
    i ∈ ((cfg0.win 9).blk t).view.set ↔ ∀ a : Fin 2, win0_9.index t a * S4096x256.size a ≤ (i a).val
      ∧ (i a).val < win0_9.index t a * S4096x256.size a + S4096x256.size a := by
  show i ∈ ((View.whole main_v0_0).slice (win0_9.rect t)).set ↔ _
  rw [View.set_slice_whole, Rect.mem_set_unit]
  exact Iff.rfl

/-- An index of the second output array lies in point `t`'s block iff, on each axis, it lies in the block's range. -/
theorem xkjd_mem_block (t : Fin cfg0.N) (i : S131072x64.Idx) :
    i ∈ ((cfg0.win 10).blk t).view.set ↔ ∀ a : Fin 2, win0_10.index t a * S4096x64.size a ≤ (i a).val
      ∧ (i a).val < win0_10.index t a * S4096x64.size a + S4096x64.size a := by
  show i ∈ ((View.whole main_v0_1).slice (win0_10.rect t)).set ↔ _
  rw [View.set_slice_whole, Rect.mem_set_unit]
  exact Iff.rfl

/-- Every index of the first output array lies in the block of the point its row falls in, row / 4096. -/
theorem xji_cover (i : S131072x256.Idx) :
    ∃ t : Fin cfg0.N, (cfg0.win 9).flush t = true ∧ i ∈ ((cfg0.win 9).blk t).view.set := by
  have hi0 : (i 0).val < 131072 := (i 0).isLt
  have hi1 : (i 1).val < 256 := (i 1).isLt
  have hN : (i 0).val / 4096 < cfg0.N := by show _ < grid0.N; rw [N_0]; omega
  obtain ⟨-, -, -, -, -, -, -, -, -, ⟨e0, e1⟩, -⟩ := index_facts ⟨(i 0).val / 4096, hN⟩
  refine ⟨⟨(i 0).val / 4096, hN⟩, flush0_9 _, ?_⟩
  rw [xji_mem_block]
  intro a
  match a with
  | ⟨0, _⟩ =>
    show win0_9.index ⟨(i 0).val / 4096, hN⟩ (0 : Fin 2) * 4096 ≤ (i 0).val
      ∧ (i 0).val < win0_9.index ⟨(i 0).val / 4096, hN⟩ (0 : Fin 2) * 4096 + 4096
    rw [e0]; show (i 0).val / 4096 * 4096 ≤ (i 0).val ∧ (i 0).val < (i 0).val / 4096 * 4096 + 4096; omega
  | ⟨1, _⟩ =>
    show win0_9.index ⟨(i 0).val / 4096, hN⟩ (1 : Fin 2) * 256 ≤ (i 1).val
      ∧ (i 1).val < win0_9.index ⟨(i 0).val / 4096, hN⟩ (1 : Fin 2) * 256 + 256
    rw [e1]; omega

/-- Every index of the second output array lies in the block of the point its row falls in, row / 4096. -/
theorem xkjd_cover (i : S131072x64.Idx) :
    ∃ t : Fin cfg0.N, (cfg0.win 10).flush t = true ∧ i ∈ ((cfg0.win 10).blk t).view.set := by
  have hi0 : (i 0).val < 131072 := (i 0).isLt
  have hi1 : (i 1).val < 64 := (i 1).isLt
  have hN : (i 0).val / 4096 < cfg0.N := by show _ < grid0.N; rw [N_0]; omega
  obtain ⟨-, -, -, -, -, -, -, -, -, -, ⟨e0, e1⟩⟩ := index_facts ⟨(i 0).val / 4096, hN⟩
  refine ⟨⟨(i 0).val / 4096, hN⟩, flush0_10 _, ?_⟩
  rw [xkjd_mem_block]
  intro a
  match a with
  | ⟨0, _⟩ =>
    show win0_10.index ⟨(i 0).val / 4096, hN⟩ (0 : Fin 2) * 4096 ≤ (i 0).val
      ∧ (i 0).val < win0_10.index ⟨(i 0).val / 4096, hN⟩ (0 : Fin 2) * 4096 + 4096
    rw [e0]; show (i 0).val / 4096 * 4096 ≤ (i 0).val ∧ (i 0).val < (i 0).val / 4096 * 4096 + 4096; omega
  | ⟨1, _⟩ =>
    show win0_10.index ⟨(i 0).val / 4096, hN⟩ (1 : Fin 2) * 64 ≤ (i 1).val
      ∧ (i 1).val < win0_10.index ⟨(i 0).val / 4096, hN⟩ (1 : Fin 2) * 64 + 64
    rw [e1]; omega

/-- After the edge-wise region its first output array holds the `ji` branch of every edge. -/
theorem xji_array (c : Dev nD) :
    (dat0 (F := Ideal) V c).arrAt 9 cfg0.N = Cert.Spec.Xji (V c main_arg0) (V c main_arg5) (V c main_arg6) :=
  (dat0 (F := Ideal) V c).arrAt_eq_of_cover 9 (Cert.Spec.Xji (V c main_arg0) (V c main_arg5) (V c main_arg6))
    (fun t _ => xji_flushed V c t) xji_cover

/-- After the edge-wise region its second output array holds the down-projected `kj` branch of every edge. -/
theorem xkjd_array (c : Dev nD) :
    (dat0 (F := Ideal) V c).arrAt 10 cfg0.N
      = Cert.Spec.Xkjd (V c main_arg0) (V c main_arg1) (V c main_arg7) (V c main_arg8) (V c main_arg9) (V c main_arg10) (V c main_arg13) :=
  (dat0 (F := Ideal) V c).arrAt_eq_of_cover 10
    (Cert.Spec.Xkjd (V c main_arg0) (V c main_arg1) (V c main_arg7) (V c main_arg8) (V c main_arg9) (V c main_arg10) (V c main_arg13))
    (fun t _ => xkjd_flushed V c t) xkjd_cover

end Cert.KernelIdeal.Region0

end
-- ==== Proof.KRegion1.lean ====
import proofs.«403022_j57904749085210_1_alg».proof.Proof.Gen.KernelIdeal.Frame
import proofs.«403022_j57904749085210_1_alg».proof.Proof.Spec
import proofs.«403022_j57904749085210_1_alg».proof.Proof.LibRowOps
import Idealize.ShloMosaic.Lib.Pipeline.Value

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

-- The TensorCore's buffer contents when the triplet region is entered.
variable (V : (c : Dev nD) → (b : Ref sig .tc) → Buf (Elt Ideal) ((c : Thread nD τ).loc b))

/-- The two zero offsets of a whole-buffer access, as a constant function. -/
theorem zero_offsets : (![0, 0] : Fin 2 → Nat) = fun _ => 0 := funext fun a => by fin_cases a <;> rfl

/-- The body's payload on one row: the row of angular basis values through the two weight matrices, one after the
    other.  Both products start from a zero accumulator, and the changes of float format around them are the identity
    over the extended reals. -/
theorem row_payload (x0 : Vec Ideal S32768x42 .f32) (x1 : Vec Ideal S42x8 .f32) (x2 : Vec Ideal S8x64 .f32) (p : Fin 32768) :
    Cert.Spec.row (k1_pay1 x0 x1 x2) p = Cert.Spec.sRow (Cert.Spec.row x0 p) x1 x2 := by
  refine (Cert.RowOps.row_matmul_zero dot_S32768x8_S8x64_S32768x64_1_0_0_1_n_n ⟨rfl, rfl, rfl, rfl, rfl, rfl⟩ none _ _ p).trans ?_
  exact congrArg (fun v => Cert.Spec.vm v x2) (Cert.RowOps.row_matmul_zero dot_S32768x42_S42x8_S32768x8_1_0_0_1_n_n ⟨rfl, rfl, rfl, rfl, rfl, rfl⟩ none _ _ p)

/-- The index maps over the 32 grid points: the triplet rows' window and the output's window are at block t of the
    row axis and block 0 of the column axis; the two weight windows stay at block (0, 0). -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- A grid point is below 32. -/
theorem point_lt (t : Fin cfg1.N) : t.val < 32 := lt_of_lt_of_eq t.isLt N_1

/-- The array row under row p of the block of point t: 32768 t + p. -/
def arrRow (t : Fin cfg1.N) (p : Fin 32768) : Fin 1048576 :=
  ⟨t.val * 32768 + p.val, by have := point_lt t; have := p.isLt; omega⟩

/-- The first weight matrix's block is the whole matrix, at every point. -/
theorem block_w1 (c : Dev nD) (t : Fin cfg1.N) : iblk1 V c 1 t = V c main_arg11 := by
  obtain ⟨e0, e1, e2, e3, e4, e5, e6, e7⟩ := index_facts t
  funext y
  show V c main_arg11 (((cfg1.win 1).blk t).view.emb y) = V c main_arg11 y
  refine congrArg (V c main_arg11) ?_
  funext a; apply Fin.ext
  match a with
  | ⟨0, _⟩ => show win1_1.index t (0 : Fin 2) * 42 + 1 * (y 0).val = (y 0).val; omega
  | ⟨1, _⟩ => show win1_1.index t (1 : Fin 2) * 8 + 1 * (y 1).val = (y 1).val; omega

/-- The second weight matrix's block is the whole matrix, at every point. -/
theorem block_w2 (c : Dev nD) (t : Fin cfg1.N) : iblk1 V c 2 t = V c main_arg12 := by
  obtain ⟨e0, e1, e2, e3, e4, e5, e6, e7⟩ := index_facts t
  funext y
  show V c main_arg12 (((cfg1.win 2).blk t).view.emb y) = V c main_arg12 y
  refine congrArg (V c main_arg12) ?_
  funext a; apply Fin.ext
  match a with
  | ⟨0, _⟩ => show win1_2.index t (0 : Fin 2) * 8 + 1 * (y 0).val = (y 0).val; omega
  | ⟨1, _⟩ => show win1_2.index t (1 : Fin 2) * 64 + 1 * (y 1).val = (y 1).val; omega

/-- Row p of the triplet rows' block at point t is row 32768 t + p of the array. -/
theorem block_rows (c : Dev nD) (t : Fin cfg1.N) (p : Fin 32768) :
    Cert.Spec.row (iblk1 V c 0 t) p = Cert.Spec.row (V c main_arg2) (arrRow t p) := by
  obtain ⟨e0, e1, e2, e3, e4, e5, e6, e7⟩ := index_facts t
  funext k
  show V c main_arg2 (((cfg1.win 0).blk t).view.emb (ix2 p k)) = V c main_arg2 (ix2 (arrRow t p) k)
  refine congrArg (V c main_arg2) ?_
  funext a; apply Fin.ext
  match a with
  | ⟨0, _⟩ => show win1_0.index t (0 : Fin 2) * 32768 + 1 * p.val = t.val * 32768 + p.val; omega
  | ⟨1, _⟩ => show win1_0.index t (1 : Fin 2) * 42 + 1 * k.val = k.val; omega

/-- Entry (p, q) of the output's block at point t is entry (32768 t + p, q) of the array. -/
theorem out_block_index (t : Fin cfg1.N) (p : Fin 32768) (q : Fin 64) :
    ((cfg1.win 3).blk t).view.emb (ix2 p q) = ix2 (arrRow t p) q := by
  obtain ⟨e0, e1, e2, e3, e4, e5, e6, e7⟩ := index_facts t
  funext a; apply Fin.ext
  match a with
  | ⟨0, _⟩ => show win1_3.index t (0 : Fin 2) * 32768 + 1 * p.val = t.val * 32768 + p.val; omega
  | ⟨1, _⟩ => show win1_3.index t (1 : Fin 2) * 64 + 1 * q.val = q.val; omega

/-- What point t writes back is block t of the array of angular factors. -/
theorem flushed_eq (c : Dev nD) (t : Fin cfg1.N) :
    (dat1 (F := Ideal) V c).flushed 3 t
      = ((cfg1.win 3).blk t).view.read (Elt Ideal) (Cert.Spec.Ss (V c main_arg2) (V c main_arg11) (V c main_arg12)) := by
  show (cfg1.win 3).cut (grid1.coords t) ((dat1 V c).after 3 t) = _
  rw [after1_3]
  unfold out1_3
  rw [View.canon_unit_zero zero_offsets]
  simp only [View.ld_unit_zero (S := S32768x42) zero_offsets, View.ld_unit_zero (S := S42x8) zero_offsets,
    View.ld_unit_zero (S := S8x64) zero_offsets]
  funext j
  obtain ⟨p, q, rfl⟩ : ∃ (p : Fin 32768) (q : Fin 64), j = ix2 p q := ⟨j 0, j 1, eq_ix2 j⟩
  show Cert.Spec.row (k1_pay1 (iblk1 V c 0 t) (iblk1 V c 1 t) (iblk1 V c 2 t)) p q
    = Cert.Spec.Ss (V c main_arg2) (V c main_arg11) (V c main_arg12) (((cfg1.win 3).blk t).view.emb (ix2 p q))
  rw [row_payload, block_rows, block_w1, block_w2, out_block_index]
  rfl

/-- An entry of the output array is in the block of point t iff each coordinate is in the block's range. -/
theorem mem_block (t : Fin cfg1.N) (i : S1048576x64.Idx) :
    i ∈ ((cfg1.win 3).blk t).view.set ↔ ∀ a : Fin 2, win1_3.index t a * S32768x64.size a ≤ (i a).val
      ∧ (i a).val < win1_3.index t a * S32768x64.size a + S32768x64.size a := by
  show i ∈ ((View.whole main_v1).slice (win1_3.rect t)).set ↔ _
  rw [View.set_slice_whole, Rect.mem_set_unit]
  exact Iff.rfl

/-- Every entry of the output array is in the block of the point its row falls under. -/
theorem covered (i : S1048576x64.Idx) :
    ∃ t : Fin cfg1.N, (cfg1.win 3).flush t = true ∧ i ∈ ((cfg1.win 3).blk t).view.set := by
  have hi0 : (i 0).val < 1048576 := idx2_lt0 i
  have hi1 : (i 1).val < 64 := idx2_lt1 i
  let t : Fin cfg1.N := ⟨(i 0).val / 32768, lt_of_lt_of_eq (by omega) N_1.symm⟩
  obtain ⟨e0, e1, e2, e3, e4, e5, e6, e7⟩ := index_facts t
  have ht : t.val = (i 0).val / 32768 := rfl
  refine ⟨t, flush1_3 t, ?_⟩
  rw [mem_block]
  intro a
  match a with
  | ⟨0, _⟩ => show win1_3.index t (0 : Fin 2) * 32768 ≤ (i 0).val ∧ (i 0).val < win1_3.index t (0 : Fin 2) * 32768 + 32768; omega
  | ⟨1, _⟩ => show win1_3.index t (1 : Fin 2) * 64 ≤ (i 1).val ∧ (i 1).val < win1_3.index t (1 : Fin 2) * 64 + 64; omega

/-- After the triplet region its output array holds the angular factor of every triplet. -/
theorem s_array (c : Dev nD) :
    (dat1 (F := Ideal) V c).arrAt 3 cfg1.N = Cert.Spec.Ss (V c main_arg2) (V c main_arg11) (V c main_arg12) := by
  -- every entry lies in some point's block, and each point writes back its block of the array of angular factors
  exact (dat1 (F := Ideal) V c).arrAt_eq_of_cover 3 _ (fun t _ => flushed_eq V c t) covered

end Cert.KernelIdeal.Region1

end
-- ==== Proof.KRegion2.lean ====
import proofs.«403022_j57904749085210_1_alg».proof.Proof.Gen.KernelIdeal.Frame
import proofs.«403022_j57904749085210_1_alg».proof.Proof.Spec
import proofs.«403022_j57904749085210_1_alg».proof.Proof.LibRowOps
import Idealize.ShloMosaic.Lib.Pipeline.Value

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen
open Cert.Spec Cert.RowOps

-- The TensorCore's buffer contents when the last region is entered.
variable (V : (c : Dev nD) → (b : Ref sig .tc) → Buf (Elt Ideal) ((c : Thread nD τ).loc b))

/-! ## The body's stored value, row by row

The body's value is built from five shared pieces.  Each acts on every row of its [4096, ·] operands by itself, so
each is read on one row `p` as a function of rows: a product with a weight matrix is `vm`, a broadcast bias is
`vec`, `z · logistic z` is `silu`, and a change of float format is the identity over the extended reals. -/

/-- The last bias, broadcast along the 4096 rows: every row is the bias vector. -/
theorem row_pay5 (v79 : Vec Ideal S256 .f32) (p : Fin 4096) :
    row (k2_pay5 (F := Ideal) v79) p = vec v79 := by
  unfold k2_pay5
  exact row_bias_kernel (φ := .f32) v79 _ _ p

/-- The closing step of the last residual layer: `h + silu (u + β)`, entry by entry on the row. -/
theorem row_pay1 (v64 v78 v81 : FVec Ideal S4096x256 .f32) (p : Fin 4096) :
    row (k2_pay1 (F := Ideal) v64 v78 v81) p = fun j => row v64 p j + silu (fun j => row v78 p j + row v81 p j) j := rfl

/-- The first piece: the sum of the two branches `x_ji + silu (agg·W_up)`, one residual layer, and the affine map
    of the skip connection (before its `silu`). -/
theorem row_pay2 (v0 : Vec Ideal S4096x64 .f32) (v3 : Vec Ideal S64x256 .f32) (v8 : Vec Ideal S4096x256 .f32)
    (v12 : Vec Ideal S256x256 .f32) (v15 : Vec Ideal S256 .f32) (v22 : Vec Ideal S256x256 .f32) (v25 : Vec Ideal S256 .f32)
    (v33 : Vec Ideal S256x256 .f32) (v36 : Vec Ideal S256 .f32) (p : Fin 4096) :
    row (k2_pay2 (F := Ideal) v0 v3 v8 v12 v15 v22 v25 v33 v36) p
      = lin (res (h0Row (row v8 p) (row v0 p) v3) v12 v15 v22 v25) v33 v36 := by
  unfold k2_pay2
  simp only [row_addf, row_mulf, row_logistic, truncf_eq, row_bias_kernel (φ := .f32), shapeCast_self,
    row_matmul_zero _ (⟨rfl, rfl, rfl, rfl, rfl, rfl⟩ : PlainDot dot_S4096x256_S256x256_S4096x256_1_0_0_1_n_n),
    row_matmul_zero _ (⟨rfl, rfl, rfl, rfl, rfl, rfl⟩ : PlainDot dot_S4096x64_S64x256_S4096x256_1_0_0_1_n_n)]
  rfl

/-- The second piece: the skip connection closed (`silu` of the affine map, plus `x`) and one residual layer. -/
theorem row_pay3 (v39 : FVec Ideal S4096x256 .f32) (v42 : Vec Ideal S4096x256 .f32)
    (v45 : Vec Ideal S256x256 .f32) (v48 : Vec Ideal S256 .f32) (v55 : Vec Ideal S256x256 .f32) (v58 : Vec Ideal S256 .f32)
    (p : Fin 4096) :
    row (k2_pay3 (F := Ideal) v39 v42 v45 v48 v55 v58) p
      = res (fun j => silu (row v39 p) j + row v42 p j) v45 v48 v55 v58 := by
  unfold k2_pay3
  simp only [row_addf, row_mulf, row_logistic, truncf_eq, row_bias_kernel (φ := .f32), shapeCast_self,
    row_matmul_zero _ (⟨rfl, rfl, rfl, rfl, rfl, rfl⟩ : PlainDot dot_S4096x256_S256x256_S4096x256_1_0_0_1_n_n)]
  rfl

/-- The third piece: the last residual layer up to its second matrix product, `silu (h·W₁ + β₁)·W₂`, of the
    second piece's row `h`. -/
theorem row_pay4 (v39 : FVec Ideal S4096x256 .f32) (v42 : Vec Ideal S4096x256 .f32)
    (v45 : Vec Ideal S256x256 .f32) (v48 : Vec Ideal S256 .f32) (v55 : Vec Ideal S256x256 .f32) (v58 : Vec Ideal S256 .f32)
    (v66 : Vec Ideal S256x256 .f32) (v69 : Vec Ideal S256 .f32) (v76 : Vec Ideal S256x256 .f32) (p : Fin 4096) :
    row (k2_pay4 (F := Ideal) v39 v42 v45 v48 v55 v58 v66 v69 v76) p
      = vm (silu (lin (row (k2_pay3 (F := Ideal) v39 v42 v45 v48 v55 v58) p) v66 v69)) v76 := by
  unfold k2_pay4
  simp only [row_addf, row_mulf, row_logistic, truncf_eq, row_bias_kernel (φ := .f32), shapeCast_self,
    row_matmul_zero _ (⟨rfl, rfl, rfl, rfl, rfl, rfl⟩ : PlainDot dot_S4096x256_S256x256_S4096x256_1_0_0_1_n_n)]
  rfl

/-- Row `p` of the body's stored value, of its eighteen operands in window order, is the whole stage `hRow` of row
    `p` of the three row-blocked operands and of the fifteen weights. -/
theorem row_body (x0 : Vec Ideal S4096x256 .f32) (x1 : Vec Ideal S4096x64 .f32) (x2 : Vec Ideal S4096x256 .f32)
    (x3 : Vec Ideal S64x256 .f32) (x4 : Vec Ideal S256x256 .f32) (x5 : Vec Ideal S256 .f32) (x6 : Vec Ideal S256x256 .f32)
    (x7 : Vec Ideal S256 .f32) (x8 : Vec Ideal S256x256 .f32) (x9 : Vec Ideal S256 .f32) (x10 : Vec Ideal S256x256 .f32)
    (x11 : Vec Ideal S256 .f32) (x12 : Vec Ideal S256x256 .f32) (x13 : Vec Ideal S256 .f32) (x14 : Vec Ideal S256x256 .f32)
    (x15 : Vec Ideal S256 .f32) (x16 : Vec Ideal S256x256 .f32) (x17 : Vec Ideal S256 .f32) (p : Fin 4096) :
    row (k2_pay1 (F := Ideal) (k2_pay3 (k2_pay2 x1 x3 x0 x4 x5 x6 x7 x8 x9) x2 x10 x11 x12 x13)
        (k2_pay4 (k2_pay2 x1 x3 x0 x4 x5 x6 x7 x8 x9) x2 x10 x11 x12 x13 x14 x15 x16) (k2_pay5 x17)) p
      = hRow (row x0 p) (row x1 p) (row x2 p) x3 x4 x5 x6 x7 x8 x9 x10 x11 x12 x13 x14 x15 x16 x17 := by
  rw [row_pay1, row_pay4, row_pay3, row_pay2, row_pay5]
  rfl

/-- The whole stage on every edge, at row `e` and column `q`. -/
theorem Hh_apply (xji : Mat 131072 256) (agg : Mat 131072 64) (x : Mat 131072 256) (Wup : Mat 64 256)
    (Wb1 : Mat 256 256) (bb1 : Vc 256) (Wb2 : Mat 256 256) (bb2 : Vc 256) (Wl : Mat 256 256) (bl : Vc 256)
    (Wa1 : Mat 256 256) (ba1 : Vc 256) (Wa2 : Mat 256 256) (ba2 : Vc 256)
    (Wc1 : Mat 256 256) (bc1 : Vc 256) (Wc2 : Mat 256 256) (bc2 : Vc 256) (e : Fin 131072) (q : Fin 256) :
    Hh xji agg x Wup Wb1 bb1 Wb2 bb2 Wl bl Wa1 ba1 Wa2 ba2 Wc1 bc1 Wc2 bc2 (ix2 e q)
      = hRow (row xji e) (row agg e) (row x e) Wup Wb1 bb1 Wb2 bb2 Wl bl Wa1 ba1 Wa2 ba2 Wc1 bc1 Wc2 bc2 q := rfl

/-- An entry of the body's stored value is the whole stage's entry at edge `e`, once row `p` of each row-blocked
    operand is row `e` of its array and each weight operand is its whole array. -/
theorem body_entry (x0 : Vec Ideal S4096x256 .f32) (x1 : Vec Ideal S4096x64 .f32) (x2 : Vec Ideal S4096x256 .f32)
    (x3 : Vec Ideal S64x256 .f32) (x4 : Vec Ideal S256x256 .f32) (x5 : Vec Ideal S256 .f32) (x6 : Vec Ideal S256x256 .f32)
    (x7 : Vec Ideal S256 .f32) (x8 : Vec Ideal S256x256 .f32) (x9 : Vec Ideal S256 .f32) (x10 : Vec Ideal S256x256 .f32)
    (x11 : Vec Ideal S256 .f32) (x12 : Vec Ideal S256x256 .f32) (x13 : Vec Ideal S256 .f32) (x14 : Vec Ideal S256x256 .f32)
    (x15 : Vec Ideal S256 .f32) (x16 : Vec Ideal S256x256 .f32) (x17 : Vec Ideal S256 .f32)
    (xji : Mat 131072 256) (agg : Mat 131072 64) (x : Mat 131072 256) (Wup : Mat 64 256)
    (Wb1 : Mat 256 256) (bb1 : Vc 256) (Wb2 : Mat 256 256) (bb2 : Vc 256) (Wl : Mat 256 256) (bl : Vc 256)
    (Wa1 : Mat 256 256) (ba1 : Vc 256) (Wa2 : Mat 256 256) (ba2 : Vc 256)
    (Wc1 : Mat 256 256) (bc1 : Vc 256) (Wc2 : Mat 256 256) (bc2 : Vc 256)
    (e : Fin 131072) (p : Fin 4096) (q : Fin 256)
    (h0 : row x0 p = row xji e) (h1 : row x1 p = row agg e) (h2 : row x2 p = row x e)
    (h3 : x3 = Wup) (h4 : x4 = Wb1) (h5 : x5 = bb1) (h6 : x6 = Wb2) (h7 : x7 = bb2) (h8 : x8 = Wl) (h9 : x9 = bl)
    (h10 : x10 = Wa1) (h11 : x11 = ba1) (h12 : x12 = Wa2) (h13 : x13 = ba2)
    (h14 : x14 = Wc1) (h15 : x15 = bc1) (h16 : x16 = Wc2) (h17 : x17 = bc2) :
    row (k2_pay1 (F := Ideal) (k2_pay3 (k2_pay2 x1 x3 x0 x4 x5 x6 x7 x8 x9) x2 x10 x11 x12 x13)
        (k2_pay4 (k2_pay2 x1 x3 x0 x4 x5 x6 x7 x8 x9) x2 x10 x11 x12 x13 x14 x15 x16) (k2_pay5 x17)) p q
      = Hh xji agg x Wup Wb1 bb1 Wb2 bb2 Wl bl Wa1 ba1 Wa2 ba2 Wc1 bc1 Wc2 bc2 (ix2 e q) := by
  subst h3 h4 h5 h6 h7 h8 h9 h10 h11 h12 h13 h14 h15 h16 h17
  rw [Hh_apply, row_body, h0, h1, h2]

/-! ## The blocks at a grid point

The grid has 32 points.  The three row-blocked inputs and the output move with the point, one block of 4096 rows
per point, all columns; each weight window stays at block 0, which is its whole array. -/

/-- The zero offsets of a rank-2 whole-buffer access. -/
theorem zero_offsets2 : (![0, 0] : Fin 2 → Nat) = fun _ => 0 := funext fun a => by fin_cases a <;> rfl
/-- The zero offset of a rank-1 whole-buffer access. -/
theorem zero_offsets1 : (![0] : Fin 1 → Nat) = fun _ => 0 := funext fun a => by fin_cases a <;> rfl

/-- The row-blocked windows' block indices, decided over the 32 points: the point's number on the rows, 0 on the
    columns. -/
theorem moving_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_18.index t (0 : Fin 2) = t.val ∧ win2_18.index t (1 : Fin 2) = 0 :=
  (by decide +kernel : ∀ t : Fin grid2.N, _)

/-- The weight windows' block indices, decided over the 32 points: 0 on every axis. -/
theorem fixed_index : ∀ t : Fin cfg2.N,
    (win2_3.index t (0 : Fin 2) = 0 ∧ win2_3.index t (1 : Fin 2) = 0)
    ∧ (win2_4.index t (0 : Fin 2) = 0 ∧ win2_4.index t (1 : Fin 2) = 0) ∧ win2_5.index t (0 : Fin 1) = 0
    ∧ (win2_6.index t (0 : Fin 2) = 0 ∧ win2_6.index t (1 : Fin 2) = 0) ∧ win2_7.index t (0 : Fin 1) = 0
    ∧ (win2_8.index t (0 : Fin 2) = 0 ∧ win2_8.index t (1 : Fin 2) = 0) ∧ win2_9.index t (0 : Fin 1) = 0
    ∧ (win2_10.index t (0 : Fin 2) = 0 ∧ win2_10.index t (1 : Fin 2) = 0) ∧ win2_11.index t (0 : Fin 1) = 0
    ∧ (win2_12.index t (0 : Fin 2) = 0 ∧ win2_12.index t (1 : Fin 2) = 0) ∧ win2_13.index t (0 : Fin 1) = 0
    ∧ (win2_14.index t (0 : Fin 2) = 0 ∧ win2_14.index t (1 : Fin 2) = 0) ∧ win2_15.index t (0 : Fin 1) = 0
    ∧ (win2_16.index t (0 : Fin 2) = 0 ∧ win2_16.index t (1 : Fin 2) = 0) ∧ win2_17.index t (0 : Fin 1) = 0 :=
  (by decide +kernel : ∀ t : Fin grid2.N, _)

/-- The edge whose row is row `p` of the blocks at point `t`: `4096 · t + p`. -/
def edge (t : Fin cfg2.N) (p : Fin 4096) : Fin 131072 :=
  ⟨t.val * 4096 + p.val, by have h := t.isLt; have hN : cfg2.N = 32 := N_2; omega⟩

/-- Row `p` of the `ji` branch's block at point `t` is row `edge t p` of its array. -/
theorem row_xji_blk (c : Dev nD) (t : Fin cfg2.N) (p : Fin 4096) :
    row (iblk2 (F := Ideal) V c 0 t : Vec Ideal S4096x256 .f32) p = row (V c main_v0_0) (edge t p) := by
  obtain ⟨e0, e1, -⟩ := moving_index t
  funext k
  show V c main_v0_0 (((cfg2.win 0).blk t).view.emb (ix2 p k)) = V c main_v0_0 (ix2 (edge t p) k)
  refine congrArg _ (funext fun a => Fin.ext ?_)
  match a with
  | ⟨0, _⟩ => show win2_0.index t (0 : Fin 2) * 4096 + 1 * p.val = t.val * 4096 + p.val; omega
  | ⟨1, _⟩ => show win2_0.index t (1 : Fin 2) * 256 + 1 * k.val = k.val; omega

/-- Row `p` of the aggregate's block at point `t` is row `edge t p` of its array. -/
theorem row_agg_blk (c : Dev nD) (t : Fin cfg2.N) (p : Fin 4096) :
    row (iblk2 (F := Ideal) V c 1 t : Vec Ideal S4096x64 .f32) p = row (V c main_v12) (edge t p) := by
  obtain ⟨-, -, e0, e1, -⟩ := moving_index t
  funext k
  show V c main_v12 (((cfg2.win 1).blk t).view.emb (ix2 p k)) = V c main_v12 (ix2 (edge t p) k)
  refine congrArg _ (funext fun a => Fin.ext ?_)
  match a with
  | ⟨0, _⟩ => show win2_1.index t (0 : Fin 2) * 4096 + 1 * p.val = t.val * 4096 + p.val; omega
  | ⟨1, _⟩ => show win2_1.index t (1 : Fin 2) * 64 + 1 * k.val = k.val; omega

/-- Row `p` of `x`'s block at point `t` is row `edge t p` of `x`. -/
theorem row_x_blk (c : Dev nD) (t : Fin cfg2.N) (p : Fin 4096) :
    row (iblk2 (F := Ideal) V c 2 t : Vec Ideal S4096x256 .f32) p = row (V c main_arg0) (edge t p) := by
  obtain ⟨-, -, -, -, e0, e1, -⟩ := moving_index t
  funext k
  show V c main_arg0 (((cfg2.win 2).blk t).view.emb (ix2 p k)) = V c main_arg0 (ix2 (edge t p) k)
  refine congrArg _ (funext fun a => Fin.ext ?_)
  match a with
  | ⟨0, _⟩ => show win2_2.index t (0 : Fin 2) * 4096 + 1 * p.val = t.val * 4096 + p.val; omega
  | ⟨1, _⟩ => show win2_2.index t (1 : Fin 2) * 256 + 1 * k.val = k.val; omega

/-! Each weight window's block, at every point, is its whole array: the block index is 0 on every axis and the block
has the array's extents, so an entry of the block sits in the array at its own coordinates. -/

theorem whole_arg14 (c : Dev nD) (t : Fin cfg2.N) : (iblk2 (F := Ideal) V c 3 t : Vec Ideal S64x256 .f32) = V c main_arg14 := by
  obtain ⟨⟨e0, e1⟩, -, -, -, -, -, -, -, -, -, -, -, -, -, -⟩ := fixed_index t
  funext y
  show V c main_arg14 (((cfg2.win 3).blk t).view.emb y) = V c main_arg14 y
  refine congrArg _ (funext fun a => Fin.ext ?_)
  match a with
  | ⟨0, _⟩ => show win2_3.index t (0 : Fin 2) * 64 + 1 * (y 0).val = (y 0).val; omega
  | ⟨1, _⟩ => show win2_3.index t (1 : Fin 2) * 256 + 1 * (y 1).val = (y 1).val; omega

theorem whole_arg15 (c : Dev nD) (t : Fin cfg2.N) : (iblk2 (F := Ideal) V c 4 t : Vec Ideal S256x256 .f32) = V c main_arg15 := by
  obtain ⟨-, ⟨e0, e1⟩, -, -, -, -, -, -, -, -, -, -, -, -, -⟩ := fixed_index t
  funext y
  show V c main_arg15 (((cfg2.win 4).blk t).view.emb y) = V c main_arg15 y
  refine congrArg _ (funext fun a => Fin.ext ?_)
  match a with
  | ⟨0, _⟩ => show win2_4.index t (0 : Fin 2) * 256 + 1 * (y 0).val = (y 0).val; omega
  | ⟨1, _⟩ => show win2_4.index t (1 : Fin 2) * 256 + 1 * (y 1).val = (y 1).val; omega

theorem whole_arg16 (c : Dev nD) (t : Fin cfg2.N) : (iblk2 (F := Ideal) V c 5 t : Vec Ideal S256 .f32) = V c main_arg16 := by
  obtain ⟨-, -, e0, -, -, -, -, -, -, -, -, -, -, -, -⟩ := fixed_index t
  funext y
  show V c main_arg16 (((cfg2.win 5).blk t).view.emb y) = V c main_arg16 y
  refine congrArg _ (funext fun a => Fin.ext ?_)
  match a with
  | ⟨0, _⟩ => show win2_5.index t (0 : Fin 1) * 256 + 1 * (y 0).val = (y 0).val; omega

theorem whole_arg17 (c : Dev nD) (t : Fin cfg2.N) : (iblk2 (F := Ideal) V c 6 t : Vec Ideal S256x256 .f32) = V c main_arg17 := by
  obtain ⟨-, -, -, ⟨e0, e1⟩, -, -, -, -, -, -, -, -, -, -, -⟩ := fixed_index t
  funext y
  show V c main_arg17 (((cfg2.win 6).blk t).view.emb y) = V c main_arg17 y
  refine congrArg _ (funext fun a => Fin.ext ?_)
  match a with
  | ⟨0, _⟩ => show win2_6.index t (0 : Fin 2) * 256 + 1 * (y 0).val = (y 0).val; omega
  | ⟨1, _⟩ => show win2_6.index t (1 : Fin 2) * 256 + 1 * (y 1).val = (y 1).val; omega

theorem whole_arg18 (c : Dev nD) (t : Fin cfg2.N) : (iblk2 (F := Ideal) V c 7 t : Vec Ideal S256 .f32) = V c main_arg18 := by
  obtain ⟨-, -, -, -, e0, -, -, -, -, -, -, -, -, -, -⟩ := fixed_index t
  funext y
  show V c main_arg18 (((cfg2.win 7).blk t).view.emb y) = V c main_arg18 y
  refine congrArg _ (funext fun a => Fin.ext ?_)
  match a with
  | ⟨0, _⟩ => show win2_7.index t (0 : Fin 1) * 256 + 1 * (y 0).val = (y 0).val; omega

theorem whole_arg19 (c : Dev nD) (t : Fin cfg2.N) : (iblk2 (F := Ideal) V c 8 t : Vec Ideal S256x256 .f32) = V c main_arg19 := by
  obtain ⟨-, -, -, -, -, ⟨e0, e1⟩, -, -, -, -, -, -, -, -, -⟩ := fixed_index t
  funext y
  show V c main_arg19 (((cfg2.win 8).blk t).view.emb y) = V c main_arg19 y
  refine congrArg _ (funext fun a => Fin.ext ?_)
  match a with
  | ⟨0, _⟩ => show win2_8.index t (0 : Fin 2) * 256 + 1 * (y 0).val = (y 0).val; omega
  | ⟨1, _⟩ => show win2_8.index t (1 : Fin 2) * 256 + 1 * (y 1).val = (y 1).val; omega

theorem whole_arg20 (c : Dev nD) (t : Fin cfg2.N) : (iblk2 (F := Ideal) V c 9 t : Vec Ideal S256 .f32) = V c main_arg20 := by
  obtain ⟨-, -, -, -, -, -, e0, -, -, -, -, -, -, -, -⟩ := fixed_index t
  funext y
  show V c main_arg20 (((cfg2.win 9).blk t).view.emb y) = V c main_arg20 y
  refine congrArg _ (funext fun a => Fin.ext ?_)
  match a with
  | ⟨0, _⟩ => show win2_9.index t (0 : Fin 1) * 256 + 1 * (y 0).val = (y 0).val; omega

theorem whole_arg21 (c : Dev nD) (t : Fin cfg2.N) : (iblk2 (F := Ideal) V c 10 t : Vec Ideal S256x256 .f32) = V c main_arg21 := by
  obtain ⟨-, -, -, -, -, -, -, ⟨e0, e1⟩, -, -, -, -, -, -, -⟩ := fixed_index t
  funext y
  show V c main_arg21 (((cfg2.win 10).blk t).view.emb y) = V c main_arg21 y
  refine congrArg _ (funext fun a => Fin.ext ?_)
  match a with
  | ⟨0, _⟩ => show win2_10.index t (0 : Fin 2) * 256 + 1 * (y 0).val = (y 0).val; omega
  | ⟨1, _⟩ => show win2_10.index t (1 : Fin 2) * 256 + 1 * (y 1).val = (y 1).val; omega

theorem whole_arg22 (c : Dev nD) (t : Fin cfg2.N) : (iblk2 (F := Ideal) V c 11 t : Vec Ideal S256 .f32) = V c main_arg22 := by
  obtain ⟨-, -, -, -, -, -, -, -, e0, -, -, -, -, -, -⟩ := fixed_index t
  funext y
  show V c main_arg22 (((cfg2.win 11).blk t).view.emb y) = V c main_arg22 y
  refine congrArg _ (funext fun a => Fin.ext ?_)
  match a with
  | ⟨0, _⟩ => show win2_11.index t (0 : Fin 1) * 256 + 1 * (y 0).val = (y 0).val; omega

theorem whole_arg23 (c : Dev nD) (t : Fin cfg2.N) : (iblk2 (F := Ideal) V c 12 t : Vec Ideal S256x256 .f32) = V c main_arg23 := by
  obtain ⟨-, -, -, -, -, -, -, -, -, ⟨e0, e1⟩, -, -, -, -, -⟩ := fixed_index t
  funext y
  show V c main_arg23 (((cfg2.win 12).blk t).view.emb y) = V c main_arg23 y
  refine congrArg _ (funext fun a => Fin.ext ?_)
  match a with
  | ⟨0, _⟩ => show win2_12.index t (0 : Fin 2) * 256 + 1 * (y 0).val = (y 0).val; omega
  | ⟨1, _⟩ => show win2_12.index t (1 : Fin 2) * 256 + 1 * (y 1).val = (y 1).val; omega

theorem whole_arg24 (c : Dev nD) (t : Fin cfg2.N) : (iblk2 (F := Ideal) V c 13 t : Vec Ideal S256 .f32) = V c main_arg24 := by
  obtain ⟨-, -, -, -, -, -, -, -, -, -, e0, -, -, -, -⟩ := fixed_index t
  funext y
  show V c main_arg24 (((cfg2.win 13).blk t).view.emb y) = V c main_arg24 y
  refine congrArg _ (funext fun a => Fin.ext ?_)
  match a with
  | ⟨0, _⟩ => show win2_13.index t (0 : Fin 1) * 256 + 1 * (y 0).val = (y 0).val; omega

theorem whole_arg25 (c : Dev nD) (t : Fin cfg2.N) : (iblk2 (F := Ideal) V c 14 t : Vec Ideal S256x256 .f32) = V c main_arg25 := by
  obtain ⟨-, -, -, -, -, -, -, -, -, -, -, ⟨e0, e1⟩, -, -, -⟩ := fixed_index t
  funext y
  show V c main_arg25 (((cfg2.win 14).blk t).view.emb y) = V c main_arg25 y
  refine congrArg _ (funext fun a => Fin.ext ?_)
  match a with
  | ⟨0, _⟩ => show win2_14.index t (0 : Fin 2) * 256 + 1 * (y 0).val = (y 0).val; omega
  | ⟨1, _⟩ => show win2_14.index t (1 : Fin 2) * 256 + 1 * (y 1).val = (y 1).val; omega

theorem whole_arg26 (c : Dev nD) (t : Fin cfg2.N) : (iblk2 (F := Ideal) V c 15 t : Vec Ideal S256 .f32) = V c main_arg26 := by
  obtain ⟨-, -, -, -, -, -, -, -, -, -, -, -, e0, -, -⟩ := fixed_index t
  funext y
  show V c main_arg26 (((cfg2.win 15).blk t).view.emb y) = V c main_arg26 y
  refine congrArg _ (funext fun a => Fin.ext ?_)
  match a with
  | ⟨0, _⟩ => show win2_15.index t (0 : Fin 1) * 256 + 1 * (y 0).val = (y 0).val; omega

theorem whole_arg27 (c : Dev nD) (t : Fin cfg2.N) : (iblk2 (F := Ideal) V c 16 t : Vec Ideal S256x256 .f32) = V c main_arg27 := by
  obtain ⟨-, -, -, -, -, -, -, -, -, -, -, -, -, ⟨e0, e1⟩, -⟩ := fixed_index t
  funext y
  show V c main_arg27 (((cfg2.win 16).blk t).view.emb y) = V c main_arg27 y
  refine congrArg _ (funext fun a => Fin.ext ?_)
  match a with
  | ⟨0, _⟩ => show win2_16.index t (0 : Fin 2) * 256 + 1 * (y 0).val = (y 0).val; omega
  | ⟨1, _⟩ => show win2_16.index t (1 : Fin 2) * 256 + 1 * (y 1).val = (y 1).val; omega

theorem whole_arg28 (c : Dev nD) (t : Fin cfg2.N) : (iblk2 (F := Ideal) V c 17 t : Vec Ideal S256 .f32) = V c main_arg28 := by
  obtain ⟨-, -, -, -, -, -, -, -, -, -, -, -, -, -, e0⟩ := fixed_index t
  funext y
  show V c main_arg28 (((cfg2.win 17).blk t).view.emb y) = V c main_arg28 y
  refine congrArg _ (funext fun a => Fin.ext ?_)
  match a with
  | ⟨0, _⟩ => show win2_17.index t (0 : Fin 1) * 256 + 1 * (y 0).val = (y 0).val; omega

/-- Entry `(p, q)` of the output's block at point `t` sits in the array at row `edge t p`, column `q`. -/
theorem out_emb (t : Fin cfg2.N) (p : Fin 4096) (q : Fin 256) :
    ((cfg2.win 18).blk t).view.emb (ix2 p q) = (ix2 (edge t p) q : S131072x256.Idx) := by
  obtain ⟨-, -, -, -, -, -, e0, e1⟩ := moving_index t
  refine funext fun a => Fin.ext ?_
  match a with
  | ⟨0, _⟩ => show win2_18.index t (0 : Fin 2) * 4096 + 1 * p.val = t.val * 4096 + p.val; omega
  | ⟨1, _⟩ => show win2_18.index t (1 : Fin 2) * 256 + 1 * q.val = q.val; omega

/-- An entry of what the output window writes back at point `t` is that entry of the body's stored value (the
    output's blocks are never cut at the array's end). -/
theorem cut_row (t : Fin cfg2.N) (X : Vec Ideal S4096x256 .f32) (p : Fin 4096) (q : Fin 256) :
    (win2 18).cut (grid2.coords t) X (ix2 p q) = row X p q := rfl

/-- Entry `(p, q)` of the output's block at point `t`, read off an array, is the array's entry at row `edge t p`. -/
theorem read_out (t : Fin cfg2.N) (p : Fin 4096) (q : Fin 256) (G : Mat 131072 256) :
    ((cfg2.win 18).blk t).view.read (Elt Ideal) G (ix2 p q) = G (ix2 (edge t p) q) := by
  show G (((cfg2.win 18).blk t).view.emb (ix2 p q)) = G (ix2 (edge t p) q)
  rw [out_emb]

/-! ## From the blocks to the array -/

/-- What point `t` writes back to the output array is block `t` of the whole stage of every edge. -/
theorem writes_back_stage (c : Dev nD) (t : Fin cfg2.N) :
    (dat2 (F := Ideal) V c).flushed 18 t
      = ((cfg2.win 18).blk t).view.read (Elt Ideal) (Hh (V c main_v0_0) (V c main_v12) (V c main_arg0) (V c main_arg14)
          (V c main_arg15) (V c main_arg16) (V c main_arg17) (V c main_arg18) (V c main_arg19) (V c main_arg20)
          (V c main_arg21) (V c main_arg22) (V c main_arg23) (V c main_arg24)
          (V c main_arg25) (V c main_arg26) (V c main_arg27) (V c main_arg28)) := by
  show (cfg2.win 18).cut (grid2.coords t) ((dat2 V c).after 18 t) = _
  rw [after2_18]
  unfold out2_18
  rw [View.canon_unit_zero zero_offsets2]
  simp only [View.ld_unit_zero (S := S4096x256) zero_offsets2, View.ld_unit_zero (S := S4096x64) zero_offsets2,
    View.ld_unit_zero (S := S64x256) zero_offsets2, View.ld_unit_zero (S := S256x256) zero_offsets2,
    View.ld_unit_zero (S := S256) zero_offsets1]
  funext j
  obtain ⟨p, q, rfl⟩ : ∃ (p : Fin 4096) (q : Fin 256), j = ix2 p q := ⟨j 0, j 1, eq_ix2 j⟩
  refine (cut_row t _ p q).trans ?_
  refine (body_entry _ _ _ _ _ _ _ _ _ _ _ _ _ _ _ _ _ _ _ _ _ _ _ _ _ _ _ _ _ _ _ _ _ _ _ _ (edge t p) p q
    (row_xji_blk V c t p) (row_agg_blk V c t p) (row_x_blk V c t p) (whole_arg14 V c t) (whole_arg15 V c t)
    (whole_arg16 V c t) (whole_arg17 V c t) (whole_arg18 V c t) (whole_arg19 V c t) (whole_arg20 V c t)
    (whole_arg21 V c t) (whole_arg22 V c t) (whole_arg23 V c t) (whole_arg24 V c t) (whole_arg25 V c t)
    (whole_arg26 V c t) (whole_arg27 V c t) (whole_arg28 V c t)).trans ?_
  exact (read_out t p q _).symm

/-- An index of the output array is in point `t`'s block iff each coordinate is in the block's range on its axis. -/
theorem mem_out_blk (t : Fin cfg2.N) (i : S131072x256.Idx) :
    i ∈ ((cfg2.win 18).blk t).view.set ↔ ∀ a : Fin 2, win2_18.index t a * S4096x256.size a ≤ (i a).val
      ∧ (i a).val < win2_18.index t a * S4096x256.size a + S4096x256.size a := by
  show i ∈ ((View.whole main_v13).slice (win2_18.rect t)).set ↔ _
  rw [View.set_slice_whole, Rect.mem_set_unit]
  exact Iff.rfl

/-- Every edge's row lies in the block of the point `row / 4096`: the 32 blocks of 4096 rows fill the array. -/
theorem out_blocks_fill (i : S131072x256.Idx) :
    ∃ t : Fin cfg2.N, (cfg2.win 18).flush t = true ∧ i ∈ ((cfg2.win 18).blk t).view.set := by
  have hi0 : (i 0).val < 131072 := (i 0).isLt
  have hi1 : (i 1).val < 256 := (i 1).isLt
  have hN : cfg2.N = 32 := N_2
  obtain ⟨t, ht⟩ : ∃ t : Fin cfg2.N, t.val = (i 0).val / 4096 := ⟨⟨(i 0).val / 4096, by omega⟩, rfl⟩
  obtain ⟨-, -, -, -, -, -, e0, e1⟩ := moving_index t
  refine ⟨t, flush2_18 t, ?_⟩
  rw [mem_out_blk]
  intro a
  match a with
  | ⟨0, _⟩ =>
    show win2_18.index t (0 : Fin 2) * 4096 ≤ (i 0).val ∧ (i 0).val < win2_18.index t (0 : Fin 2) * 4096 + 4096
    omega
  | ⟨1, _⟩ =>
    show win2_18.index t (1 : Fin 2) * 256 ≤ (i 1).val ∧ (i 1).val < win2_18.index t (1 : Fin 2) * 256 + 256
    omega

/-- After the last region its output array holds the residual/skip stack of every edge, of the region's three
    row-blocked inputs (the `ji` branch, the aggregate, `x`) and its fifteen weights. -/
theorem h_array (c : Dev nD) :
    (dat2 (F := Ideal) V c).arrAt 18 cfg2.N
      = Cert.Spec.Hh (V c main_v0_0) (V c main_v12) (V c main_arg0) (V c main_arg14)
          (V c main_arg15) (V c main_arg16) (V c main_arg17) (V c main_arg18) (V c main_arg19) (V c main_arg20)
          (V c main_arg21) (V c main_arg22) (V c main_arg23) (V c main_arg24)
          (V c main_arg25) (V c main_arg26) (V c main_arg27) (V c main_arg28) := by
  exact (dat2 (F := Ideal) V c).arrAt_eq_of_cover 18 _ (fun t _ => writes_back_stage V c t) out_blocks_fill

end Cert.KernelIdeal.Region2

end
-- ==== Proof.KMid.lean ====
import proofs.«403022_j57904749085210_1_alg».proof.Proof.Gen.KernelIdeal.Launch
import proofs.«403022_j57904749085210_1_alg».proof.Proof.Spec
import proofs.«403022_j57904749085210_1_alg».proof.Proof.Aggregate
import Idealize.ShloMosaic.Lib.StableHlo.Run

noncomputable section

namespace Cert.KernelIdeal.Mid

open Cert.KernelIdeal Cert.KernelIdeal.Gen Idealize.ShloMosaic Idealize.ShloMosaic.TcCoe Idealize.SL.Sem Idealize.ShloMosaic.StableHlo
open Cert.Spec

-- any buffer contents the host stretch between the regions starts from
variable (V : Valuation τ sig (Elt Ideal))

/-- The buffers the host stretch between the regions writes. -/
abbrev midWrites : List (Ref sig .tc) :=
  [main_c, main_v2, main_v3, main_c_0, main_v4, main_v5, main_v6, main_v7, main_v8, main_v9, main_cst, main_v10, main_v11, main_v12]

/-- The host stretch leaves the aggregate in `main_v12`: the shared row-mixing stage of the first region's second output,
    the second region's output and the two index lists. -/
theorem agg_value : after (hostOps2 (F := Ideal)) V (Proc.devRef .tc main_v12)
    = Agg gather_S131072x64_S1048576x1_S1048576x64_1_0_n_n_0_1_164 scatter_S131072x64_S1048576x1_S1048576x64_1_0_0_1
        bcast_S_S1048576 bcast_S1048576_S1048576x1_0 bcast_S_S131072x64
        (V (Proc.devRef .tc main_v0_1)) (V (Proc.devRef .tc main_v1)) (V (Proc.devRef .tc main_arg3)) (V (Proc.devRef .tc main_arg4)) := by
  -- the fold over the fourteen operations, each result read at its own buffer
  after_results
  rfl

/-- A buffer the host stretch does not write keeps its contents. -/
theorem mid_keep {r : Ref sig .tc} (hr : r ∉ midWrites) :
    after (hostOps2 (F := Ideal)) V (Proc.devRef .tc r) = V (Proc.devRef .tc r) := by
  -- every operation writes one buffer, and that buffer is in the list
  refine after_of_writes_sub (W := midWrites) (hostOps2 (F := Ideal)) V ?_ hr
  simp only [hostOps2, List.Forall, nullary_writes, unary_writes, binary_writes, ternary_writes,
    Finset.singleton_subset_iff, List.mem_toFinset, List.mem_map]
  exact ⟨⟨_, by decide, rfl⟩, ⟨_, by decide, rfl⟩, ⟨_, by decide, rfl⟩, ⟨_, by decide, rfl⟩, ⟨_, by decide, rfl⟩,
    ⟨_, by decide, rfl⟩, ⟨_, by decide, rfl⟩, ⟨_, by decide, rfl⟩, ⟨_, by decide, rfl⟩, ⟨_, by decide, rfl⟩,
    ⟨_, by decide, rfl⟩, ⟨_, by decide, rfl⟩, ⟨_, by decide, rfl⟩, ⟨_, by decide, rfl⟩⟩

end Cert.KernelIdeal.Mid

end
-- ==== Proof.KValue.lean ====
/-
  What the idealized kernel's program leaves in its result array, as a function of the argument arrays.

  The program is three row-blocked regions with one stretch of host operations between the second and the third.  The
  buffer contents at each segment boundary are a fold from the launch memory (the frame's `W0` … `W4`); walking the
  fold backwards from the result array: the third region's output is the residual/skip stack of its three row-blocked
  inputs; of those, the `ji` branch is the first region's first output, the aggregate is the host stretch's result —
  the shared row-mixing stage of the first region's second output and the second region's output —, and `x` and
  every weight are argument arrays, which no segment writes.
-/
import proofs.«403022_j57904749085210_1_alg».proof.Proof.Gen.KernelIdeal.Frame
import proofs.«403022_j57904749085210_1_alg».proof.Proof.Spec
import proofs.«403022_j57904749085210_1_alg».proof.Proof.Aggregate
import proofs.«403022_j57904749085210_1_alg».proof.Proof.KRegion0
import proofs.«403022_j57904749085210_1_alg».proof.Proof.KRegion1
import proofs.«403022_j57904749085210_1_alg».proof.Proof.KRegion2
import proofs.«403022_j57904749085210_1_alg».proof.Proof.KMid

set_option maxRecDepth 16384

noncomputable section

namespace Cert.KernelIdeal.KValue

open Idealize.ShloMosaic Idealize.ShloMosaic.TcCoe Idealize.SL.Sem
open Idealize.ShloMosaic.Pipeline (Dat Cfg Window)
open Cert.KernelIdeal Cert.KernelIdeal.Gen Cert.Spec

variable (m : (ℓ : Loc nD τ sig) → Buf (Elt Ideal) ℓ) (ρ : Dev nD → PrngReg)

/-! ## The argument arrays at the inner boundaries: as launched -/

theorem W2_main_arg0 (c : Dev nD) : W2 m ρ c (Proc.devRef .tc main_arg0) = m ((c : Thread nD τ).loc main_arg0) :=
  (W2_of_ne m ρ c main_arg0 (by decide)).trans (((W1_arr m ρ c 0).trans (((dat0 (V0 m ρ) c).arrAt_in 0 rfl _).trans (A_eq0 (V0 m ρ) c 0))).trans rfl)
theorem W2_main_arg3 (c : Dev nD) : W2 m ρ c (Proc.devRef .tc main_arg3) = m ((c : Thread nD τ).loc main_arg3) :=
  (W2_of_ne m ρ c main_arg3 (by decide)).trans ((W1_of_ne m ρ c main_arg3 (by decide)).trans rfl)
theorem W2_main_arg4 (c : Dev nD) : W2 m ρ c (Proc.devRef .tc main_arg4) = m ((c : Thread nD τ).loc main_arg4) :=
  (W2_of_ne m ρ c main_arg4 (by decide)).trans ((W1_of_ne m ρ c main_arg4 (by decide)).trans rfl)
theorem W2_main_arg14 (c : Dev nD) : W2 m ρ c (Proc.devRef .tc main_arg14) = m ((c : Thread nD τ).loc main_arg14) :=
  (W2_of_ne m ρ c main_arg14 (by decide)).trans ((W1_of_ne m ρ c main_arg14 (by decide)).trans rfl)
theorem W2_main_arg15 (c : Dev nD) : W2 m ρ c (Proc.devRef .tc main_arg15) = m ((c : Thread nD τ).loc main_arg15) :=
  (W2_of_ne m ρ c main_arg15 (by decide)).trans ((W1_of_ne m ρ c main_arg15 (by decide)).trans rfl)
theorem W2_main_arg16 (c : Dev nD) : W2 m ρ c (Proc.devRef .tc main_arg16) = m ((c : Thread nD τ).loc main_arg16) :=
  (W2_of_ne m ρ c main_arg16 (by decide)).trans ((W1_of_ne m ρ c main_arg16 (by decide)).trans rfl)
theorem W2_main_arg17 (c : Dev nD) : W2 m ρ c (Proc.devRef .tc main_arg17) = m ((c : Thread nD τ).loc main_arg17) :=
  (W2_of_ne m ρ c main_arg17 (by decide)).trans ((W1_of_ne m ρ c main_arg17 (by decide)).trans rfl)
theorem W2_main_arg18 (c : Dev nD) : W2 m ρ c (Proc.devRef .tc main_arg18) = m ((c : Thread nD τ).loc main_arg18) :=
  (W2_of_ne m ρ c main_arg18 (by decide)).trans ((W1_of_ne m ρ c main_arg18 (by decide)).trans rfl)
theorem W2_main_arg19 (c : Dev nD) : W2 m ρ c (Proc.devRef .tc main_arg19) = m ((c : Thread nD τ).loc main_arg19) :=
  (W2_of_ne m ρ c main_arg19 (by decide)).trans ((W1_of_ne m ρ c main_arg19 (by decide)).trans rfl)
theorem W2_main_arg20 (c : Dev nD) : W2 m ρ c (Proc.devRef .tc main_arg20) = m ((c : Thread nD τ).loc main_arg20) :=
  (W2_of_ne m ρ c main_arg20 (by decide)).trans ((W1_of_ne m ρ c main_arg20 (by decide)).trans rfl)
theorem W2_main_arg21 (c : Dev nD) : W2 m ρ c (Proc.devRef .tc main_arg21) = m ((c : Thread nD τ).loc main_arg21) :=
  (W2_of_ne m ρ c main_arg21 (by decide)).trans ((W1_of_ne m ρ c main_arg21 (by decide)).trans rfl)
theorem W2_main_arg22 (c : Dev nD) : W2 m ρ c (Proc.devRef .tc main_arg22) = m ((c : Thread nD τ).loc main_arg22) :=
  (W2_of_ne m ρ c main_arg22 (by decide)).trans ((W1_of_ne m ρ c main_arg22 (by decide)).trans rfl)
theorem W2_main_arg23 (c : Dev nD) : W2 m ρ c (Proc.devRef .tc main_arg23) = m ((c : Thread nD τ).loc main_arg23) :=
  (W2_of_ne m ρ c main_arg23 (by decide)).trans ((W1_of_ne m ρ c main_arg23 (by decide)).trans rfl)
theorem W2_main_arg24 (c : Dev nD) : W2 m ρ c (Proc.devRef .tc main_arg24) = m ((c : Thread nD τ).loc main_arg24) :=
  (W2_of_ne m ρ c main_arg24 (by decide)).trans ((W1_of_ne m ρ c main_arg24 (by decide)).trans rfl)
theorem W2_main_arg25 (c : Dev nD) : W2 m ρ c (Proc.devRef .tc main_arg25) = m ((c : Thread nD τ).loc main_arg25) :=
  (W2_of_ne m ρ c main_arg25 (by decide)).trans ((W1_of_ne m ρ c main_arg25 (by decide)).trans rfl)
theorem W2_main_arg26 (c : Dev nD) : W2 m ρ c (Proc.devRef .tc main_arg26) = m ((c : Thread nD τ).loc main_arg26) :=
  (W2_of_ne m ρ c main_arg26 (by decide)).trans ((W1_of_ne m ρ c main_arg26 (by decide)).trans rfl)
theorem W2_main_arg27 (c : Dev nD) : W2 m ρ c (Proc.devRef .tc main_arg27) = m ((c : Thread nD τ).loc main_arg27) :=
  (W2_of_ne m ρ c main_arg27 (by decide)).trans ((W1_of_ne m ρ c main_arg27 (by decide)).trans rfl)
theorem W2_main_arg28 (c : Dev nD) : W2 m ρ c (Proc.devRef .tc main_arg28) = m ((c : Thread nD τ).loc main_arg28) :=
  (W2_of_ne m ρ c main_arg28 (by decide)).trans ((W1_of_ne m ρ c main_arg28 (by decide)).trans rfl)
theorem W1_main_arg2 (c : Dev nD) : W1 m ρ c (Proc.devRef .tc main_arg2) = m ((c : Thread nD τ).loc main_arg2) :=
  (W1_of_ne m ρ c main_arg2 (by decide)).trans rfl
theorem W1_main_arg11 (c : Dev nD) : W1 m ρ c (Proc.devRef .tc main_arg11) = m ((c : Thread nD τ).loc main_arg11) :=
  (W1_of_ne m ρ c main_arg11 (by decide)).trans rfl
theorem W1_main_arg12 (c : Dev nD) : W1 m ρ c (Proc.devRef .tc main_arg12) = m ((c : Thread nD τ).loc main_arg12) :=
  (W1_of_ne m ρ c main_arg12 (by decide)).trans rfl

/-! ## The three regions' outputs and the aggregate at the boundaries -/

/-- At the third region's entry the `ji` branch's buffer still holds the first region's first output. -/
theorem xji_at_entry2 (c : Dev nD) : V3 m ρ c main_v0_0 = Xji (m ((c : Thread nD τ).loc main_arg0)) (m ((c : Thread nD τ).loc main_arg5)) (m ((c : Thread nD τ).loc main_arg6)) :=
  (Cert.KernelIdeal.Mid.mid_keep (W2 m ρ c) (r := main_v0_0) (by decide)).trans
    ((W2_of_ne m ρ c main_v0_0 (by decide)).trans ((W1_arr m ρ c 9).trans (Cert.KernelIdeal.Region0.xji_array (V0 m ρ) c)))

/-- After the second region the first region's second output is still the down-projected `kj` branch. -/
theorem xkjd_at_exit1 (c : Dev nD) : W2 m ρ c (Proc.devRef .tc main_v0_1)
    = Xkjd (m ((c : Thread nD τ).loc main_arg0)) (m ((c : Thread nD τ).loc main_arg1)) (m ((c : Thread nD τ).loc main_arg7)) (m ((c : Thread nD τ).loc main_arg8)) (m ((c : Thread nD τ).loc main_arg9)) (m ((c : Thread nD τ).loc main_arg10)) (m ((c : Thread nD τ).loc main_arg13)) :=
  (W2_of_ne m ρ c main_v0_1 (by decide)).trans ((W1_arr m ρ c 10).trans (Cert.KernelIdeal.Region0.xkjd_array (V0 m ρ) c))

/-- After the second region its output is the angular factor of every triplet. -/
theorem s_at_exit1 (c : Dev nD) : W2 m ρ c (Proc.devRef .tc main_v1) = Ss (m ((c : Thread nD τ).loc main_arg2)) (m ((c : Thread nD τ).loc main_arg11)) (m ((c : Thread nD τ).loc main_arg12)) := by
  refine (W2_arr m ρ c 3).trans ((Cert.KernelIdeal.Region1.s_array (V1 m ρ) c).trans ?_)
  show Ss (W1 m ρ c (Proc.devRef .tc main_arg2)) (W1 m ρ c (Proc.devRef .tc main_arg11)) (W1 m ρ c (Proc.devRef .tc main_arg12)) = _
  rw [W1_main_arg2, W1_main_arg11, W1_main_arg12]

/-- At the third region's entry the aggregate's buffer holds the shared row-mixing stage of the two branches' arrays. -/
theorem agg_at_entry2 (c : Dev nD) : V3 m ρ c main_v12
    = Agg gather_S131072x64_S1048576x1_S1048576x64_1_0_n_n_0_1_164 scatter_S131072x64_S1048576x1_S1048576x64_1_0_0_1
        bcast_S_S1048576 bcast_S1048576_S1048576x1_0 bcast_S_S131072x64
        (Xkjd (m ((c : Thread nD τ).loc main_arg0)) (m ((c : Thread nD τ).loc main_arg1)) (m ((c : Thread nD τ).loc main_arg7)) (m ((c : Thread nD τ).loc main_arg8)) (m ((c : Thread nD τ).loc main_arg9)) (m ((c : Thread nD τ).loc main_arg10)) (m ((c : Thread nD τ).loc main_arg13)))
        (Ss (m ((c : Thread nD τ).loc main_arg2)) (m ((c : Thread nD τ).loc main_arg11)) (m ((c : Thread nD τ).loc main_arg12))) (m ((c : Thread nD τ).loc main_arg3)) (m ((c : Thread nD τ).loc main_arg4)) := by
  refine (Cert.KernelIdeal.Mid.agg_value (W2 m ρ c)).trans ?_
  rw [xkjd_at_exit1, s_at_exit1, W2_main_arg3, W2_main_arg4]

/-- At the third region's entry an argument array it reads is as launched. -/
theorem arg_at_entry2 (c : Dev nD) {r : Ref sig .tc} (hr : r ∉ Cert.KernelIdeal.Mid.midWrites) :
    V3 m ρ c r = W2 m ρ c (Proc.devRef .tc r) :=
  Cert.KernelIdeal.Mid.mid_keep (W2 m ρ c) hr

/-! ## The result array -/

/-- The block's result as a function of a memory's argument arrays: the residual/skip stack of the `ji` branch, the
    aggregate and `x`, each as its function of the argument arrays. -/
def result (c : Dev nD) : Mat 131072 256 :=
  Hh (Xji (m ((c : Thread nD τ).loc main_arg0)) (m ((c : Thread nD τ).loc main_arg5)) (m ((c : Thread nD τ).loc main_arg6)))
        (Agg gather_S131072x64_S1048576x1_S1048576x64_1_0_n_n_0_1_164 scatter_S131072x64_S1048576x1_S1048576x64_1_0_0_1
          bcast_S_S1048576 bcast_S1048576_S1048576x1_0 bcast_S_S131072x64
          (Xkjd (m ((c : Thread nD τ).loc main_arg0)) (m ((c : Thread nD τ).loc main_arg1)) (m ((c : Thread nD τ).loc main_arg7)) (m ((c : Thread nD τ).loc main_arg8)) (m ((c : Thread nD τ).loc main_arg9)) (m ((c : Thread nD τ).loc main_arg10)) (m ((c : Thread nD τ).loc main_arg13)))
          (Ss (m ((c : Thread nD τ).loc main_arg2)) (m ((c : Thread nD τ).loc main_arg11)) (m ((c : Thread nD τ).loc main_arg12))) (m ((c : Thread nD τ).loc main_arg3)) (m ((c : Thread nD τ).loc main_arg4)))
        (m ((c : Thread nD τ).loc main_arg0)) (m ((c : Thread nD τ).loc main_arg14))
        (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))
        (m ((c : Thread nD τ).loc main_arg21)) (m ((c : Thread nD τ).loc main_arg22)) (m ((c : Thread nD τ).loc main_arg23)) (m ((c : Thread nD τ).loc main_arg24))
        (m ((c : Thread nD τ).loc main_arg25)) (m ((c : Thread nD τ).loc main_arg26)) (m ((c : Thread nD τ).loc main_arg27)) (m ((c : Thread nD τ).loc main_arg28))

set_option maxHeartbeats 4000000 in
/-- The result array after the run is that function of the launch memory's argument arrays. -/
theorem kernel_value (c : Dev nD) : W4 m ρ c (Proc.devRef .tc main_v13) = result m c := by
  unfold result
  refine (W4_arr m ρ c 18).trans ((Cert.KernelIdeal.Region2.h_array (V3 m ρ) c).trans ?_)
  rw [xji_at_entry2, agg_at_entry2,
    arg_at_entry2 m ρ c (r := main_arg0) (by decide), W2_main_arg0,
    arg_at_entry2 m ρ c (r := main_arg14) (by decide), W2_main_arg14,
    arg_at_entry2 m ρ c (r := main_arg15) (by decide), W2_main_arg15,
    arg_at_entry2 m ρ c (r := main_arg16) (by decide), W2_main_arg16,
    arg_at_entry2 m ρ c (r := main_arg17) (by decide), W2_main_arg17,
    arg_at_entry2 m ρ c (r := main_arg18) (by decide), W2_main_arg18,
    arg_at_entry2 m ρ c (r := main_arg19) (by decide), W2_main_arg19,
    arg_at_entry2 m ρ c (r := main_arg20) (by decide), W2_main_arg20,
    arg_at_entry2 m ρ c (r := main_arg21) (by decide), W2_main_arg21,
    arg_at_entry2 m ρ c (r := main_arg22) (by decide), W2_main_arg22,
    arg_at_entry2 m ρ c (r := main_arg23) (by decide), W2_main_arg23,
    arg_at_entry2 m ρ c (r := main_arg24) (by decide), W2_main_arg24,
    arg_at_entry2 m ρ c (r := main_arg25) (by decide), W2_main_arg25,
    arg_at_entry2 m ρ c (r := main_arg26) (by decide), W2_main_arg26,
    arg_at_entry2 m ρ c (r := main_arg27) (by decide), W2_main_arg27,
    arg_at_entry2 m ρ c (r := main_arg28) (by decide), W2_main_arg28]

end Cert.KernelIdeal.KValue

end
-- ==== Proof.RKeep.lean ====
import proofs.«403022_j57904749085210_1_alg».proof.Proof.RRun
import proofs.«403022_j57904749085210_1_alg».proof.Proof.Spec

noncomputable section

namespace Cert.ReferenceIdeal.RefValue

open Cert.ReferenceIdeal Cert.ReferenceIdeal.Gen Cert.ReferenceIdeal.RunP Idealize.ShloMosaic Idealize.ShloMosaic.TcCoe Idealize.SL.Sem Idealize.ShloMosaic.StableHlo

variable {F : FTy → Type} [FloatOps F]

/-! ## What each chunk of the operation list writes, and that it leaves every other buffer alone -/

/-- The fold over two lists in a row is the fold over the second from the fold over the first. -/
theorem after_app {Val : EltTy → Type} : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

/-- Every operation of the chunk writes one buffer, and it is in the chunk's list: the chunk's operations are listed,
    each one's written set read off its builder, and the inclusions in the list's set decided. -/
local macro "keep_chunk " ops:ident w:ident : tactic =>
  `(tactic| (
    refine after_of_writes_sub (W := $w) _ _ ?_ ‹_›
    simp only [$ops:ident, List.Forall, TRef.unary, TRef.binary, TRef.nullary, TRef.of, unary_writes, binary_writes,
      nullary_writes, ternary_writes]
    decide))

/-- The buffers `opsXji` writes. -/
abbrev wXji : List (Ref sig .tc) := [main_v0, main_v1, main_v2, main_v3, main_call0_v0, main_call0_v1, main_call0_cst, main_call0_v2, main_call0_v3, main_call0_cst_0, main_call0_v4, main_call0_v5, main_v4]

/-- A buffer `opsXji` does not write keeps its contents. -/
theorem keep_Xji (V : Valuation τ sig (Elt F)) {r : Ref sig .tc} (hr : r ∉ wXji) :
    after (opsXji (F := F)) V (Proc.devRef .tc r) = V (Proc.devRef .tc r) := by
  keep_chunk opsXji wXji

/-- The buffers `opsXkjd` writes. -/
abbrev wXkjd : List (Ref sig .tc) := [main_v5, main_v6, main_v7, main_v8, main_call1_v0, main_call1_v1, main_call1_cst, main_call1_v2, main_call1_v3, main_call1_cst_0, main_call1_v4, main_call1_v5, main_v9, main_v10, main_v11, main_v12, main_v13, main_call2_v0, main_call2_v1, main_call2_cst, main_call2_v2, main_call2_v3, main_call2_cst_0, main_call2_v4, main_call2_v5, main_v14]

/-- A buffer `opsXkjd` does not write keeps its contents. -/
theorem keep_Xkjd (V : Valuation τ sig (Elt F)) {r : Ref sig .tc} (hr : r ∉ wXkjd) :
    after (opsXkjd (F := F)) V (Proc.devRef .tc r) = V (Proc.devRef .tc r) := by
  keep_chunk opsXkjd wXkjd

/-- The buffers `opsS` writes. -/
abbrev wS : List (Ref sig .tc) := [main_v15, main_v16]

/-- A buffer `opsS` does not write keeps its contents. -/
theorem keep_S (V : Valuation τ sig (Elt F)) {r : Ref sig .tc} (hr : r ∉ wS) :
    after (opsS (F := F)) V (Proc.devRef .tc r) = V (Proc.devRef .tc r) := by
  keep_chunk opsS wS

/-- The buffers `opsAgg` writes. -/
abbrev wAgg : List (Ref sig .tc) := [main_c, main_v17, main_v18, main_c_0, main_v19, main_v20, main_v21, main_v22, main_v23, main_v24, main_cst, main_v25, main_v26, main_v27]

/-- A buffer `opsAgg` does not write keeps its contents. -/
theorem keep_Agg (V : Valuation τ sig (Elt F)) {r : Ref sig .tc} (hr : r ∉ wAgg) :
    after (opsAgg (F := F)) V (Proc.devRef .tc r) = V (Proc.devRef .tc r) := by
  keep_chunk opsAgg wAgg

/-- The buffers `opsH0` writes. -/
abbrev wH0 : List (Ref sig .tc) := [main_v28, main_call3_v0, main_call3_v1, main_call3_cst, main_call3_v2, main_call3_v3, main_call3_cst_0, main_call3_v4, main_call3_v5, main_v29, main_v30]

/-- A buffer `opsH0` does not write keeps its contents. -/
theorem keep_H0 (V : Valuation τ sig (Elt F)) {r : Ref sig .tc} (hr : r ∉ wH0) :
    after (opsH0 (F := F)) V (Proc.devRef .tc r) = V (Proc.devRef .tc r) := by
  keep_chunk opsH0 wH0

/-- The buffers `opsRes1` writes. -/
abbrev wRes1 : List (Ref sig .tc) := [main_v31, main_v32, main_v33, main_v34, main_call4_v0, main_call4_v1, main_call4_cst, main_call4_v2, main_call4_v3, main_call4_cst_0, main_call4_v4, main_call4_v5, main_v35, main_v36, main_v37, main_v38, main_v39, main_call5_v0, main_call5_v1, main_call5_cst, main_call5_v2, main_call5_v3, main_call5_cst_0, main_call5_v4, main_call5_v5, main_v40, main_v41]

/-- A buffer `opsRes1` does not write keeps its contents. -/
theorem keep_Res1 (V : Valuation τ sig (Elt F)) {r : Ref sig .tc} (hr : r ∉ wRes1) :
    after (opsRes1 (F := F)) V (Proc.devRef .tc r) = V (Proc.devRef .tc r) := by
  keep_chunk opsRes1 wRes1

/-- The buffers `opsSkip` writes. -/
abbrev wSkip : List (Ref sig .tc) := [main_v42, main_v43, main_v44, main_v45, main_call6_v0, main_call6_v1, main_call6_cst, main_call6_v2, main_call6_v3, main_call6_cst_0, main_call6_v4, main_call6_v5, main_v46, main_v47]

/-- A buffer `opsSkip` does not write keeps its contents. -/
theorem keep_Skip (V : Valuation τ sig (Elt F)) {r : Ref sig .tc} (hr : r ∉ wSkip) :
    after (opsSkip (F := F)) V (Proc.devRef .tc r) = V (Proc.devRef .tc r) := by
  keep_chunk opsSkip wSkip

/-- The buffers `opsRes2` writes. -/
abbrev wRes2 : List (Ref sig .tc) := [main_v48, main_v49, main_v50, main_v51, main_call7_v0, main_call7_v1, main_call7_cst, main_call7_v2, main_call7_v3, main_call7_cst_0, main_call7_v4, main_call7_v5, main_v52, main_v53, main_v54, main_v55, main_v56, main_call8_v0, main_call8_v1, main_call8_cst, main_call8_v2, main_call8_v3, main_call8_cst_0, main_call8_v4, main_call8_v5, main_v57, main_v58]

/-- A buffer `opsRes2` does not write keeps its contents. -/
theorem keep_Res2 (V : Valuation τ sig (Elt F)) {r : Ref sig .tc} (hr : r ∉ wRes2) :
    after (opsRes2 (F := F)) V (Proc.devRef .tc r) = V (Proc.devRef .tc r) := by
  keep_chunk opsRes2 wRes2

/-- The buffers `opsRes3` writes. -/
abbrev wRes3 : List (Ref sig .tc) := [main_v59, main_v60, main_v61, main_v62, main_call9_v0, main_call9_v1, main_call9_cst, main_call9_v2, main_call9_v3, main_call9_cst_0, main_call9_v4, main_call9_v5, main_v63, main_v64, main_v65, main_v66, main_v67, main_call10_v0, main_call10_v1, main_call10_cst, main_call10_v2, main_call10_v3, main_call10_cst_0, main_call10_v4, main_call10_v5, main_v68, main_v69]

/-- A buffer `opsRes3` does not write keeps its contents. -/
theorem keep_Res3 (V : Valuation τ sig (Elt F)) {r : Ref sig .tc} (hr : r ∉ wRes3) :
    after (opsRes3 (F := F)) V (Proc.devRef .tc r) = V (Proc.devRef .tc r) := by
  keep_chunk opsRes3 wRes3

end Cert.ReferenceIdeal.RefValue

end
-- ==== Proof.RVal1.lean ====
import proofs.«403022_j57904749085210_1_alg».proof.Proof.RRun
import proofs.«403022_j57904749085210_1_alg».proof.Proof.Spec
import proofs.«403022_j57904749085210_1_alg».proof.Proof.LibRowOps
import proofs.«403022_j57904749085210_1_alg».proof.Proof.Aggregate
import Idealize.ShloMosaic.PureOps.Ideal.Laws

noncomputable section

namespace Cert.ReferenceIdeal.RefValue

open Cert.ReferenceIdeal Cert.ReferenceIdeal.Gen Cert.ReferenceIdeal.RunP Idealize.ShloMosaic Idealize.ShloMosaic.TcCoe Idealize.SL.Sem Idealize.ShloMosaic.StableHlo

open Cert.Spec Cert.RowOps Idealize.ShloMosaic.ValueIdx

/-! ## The stages of a chunk, each read on one row, over arbitrary arrays -/

/-- A rows-times-matrix contraction read on row i. -/
theorem dot_rows {n a b : Nat} (d : DotDims ⟨2, ![n, a]⟩ ⟨2, ![a, b]⟩ ⟨2, ![n, b]⟩) (hd : PlainDot d)
    (X : Mat n a) (W : Mat a b) (i : Fin n) :
    row (Host.dotGeneral (F := Ideal) (φ₁ := .f32) (φ₂ := .f32) d none X W) i = vm (row X i) W :=
  row_dotGeneral d hd none .single X W i

/-- A dense layer's affine map, the contraction plus the bias broadcast along the rows, read on row i. -/
theorem lin_rows {n a : Nat} (d : DotDims ⟨2, ![n, a]⟩ ⟨2, ![a, 256]⟩ ⟨2, ![n, 256]⟩) (hd : PlainDot d)
    (X : Mat n a) (W : Mat a 256) (β : Vc 256)
    (h1 : (⟨1, ![256]⟩ : Shape).BroadcastsInDim ⟨2, ![1, 256]⟩ ![1])
    (h2 : (⟨2, ![1, 256]⟩ : Shape).BroadcastsInDim ⟨2, ![n, 256]⟩ ![0, 1]) (i : Fin n) :
    row (addf (F := Ideal) (φ := .f32) (Host.dotGeneral (F := Ideal) (φ₁ := .f32) (φ₂ := .f32) d none X W)
      (broadcastInDim ⟨2, ![n, 256]⟩ ![0, 1] h2 (broadcastInDim (α := Ideal .f32) ⟨2, ![1, 256]⟩ ![1] h1 β))) i
      = lin (row X i) W β := by
  refine (row_addf _ _ i).trans ?_
  funext j
  show row (Host.dotGeneral (F := Ideal) (φ₁ := .f32) (φ₂ := .f32) d none X W) i j
      + row (broadcastInDim ⟨2, ![n, 256]⟩ ![0, 1] h2 (broadcastInDim (α := Ideal .f32) ⟨2, ![1, 256]⟩ ![1] h1 β)) i j
      = vm (row X i) W j + vec β j
  rw [dot_rows d hd X W i, row_bias_host (φ := .f32) β h1 h2 i]

/-- Two rank-2 arrays with the same rows are equal. -/
theorem ext_rows {n k : Nat} {A B : Mat n k} (h : ∀ i : Fin n, row A i = row B i) : A = B := by
  funext y
  obtain ⟨i, j, rfl⟩ : ∃ (i : Fin n) (j : Fin k), y = ix2 i j := ⟨y 0, y 1, eq_ix2 y⟩
  exact congrFun (h i) j

/-- x · (1 / (1 + exp (−x))) with the two ones broadcast scalars, read on row i: `silu` of the row. -/
theorem silu_rows {n k : Nat} (Z : Mat n k) (h : (⟨0, ![]⟩ : Shape).BroadcastsInDim ⟨2, ![n, k]⟩ ![]) (i : Fin n) :
    row (mulf (F := Ideal) (φ := .f32) Z (Host.divf (F := Ideal) (φ := .f32)
        (broadcastInDim ⟨2, ![n, k]⟩ ![] h (constant (F := Ideal) ⟨0, ![]⟩ .f32 0x3F800000#32))
        (addf (F := Ideal) (φ := .f32) (broadcastInDim ⟨2, ![n, k]⟩ ![] h (constant (F := Ideal) ⟨0, ![]⟩ .f32 0x3F800000#32))
          (Host.exp (F := Ideal) (φ := .f32) (Host.negf (F := Ideal) (φ := .f32) Z))))) i
      = silu (row Z i) :=
  row_silu_host Z h i

/-- An entrywise product read on row i, given what row i of each factor is. -/
theorem mul_rows {n k : Nat} (A B : Mat n k) (i : Fin n) {a b : Fin k → EReal} (ha : row A i = a) (hb : row B i = b) :
    row (mulf (F := Ideal) (φ := .f32) A B) i = fun j => a j * b j := by
  subst ha hb
  rfl

/-- Two contractions in a row, read on row i. -/
theorem dot_dot_rows {n a b c : Nat} (d1 : DotDims ⟨2, ![n, a]⟩ ⟨2, ![a, b]⟩ ⟨2, ![n, b]⟩) (hd1 : PlainDot d1)
    (d2 : DotDims ⟨2, ![n, b]⟩ ⟨2, ![b, c]⟩ ⟨2, ![n, c]⟩) (hd2 : PlainDot d2)
    (X : Mat n a) (W1 : Mat a b) (W2 : Mat b c) (i : Fin n) :
    row (Host.dotGeneral (F := Ideal) (φ₁ := .f32) (φ₂ := .f32) d2 none
      (Host.dotGeneral (F := Ideal) (φ₁ := .f32) (φ₂ := .f32) d1 none X W1) W2) i = vm (vm (row X i) W1) W2 :=
  (dot_rows d2 hd2 _ W2 i).trans (congrArg (fun v => vm v W2) (dot_rows d1 hd1 X W1 i))

/-- A dense layer through x · logistic x, read on row i. -/
theorem silu_lin_rows {n a : Nat} (d : DotDims ⟨2, ![n, a]⟩ ⟨2, ![a, 256]⟩ ⟨2, ![n, 256]⟩) (hd : PlainDot d)
    (X : Mat n a) (W : Mat a 256) (β : Vc 256)
    (h1 : (⟨1, ![256]⟩ : Shape).BroadcastsInDim ⟨2, ![1, 256]⟩ ![1])
    (h2 : (⟨2, ![1, 256]⟩ : Shape).BroadcastsInDim ⟨2, ![n, 256]⟩ ![0, 1])
    (h0 : (⟨0, ![]⟩ : Shape).BroadcastsInDim ⟨2, ![n, 256]⟩ ![])
    (Z : Mat n 256)
    (hZ : Z = addf (F := Ideal) (φ := .f32) (Host.dotGeneral (F := Ideal) (φ₁ := .f32) (φ₂ := .f32) d none X W)
      (broadcastInDim ⟨2, ![n, 256]⟩ ![0, 1] h2 (broadcastInDim (α := Ideal .f32) ⟨2, ![1, 256]⟩ ![1] h1 β)))
    (i : Fin n) :
    row (mulf (F := Ideal) (φ := .f32) Z (Host.divf (F := Ideal) (φ := .f32)
        (broadcastInDim ⟨2, ![n, 256]⟩ ![] h0 (constant (F := Ideal) ⟨0, ![]⟩ .f32 0x3F800000#32))
        (addf (F := Ideal) (φ := .f32) (broadcastInDim ⟨2, ![n, 256]⟩ ![] h0 (constant (F := Ideal) ⟨0, ![]⟩ .f32 0x3F800000#32))
          (Host.exp (F := Ideal) (φ := .f32) (Host.negf (F := Ideal) (φ := .f32) Z))))) i
      = silu (lin (row X i) W β) := by
  subst hZ
  exact (silu_rows _ h0 i).trans (congrArg silu (lin_rows d hd X W β h1 h2 i))

/-! ## The four chunks -/

-- any buffer contents the chunk starts from
variable (V : Valuation τ sig (Elt Ideal))

/-- The first chunk leaves the `ji` branch of every edge in `main_v4`. -/
theorem xji_value : after (opsXji (F := Ideal)) V (Proc.devRef .tc main_v4)
    = Xji (V (Proc.devRef .tc main_arg0)) (V (Proc.devRef .tc main_arg5)) (V (Proc.devRef .tc main_arg6)) := by
  show after (opsXji (F := Ideal)) V (Proc.devRef .tc main_v4) = _
  after_results_simp
  simp only [TRef.ofBuf, TRef.toBuf, cast_eq]
  refine ext_rows fun i => ?_
  refine (silu_lin_rows _ ⟨rfl, rfl, rfl, rfl, rfl, rfl⟩ _ _ _ bcast_S256_S1x256_1 bcast_S1x256_S131072x256_0_1
    bcast_S_S131072x256 _ rfl i).trans ?_
  rfl

/-- The second chunk leaves the down-projected `kj` branch of every edge in `main_v14`. -/
theorem xkjd_value : after (opsXkjd (F := Ideal)) V (Proc.devRef .tc main_v14)
    = Xkjd (V (Proc.devRef .tc main_arg0)) (V (Proc.devRef .tc main_arg1)) (V (Proc.devRef .tc main_arg7)) (V (Proc.devRef .tc main_arg8)) (V (Proc.devRef .tc main_arg9)) (V (Proc.devRef .tc main_arg10)) (V (Proc.devRef .tc main_arg13)) := by
  show after (opsXkjd (F := Ideal)) V (Proc.devRef .tc main_v14) = _
  after_results_simp
  simp only [TRef.ofBuf, TRef.toBuf, cast_eq]
  refine ext_rows fun i => ?_
  -- the outer x · logistic x, then the down-projection, on row i
  refine (silu_rows _ bcast_S_S131072x64 i).trans ?_
  refine (congrArg silu (dot_rows _ ⟨rfl, rfl, rfl, rfl, rfl, rfl⟩ _ _ i)).trans ?_
  -- the projected row is the entrywise product of the kj branch's row and the radial gate's row
  refine (congrArg (fun v => silu (vm v _)) (mul_rows _ _ i
    (silu_lin_rows _ ⟨rfl, rfl, rfl, rfl, rfl, rfl⟩ _ _ _ bcast_S256_S1x256_1 bcast_S1x256_S131072x256_0_1
      bcast_S_S131072x256 _ rfl i)
    (dot_dot_rows _ ⟨rfl, rfl, rfl, rfl, rfl, rfl⟩ _ ⟨rfl, rfl, rfl, rfl, rfl, rfl⟩ _ _ _ i))).trans ?_
  rfl

/-- The third chunk leaves the angular factor of every triplet in `main_v16`. -/
theorem s_value : after (opsS (F := Ideal)) V (Proc.devRef .tc main_v16)
    = Ss (V (Proc.devRef .tc main_arg2)) (V (Proc.devRef .tc main_arg11)) (V (Proc.devRef .tc main_arg12)) := by
  show after (opsS (F := Ideal)) V (Proc.devRef .tc main_v16) = _
  after_results_simp
  refine ext_rows fun i => ?_
  refine (dot_dot_rows _ ⟨rfl, rfl, rfl, rfl, rfl, rfl⟩ _ ⟨rfl, rfl, rfl, rfl, rfl, rfl⟩ _ _ _ i).trans ?_
  rfl

/-- The fourth chunk leaves the aggregate in `main_v27`: the shared row-mixing stage of what `main_v14` and `main_v16`
    hold and the two index lists. -/
theorem agg_value : after (opsAgg (F := Ideal)) V (Proc.devRef .tc main_v27)
    = Agg gather_S131072x64_S1048576x1_S1048576x64_1_0_n_n_0_1_164 scatter_S131072x64_S1048576x1_S1048576x64_1_0_0_1
        bcast_S_S1048576 bcast_S1048576_S1048576x1_0 bcast_S_S131072x64
        (V (Proc.devRef .tc main_v14)) (V (Proc.devRef .tc main_v16)) (V (Proc.devRef .tc main_arg3)) (V (Proc.devRef .tc main_arg4)) := by
  show after (opsAgg (F := Ideal)) V (Proc.devRef .tc main_v27) = _
  after_results_simp
  rfl

end Cert.ReferenceIdeal.RefValue

end
-- ==== Proof.RVal2.lean ====
import proofs.«403022_j57904749085210_1_alg».proof.Proof.RRun
import proofs.«403022_j57904749085210_1_alg».proof.Proof.Spec
import proofs.«403022_j57904749085210_1_alg».proof.Proof.LibRowOps
import Idealize.ShloMosaic.PureOps.Ideal.Laws

noncomputable section

namespace Cert.ReferenceIdeal.RefValue

open Cert.ReferenceIdeal Cert.ReferenceIdeal.Gen Cert.ReferenceIdeal.RunP Idealize.ShloMosaic Idealize.ShloMosaic.TcCoe Idealize.SL.Sem Idealize.ShloMosaic.StableHlo

open Cert.Spec Cert.RowOps Idealize.ShloMosaic.ValueIdx

/-! ## The host stages over variables -/

section Stages

variable {n k : Nat}

/-- The host expansion of `x · logistic x`: `x · (1 / (1 + exp (−x)))`, the two ones broadcast scalars. -/
def siluH (hb : (⟨0, ![]⟩ : Shape).BroadcastsInDim ⟨2, ![n, k]⟩ ![]) (X : FVec Ideal ⟨2, ![n, k]⟩ .f32) :
    FVec Ideal ⟨2, ![n, k]⟩ .f32 :=
  mulf X (Host.divf (broadcastInDim ⟨2, ![n, k]⟩ ![] hb (constant (F := Ideal) ⟨0, ![]⟩ .f32 0x3F800000#32))
    (addf (broadcastInDim ⟨2, ![n, k]⟩ ![] hb (constant (F := Ideal) ⟨0, ![]⟩ .f32 0x3F800000#32)) (Host.exp (Host.negf X))))

theorem row_siluH (hb : (⟨0, ![]⟩ : Shape).BroadcastsInDim ⟨2, ![n, k]⟩ ![]) (X : FVec Ideal ⟨2, ![n, k]⟩ .f32) (i : Fin n) :
    row (siluH hb X) i = silu (row X i) := row_silu_host X hb i

/-- A host dense layer's affine part `X·W + β` (the bias broadcast to one row and then along the rows). -/
def linH {a : Nat} (d : DotDims ⟨2, ![n, a]⟩ ⟨2, ![a, 256]⟩ ⟨2, ![n, 256]⟩)
    (h1 : (⟨1, ![256]⟩ : Shape).BroadcastsInDim ⟨2, ![1, 256]⟩ ![1])
    (h2 : (⟨2, ![1, 256]⟩ : Shape).BroadcastsInDim ⟨2, ![n, 256]⟩ ![0, 1])
    (X : FVec Ideal ⟨2, ![n, a]⟩ .f32) (W : FVec Ideal ⟨2, ![a, 256]⟩ .f32) (β : FVec Ideal ⟨1, ![256]⟩ .f32) :
    FVec Ideal ⟨2, ![n, 256]⟩ .f32 :=
  addf (Host.dotGeneral d none X W) (broadcastInDim ⟨2, ![n, 256]⟩ ![0, 1] h2 (broadcastInDim ⟨2, ![1, 256]⟩ ![1] h1 β))

theorem row_linH {a : Nat} (d : DotDims ⟨2, ![n, a]⟩ ⟨2, ![a, 256]⟩ ⟨2, ![n, 256]⟩) (hd : PlainDot d)
    (h1 : (⟨1, ![256]⟩ : Shape).BroadcastsInDim ⟨2, ![1, 256]⟩ ![1])
    (h2 : (⟨2, ![1, 256]⟩ : Shape).BroadcastsInDim ⟨2, ![n, 256]⟩ ![0, 1])
    (X : FVec Ideal ⟨2, ![n, a]⟩ .f32) (W : FVec Ideal ⟨2, ![a, 256]⟩ .f32) (β : FVec Ideal ⟨1, ![256]⟩ .f32) (i : Fin n) :
    row (linH d h1 h2 X W β) i = lin (row X i) W β := by
  unfold linH
  rw [row_addf, row_bias_host β h1 h2 i]
  funext j
  show row (FloatOps.dotGeneral d none .single X W) i j + vec β j = _
  rw [row_dotGeneral d hd none .single X W i]
  rfl

end Stages

/-! ## The layers over variables -/

section Layers

variable (hb : (⟨0, ![]⟩ : Shape).BroadcastsInDim ⟨2, ![131072, 256]⟩ ![])
  (h1 : (⟨1, ![256]⟩ : Shape).BroadcastsInDim ⟨2, ![1, 256]⟩ ![1])
  (h2 : (⟨2, ![1, 256]⟩ : Shape).BroadcastsInDim ⟨2, ![131072, 256]⟩ ![0, 1])

/-- `x_ji + silu (agg·W_up)`, array against rows. -/
theorem h0_host (d : DotDims ⟨2, ![131072, 64]⟩ ⟨2, ![64, 256]⟩ ⟨2, ![131072, 256]⟩) (hd : PlainDot d)
    (xji : FVec Ideal ⟨2, ![131072, 256]⟩ .f32) (agg : FVec Ideal ⟨2, ![131072, 64]⟩ .f32)
    (Wup : FVec Ideal ⟨2, ![64, 256]⟩ .f32) :
    addf xji (siluH hb (Host.dotGeneral d none agg Wup)) = H0 xji agg Wup := by
  funext y
  obtain ⟨i, j, rfl⟩ : ∃ (i : Fin 131072) (j : Fin 256), y = ix2 i j := ⟨y 0, y 1, eq_ix2 y⟩
  show row (addf xji (siluH hb (Host.dotGeneral d none agg Wup))) i j = row (H0 xji agg Wup) i j
  refine congrFun ?_ j
  rw [row_addf, row_siluH, row_H0]
  show (fun j => row xji i j + silu (row (FloatOps.dotGeneral d none .single agg Wup) i) j) = _
  rw [row_dotGeneral d hd none .single agg Wup i]
  rfl

/-- The host term of a residual layer `h + silu (silu (h·W₁ + β₁)·W₂ + β₂)`. -/
def resH (d : DotDims ⟨2, ![131072, 256]⟩ ⟨2, ![256, 256]⟩ ⟨2, ![131072, 256]⟩)
    (h : FVec Ideal ⟨2, ![131072, 256]⟩ .f32) (W1 : FVec Ideal ⟨2, ![256, 256]⟩ .f32) (β1 : FVec Ideal ⟨1, ![256]⟩ .f32)
    (W2 : FVec Ideal ⟨2, ![256, 256]⟩ .f32) (β2 : FVec Ideal ⟨1, ![256]⟩ .f32) : FVec Ideal ⟨2, ![131072, 256]⟩ .f32 :=
  addf h (siluH hb (linH d h1 h2 (siluH hb (linH d h1 h2 h W1 β1)) W2 β2))

/-- Row `i` of a residual layer's host term is the residual layer of row `i`. -/
theorem row_resH (d : DotDims ⟨2, ![131072, 256]⟩ ⟨2, ![256, 256]⟩ ⟨2, ![131072, 256]⟩) (hd : PlainDot d)
    (h : FVec Ideal ⟨2, ![131072, 256]⟩ .f32) (W1 : FVec Ideal ⟨2, ![256, 256]⟩ .f32) (β1 : FVec Ideal ⟨1, ![256]⟩ .f32)
    (W2 : FVec Ideal ⟨2, ![256, 256]⟩ .f32) (β2 : FVec Ideal ⟨1, ![256]⟩ .f32) (i : Fin 131072) :
    row (resH hb h1 h2 d h W1 β1 W2 β2) i = Cert.Spec.res (row h i) W1 β1 W2 β2 := by
  unfold resH
  rw [row_addf, row_siluH, row_linH d hd, row_siluH, row_linH d hd]
  rfl

theorem res_host (d : DotDims ⟨2, ![131072, 256]⟩ ⟨2, ![256, 256]⟩ ⟨2, ![131072, 256]⟩) (hd : PlainDot d)
    (h : FVec Ideal ⟨2, ![131072, 256]⟩ .f32) (W1 : FVec Ideal ⟨2, ![256, 256]⟩ .f32) (β1 : FVec Ideal ⟨1, ![256]⟩ .f32)
    (W2 : FVec Ideal ⟨2, ![256, 256]⟩ .f32) (β2 : FVec Ideal ⟨1, ![256]⟩ .f32) :
    resH hb h1 h2 d h W1 β1 W2 β2 = Res h W1 β1 W2 β2 := by
  funext y
  obtain ⟨i, j, rfl⟩ : ∃ (i : Fin 131072) (j : Fin 256), y = ix2 i j := ⟨y 0, y 1, eq_ix2 y⟩
  show row (resH hb h1 h2 d h W1 β1 W2 β2) i j = row (Res h W1 β1 W2 β2) i j
  rw [row_resH hb h1 h2 d hd, row_Res]

/-- The skip connection `silu (h·W + b) + x`, array against rows. -/
theorem skip_host (d : DotDims ⟨2, ![131072, 256]⟩ ⟨2, ![256, 256]⟩ ⟨2, ![131072, 256]⟩) (hd : PlainDot d)
    (h x : FVec Ideal ⟨2, ![131072, 256]⟩ .f32) (Wl : FVec Ideal ⟨2, ![256, 256]⟩ .f32) (bl : FVec Ideal ⟨1, ![256]⟩ .f32) :
    addf (siluH hb (linH d h1 h2 h Wl bl)) x = Skip h x Wl bl := by
  funext y
  obtain ⟨i, j, rfl⟩ : ∃ (i : Fin 131072) (j : Fin 256), y = ix2 i j := ⟨y 0, y 1, eq_ix2 y⟩
  show row (addf (siluH hb (linH d h1 h2 h Wl bl)) x) i j = row (Skip h x Wl bl) i j
  refine congrFun ?_ j
  rw [row_addf, row_siluH, row_linH d hd, row_Skip]
  rfl

end Layers

-- any buffer contents the chunk starts from
variable (V : Valuation τ sig (Elt Ideal))

/-! ## The five chunks -/

/-- The fifth chunk leaves `x_ji + silu (agg·W_up)` of every edge in `main_v30`. -/
theorem h0_value : after (opsH0 (F := Ideal)) V (Proc.devRef .tc main_v30)
    = H0 (V (Proc.devRef .tc main_v4)) (V (Proc.devRef .tc main_v27)) (V (Proc.devRef .tc main_arg14)) := by
  show after opsH0 V (Proc.devRef .tc main_v30) = _
  after_results_simp
  simp only [TRef.ofBuf, TRef.toBuf, cast_eq]
  exact h0_host bcast_S_S131072x256 dot_S131072x64_S64x256_S131072x256_1_0_0_1_n_n ⟨rfl, rfl, rfl, rfl, rfl, rfl⟩ _ _ _

/-- The sixth chunk is the residual layer before the skip. -/
theorem res1_value : after (opsRes1 (F := Ideal)) V (Proc.devRef .tc main_v41)
    = Res (V (Proc.devRef .tc main_v30)) (V (Proc.devRef .tc main_arg15)) (V (Proc.devRef .tc main_arg16)) (V (Proc.devRef .tc main_arg17)) (V (Proc.devRef .tc main_arg18)) := by
  show after opsRes1 V (Proc.devRef .tc main_v41) = _
  after_results_simp
  simp only [TRef.ofBuf, TRef.toBuf, cast_eq]
  exact res_host bcast_S_S131072x256 bcast_S256_S1x256_1 bcast_S1x256_S131072x256_0_1
    dot_S131072x256_S256x256_S131072x256_1_0_0_1_n_n ⟨rfl, rfl, rfl, rfl, rfl, rfl⟩ _ _ _ _ _

/-- The seventh chunk is the skip connection. -/
theorem skip_value : after (opsSkip (F := Ideal)) V (Proc.devRef .tc main_v47)
    = Skip (V (Proc.devRef .tc main_v41)) (V (Proc.devRef .tc main_arg0)) (V (Proc.devRef .tc main_arg19)) (V (Proc.devRef .tc main_arg20)) := by
  show after opsSkip V (Proc.devRef .tc main_v47) = _
  after_results_simp
  simp only [TRef.ofBuf, TRef.toBuf, cast_eq]
  exact skip_host bcast_S_S131072x256 bcast_S256_S1x256_1 bcast_S1x256_S131072x256_0_1
    dot_S131072x256_S256x256_S131072x256_1_0_0_1_n_n ⟨rfl, rfl, rfl, rfl, rfl, rfl⟩ _ _ _ _

/-- The eighth chunk is the first residual layer after the skip. -/
theorem res2_value : after (opsRes2 (F := Ideal)) V (Proc.devRef .tc main_v58)
    = Res (V (Proc.devRef .tc main_v47)) (V (Proc.devRef .tc main_arg21)) (V (Proc.devRef .tc main_arg22)) (V (Proc.devRef .tc main_arg23)) (V (Proc.devRef .tc main_arg24)) := by
  show after opsRes2 V (Proc.devRef .tc main_v58) = _
  after_results_simp
  simp only [TRef.ofBuf, TRef.toBuf, cast_eq]
  exact res_host bcast_S_S131072x256 bcast_S256_S1x256_1 bcast_S1x256_S131072x256_0_1
    dot_S131072x256_S256x256_S131072x256_1_0_0_1_n_n ⟨rfl, rfl, rfl, rfl, rfl, rfl⟩ _ _ _ _ _

/-- The ninth chunk is the second residual layer after the skip. -/
theorem res3_value : after (opsRes3 (F := Ideal)) V (Proc.devRef .tc main_v69)
    = Res (V (Proc.devRef .tc main_v58)) (V (Proc.devRef .tc main_arg25)) (V (Proc.devRef .tc main_arg26)) (V (Proc.devRef .tc main_arg27)) (V (Proc.devRef .tc main_arg28)) := by
  show after opsRes3 V (Proc.devRef .tc main_v69) = _
  after_results_simp
  simp only [TRef.ofBuf, TRef.toBuf, cast_eq]
  exact res_host bcast_S_S131072x256 bcast_S256_S1x256_1 bcast_S1x256_S131072x256_0_1
    dot_S131072x256_S256x256_S131072x256_1_0_0_1_n_n ⟨rfl, rfl, rfl, rfl, rfl, rfl⟩ _ _ _ _ _

end Cert.ReferenceIdeal.RefValue

end
-- ==== Proof.RCompose.lean ====
import proofs.«403022_j57904749085210_1_alg».proof.Proof.RRun
import proofs.«403022_j57904749085210_1_alg».proof.Proof.Spec
import proofs.«403022_j57904749085210_1_alg».proof.Proof.RKeep
import proofs.«403022_j57904749085210_1_alg».proof.Proof.RVal1
import proofs.«403022_j57904749085210_1_alg».proof.Proof.RVal2
import proofs.«403022_j57904749085210_1_alg».proof.Proof.Aggregate

noncomputable section

namespace Cert.ReferenceIdeal.RefValue

open Cert.ReferenceIdeal Cert.ReferenceIdeal.Gen Cert.ReferenceIdeal.RunP Idealize.ShloMosaic Idealize.ShloMosaic.TcCoe Idealize.SL.Sem Idealize.ShloMosaic.StableHlo

open Cert.Spec

-- the launch contents (or any other) the whole operation list starts from
variable (V : Valuation τ sig (Elt Ideal))

/-- The whole operation list leaves the block's result in `main_v69`: the last stage of the `ji` branch, the aggregate of
    the `kj` branch and the angular factors, and `x`, as functions of the argument arrays. -/
theorem ref_value : after (ops (F := Ideal)) V (Proc.devRef .tc main_v69)
    = Hh (Xji (V (Proc.devRef .tc main_arg0)) (V (Proc.devRef .tc main_arg5)) (V (Proc.devRef .tc main_arg6)))
        (Agg gather_S131072x64_S1048576x1_S1048576x64_1_0_n_n_0_1_164 scatter_S131072x64_S1048576x1_S1048576x64_1_0_0_1
          bcast_S_S1048576 bcast_S1048576_S1048576x1_0 bcast_S_S131072x64
          (Xkjd (V (Proc.devRef .tc main_arg0)) (V (Proc.devRef .tc main_arg1)) (V (Proc.devRef .tc main_arg7)) (V (Proc.devRef .tc main_arg8)) (V (Proc.devRef .tc main_arg9)) (V (Proc.devRef .tc main_arg10)) (V (Proc.devRef .tc main_arg13)))
          (Ss (V (Proc.devRef .tc main_arg2)) (V (Proc.devRef .tc main_arg11)) (V (Proc.devRef .tc main_arg12))) (V (Proc.devRef .tc main_arg3)) (V (Proc.devRef .tc main_arg4)))
        (V (Proc.devRef .tc main_arg0)) (V (Proc.devRef .tc main_arg14))
        (V (Proc.devRef .tc main_arg15)) (V (Proc.devRef .tc main_arg16)) (V (Proc.devRef .tc main_arg17)) (V (Proc.devRef .tc main_arg18)) (V (Proc.devRef .tc main_arg19)) (V (Proc.devRef .tc main_arg20))
        (V (Proc.devRef .tc main_arg21)) (V (Proc.devRef .tc main_arg22)) (V (Proc.devRef .tc main_arg23)) (V (Proc.devRef .tc main_arg24))
        (V (Proc.devRef .tc main_arg25)) (V (Proc.devRef .tc main_arg26)) (V (Proc.devRef .tc main_arg27)) (V (Proc.devRef .tc main_arg28)) := by
  -- the last stage layer by layer, the operation list as its nine chunks, the fold chunk after chunk
  rw [Hh_eq, ops_split]
  simp only [after_app]
  -- per chunk: the value it leaves in its result buffer, and that it keeps every buffer outside its written list;
  -- the chunk's list is then a variable, so nothing below looks inside a chunk
  have hv1 := xji_value
  have hk1 : ∀ (W : Valuation τ sig (Elt Ideal)) (r : Ref sig .tc), r ∉ wXji →
      after (opsXji (F := Ideal)) W (Proc.devRef .tc r) = W (Proc.devRef .tc r) := fun W r h => keep_Xji W h
  generalize (opsXji (F := Ideal)) = l1 at hv1 hk1 ⊢
  have hv2 := xkjd_value
  have hk2 : ∀ (W : Valuation τ sig (Elt Ideal)) (r : Ref sig .tc), r ∉ wXkjd →
      after (opsXkjd (F := Ideal)) W (Proc.devRef .tc r) = W (Proc.devRef .tc r) := fun W r h => keep_Xkjd W h
  generalize (opsXkjd (F := Ideal)) = l2 at hv2 hk2 ⊢
  have hv3 := s_value
  have hk3 : ∀ (W : Valuation τ sig (Elt Ideal)) (r : Ref sig .tc), r ∉ wS →
      after (opsS (F := Ideal)) W (Proc.devRef .tc r) = W (Proc.devRef .tc r) := fun W r h => keep_S W h
  generalize (opsS (F := Ideal)) = l3 at hv3 hk3 ⊢
  have hv4 := agg_value
  have hk4 : ∀ (W : Valuation τ sig (Elt Ideal)) (r : Ref sig .tc), r ∉ wAgg →
      after (opsAgg (F := Ideal)) W (Proc.devRef .tc r) = W (Proc.devRef .tc r) := fun W r h => keep_Agg W h
  generalize (opsAgg (F := Ideal)) = l4 at hv4 hk4 ⊢
  have hv5 := h0_value
  have hk5 : ∀ (W : Valuation τ sig (Elt Ideal)) (r : Ref sig .tc), r ∉ wH0 →
      after (opsH0 (F := Ideal)) W (Proc.devRef .tc r) = W (Proc.devRef .tc r) := fun W r h => keep_H0 W h
  generalize (opsH0 (F := Ideal)) = l5 at hv5 hk5 ⊢
  have hv6 := res1_value
  have hk6 : ∀ (W : Valuation τ sig (Elt Ideal)) (r : Ref sig .tc), r ∉ wRes1 →
      after (opsRes1 (F := Ideal)) W (Proc.devRef .tc r) = W (Proc.devRef .tc r) := fun W r h => keep_Res1 W h
  generalize (opsRes1 (F := Ideal)) = l6 at hv6 hk6 ⊢
  have hv7 := skip_value
  have hk7 : ∀ (W : Valuation τ sig (Elt Ideal)) (r : Ref sig .tc), r ∉ wSkip →
      after (opsSkip (F := Ideal)) W (Proc.devRef .tc r) = W (Proc.devRef .tc r) := fun W r h => keep_Skip W h
  generalize (opsSkip (F := Ideal)) = l7 at hv7 hk7 ⊢
  have hv8 := res2_value
  have hk8 : ∀ (W : Valuation τ sig (Elt Ideal)) (r : Ref sig .tc), r ∉ wRes2 →
      after (opsRes2 (F := Ideal)) W (Proc.devRef .tc r) = W (Proc.devRef .tc r) := fun W r h => keep_Res2 W h
  generalize (opsRes2 (F := Ideal)) = l8 at hv8 hk8 ⊢
  have hv9 := res3_value
  have hk9 : ∀ (W : Valuation τ sig (Elt Ideal)) (r : Ref sig .tc), r ∉ wRes3 →
      after (opsRes3 (F := Ideal)) W (Proc.devRef .tc r) = W (Proc.devRef .tc r) := fun W r h => keep_Res3 W h
  generalize (opsRes3 (F := Ideal)) = l9 at hv9 hk9 ⊢
  -- from the last chunk backwards: a chunk's result buffer is its value at the contents before it, any other buffer
  -- read there is not in the chunk's written list (decided) and is read before the chunk instead
  simp (disch := decide) only [hv9, hv8, hv7, hv6, hv5, hv4, hv3, hv2, hv1, hk9, hk8, hk7, hk6, hk5, hk4, hk3, hk2, hk1]

/-- No operation writes an argument array. -/
theorem ref_keep {r : Ref sig .tc} (hr : r ∈ [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28]) :
    after (ops (F := Ideal)) V (Proc.devRef .tc r) = V (Proc.devRef .tc r) := by
  -- an argument array is in no chunk's written list (each decided over the 29 arguments at once)
  have h1 : r ∉ wXji := by revert r; decide
  have h2 : r ∉ wXkjd := by revert r; decide
  have h3 : r ∉ wS := by revert r; decide
  have h4 : r ∉ wAgg := by revert r; decide
  have h5 : r ∉ wH0 := by revert r; decide
  have h6 : r ∉ wRes1 := by revert r; decide
  have h7 : r ∉ wSkip := by revert r; decide
  have h8 : r ∉ wRes2 := by revert r; decide
  have h9 : r ∉ wRes3 := by revert r; decide
  rw [ops_split]
  simp only [after_app]
  rw [keep_Res3 _ h9, keep_Res2 _ h8, keep_Skip _ h7, keep_Res1 _ h6, keep_H0 _ h5, keep_Agg _ h4, keep_S _ h3,
    keep_Xkjd _ h2, keep_Xji _ h1]

end Cert.ReferenceIdeal.RefValue

end
-- ==== Proof.lean ====
/-
  The certificate of the message-passing block: a Pallas program of three row-blocked regions (the edge-wise
  transform, the triplet transform, the residual/skip stack) around one irregular gather / scatter-add on the host,
  against the plain jnp reference.

  At the ideal instance both programs compute, for every edge, the same function of the argument arrays.  Every dense
  stage acts row by row — a row times a weight matrix (a `tpu.matmul` into a zero accumulator and the host's
  `dot_general` are the same finite sum; the kernel's change of float format around it is the identity), plus a bias
  row, through x · logistic x (the kernel's logistic and jax's 1 / (1 + exp (−x)) are one function of an extended
  real) — so tiling the rows into blocks of 4096 (or 32768) changes nothing.  The one stage that mixes rows is spelt by
  the same fourteen host operations in both programs and is carried as one opaque function.  No algebraic law beyond
  these identities is used, so the precondition (finite inputs) is never opened.

  The three frames: the word-level and the idealized kernel by the generated frame certificate; the reference by
  its run with the results dropped.  The idealization rewrote nothing, so `preserves` holds trivially.
-/
import proofs.«403022_j57904749085210_1_alg».proof.Defs
import proofs.«403022_j57904749085210_1_alg».proof.Proof.Gen.Kernel
import proofs.«403022_j57904749085210_1_alg».proof.Proof.Gen.Kernel.Skeleton
import proofs.«403022_j57904749085210_1_alg».proof.Proof.Gen.Kernel.Launch
import proofs.«403022_j57904749085210_1_alg».proof.Proof.Gen.Kernel.Points
import proofs.«403022_j57904749085210_1_alg».proof.Proof.Gen.Kernel.Frame
import proofs.«403022_j57904749085210_1_alg».proof.Proof.Gen.KernelIdeal
import proofs.«403022_j57904749085210_1_alg».proof.Proof.Gen.KernelIdeal.Skeleton
import proofs.«403022_j57904749085210_1_alg».proof.Proof.Gen.KernelIdeal.Launch
import proofs.«403022_j57904749085210_1_alg».proof.Proof.Gen.KernelIdeal.Points
import proofs.«403022_j57904749085210_1_alg».proof.Proof.Gen.KernelIdeal.Frame
import proofs.«403022_j57904749085210_1_alg».proof.Proof.Gen.ReferenceIdeal
import proofs.«403022_j57904749085210_1_alg».proof.Proof.Gen.Pre_finite_inputs
import proofs.«403022_j57904749085210_1_alg».proof.Proof.KRun
import proofs.«403022_j57904749085210_1_alg».proof.Proof.KValue
import proofs.«403022_j57904749085210_1_alg».proof.Proof.RRun
import proofs.«403022_j57904749085210_1_alg».proof.Proof.RCompose
import Idealize.ShloMosaic.Adequacy
import Idealize.ShloMosaic.Init

noncomputable section

namespace Cert.Proof

open Idealize.ShloMosaic Idealize.SL.Sem

/-- The word-level kernel runs and leaves its arguments alone: the generated frame certificate. -/
theorem frame_k : Cert.frame_Kernel := fun m ρ _ => Cert.Kernel.Gen.frame m ρ

/-- The idealized kernel runs and leaves its arguments alone: the generated frame certificate. -/
theorem frame_ki : Cert.frame_KernelIdeal := fun m ρ _ => Cert.KernelIdeal.Gen.frame m ρ

/-- The reference runs and leaves its arguments alone: its run ends every buffer at the fold of its operations from
    the launch contents, and no operation writes an argument array. -/
theorem frame_ri : Cert.frame_ReferenceIdeal := fun m ρ _ =>
  (θ_run Cert.ReferenceIdeal.defs _ _).mono (fun r h c =>
    ⟨(h c Cert.ReferenceIdeal.main_arg0).trans (Cert.ReferenceIdeal.RefValue.ref_keep (Idealize.ShloMosaic.StableHlo.launchContents m c) (r := Cert.ReferenceIdeal.main_arg0) (by simp)),
     (h c Cert.ReferenceIdeal.main_arg1).trans (Cert.ReferenceIdeal.RefValue.ref_keep (Idealize.ShloMosaic.StableHlo.launchContents m c) (r := Cert.ReferenceIdeal.main_arg1) (by simp)),
     (h c Cert.ReferenceIdeal.main_arg2).trans (Cert.ReferenceIdeal.RefValue.ref_keep (Idealize.ShloMosaic.StableHlo.launchContents m c) (r := Cert.ReferenceIdeal.main_arg2) (by simp)),
     (h c Cert.ReferenceIdeal.main_arg3).trans (Cert.ReferenceIdeal.RefValue.ref_keep (Idealize.ShloMosaic.StableHlo.launchContents m c) (r := Cert.ReferenceIdeal.main_arg3) (by simp)),
     (h c Cert.ReferenceIdeal.main_arg4).trans (Cert.ReferenceIdeal.RefValue.ref_keep (Idealize.ShloMosaic.StableHlo.launchContents m c) (r := Cert.ReferenceIdeal.main_arg4) (by simp)),
     (h c Cert.ReferenceIdeal.main_arg5).trans (Cert.ReferenceIdeal.RefValue.ref_keep (Idealize.ShloMosaic.StableHlo.launchContents m c) (r := Cert.ReferenceIdeal.main_arg5) (by simp)),
     (h c Cert.ReferenceIdeal.main_arg6).trans (Cert.ReferenceIdeal.RefValue.ref_keep (Idealize.ShloMosaic.StableHlo.launchContents m c) (r := Cert.ReferenceIdeal.main_arg6) (by simp)),
     (h c Cert.ReferenceIdeal.main_arg7).trans (Cert.ReferenceIdeal.RefValue.ref_keep (Idealize.ShloMosaic.StableHlo.launchContents m c) (r := Cert.ReferenceIdeal.main_arg7) (by simp)),
     (h c Cert.ReferenceIdeal.main_arg8).trans (Cert.ReferenceIdeal.RefValue.ref_keep (Idealize.ShloMosaic.StableHlo.launchContents m c) (r := Cert.ReferenceIdeal.main_arg8) (by simp)),
     (h c Cert.ReferenceIdeal.main_arg9).trans (Cert.ReferenceIdeal.RefValue.ref_keep (Idealize.ShloMosaic.StableHlo.launchContents m c) (r := Cert.ReferenceIdeal.main_arg9) (by simp)),
     (h c Cert.ReferenceIdeal.main_arg10).trans (Cert.ReferenceIdeal.RefValue.ref_keep (Idealize.ShloMosaic.StableHlo.launchContents m c) (r := Cert.ReferenceIdeal.main_arg10) (by simp)),
     (h c Cert.ReferenceIdeal.main_arg11).trans (Cert.ReferenceIdeal.RefValue.ref_keep (Idealize.ShloMosaic.StableHlo.launchContents m c) (r := Cert.ReferenceIdeal.main_arg11) (by simp)),
     (h c Cert.ReferenceIdeal.main_arg12).trans (Cert.ReferenceIdeal.RefValue.ref_keep (Idealize.ShloMosaic.StableHlo.launchContents m c) (r := Cert.ReferenceIdeal.main_arg12) (by simp)),
     (h c Cert.ReferenceIdeal.main_arg13).trans (Cert.ReferenceIdeal.RefValue.ref_keep (Idealize.ShloMosaic.StableHlo.launchContents m c) (r := Cert.ReferenceIdeal.main_arg13) (by simp)),
     (h c Cert.ReferenceIdeal.main_arg14).trans (Cert.ReferenceIdeal.RefValue.ref_keep (Idealize.ShloMosaic.StableHlo.launchContents m c) (r := Cert.ReferenceIdeal.main_arg14) (by simp)),
     (h c Cert.ReferenceIdeal.main_arg15).trans (Cert.ReferenceIdeal.RefValue.ref_keep (Idealize.ShloMosaic.StableHlo.launchContents m c) (r := Cert.ReferenceIdeal.main_arg15) (by simp)),
     (h c Cert.ReferenceIdeal.main_arg16).trans (Cert.ReferenceIdeal.RefValue.ref_keep (Idealize.ShloMosaic.StableHlo.launchContents m c) (r := Cert.ReferenceIdeal.main_arg16) (by simp)),
     (h c Cert.ReferenceIdeal.main_arg17).trans (Cert.ReferenceIdeal.RefValue.ref_keep (Idealize.ShloMosaic.StableHlo.launchContents m c) (r := Cert.ReferenceIdeal.main_arg17) (by simp)),
     (h c Cert.ReferenceIdeal.main_arg18).trans (Cert.ReferenceIdeal.RefValue.ref_keep (Idealize.ShloMosaic.StableHlo.launchContents m c) (r := Cert.ReferenceIdeal.main_arg18) (by simp)),
     (h c Cert.ReferenceIdeal.main_arg19).trans (Cert.ReferenceIdeal.RefValue.ref_keep (Idealize.ShloMosaic.StableHlo.launchContents m c) (r := Cert.ReferenceIdeal.main_arg19) (by simp)),
     (h c Cert.ReferenceIdeal.main_arg20).trans (Cert.ReferenceIdeal.RefValue.ref_keep (Idealize.ShloMosaic.StableHlo.launchContents m c) (r := Cert.ReferenceIdeal.main_arg20) (by simp)),
     (h c Cert.ReferenceIdeal.main_arg21).trans (Cert.ReferenceIdeal.RefValue.ref_keep (Idealize.ShloMosaic.StableHlo.launchContents m c) (r := Cert.ReferenceIdeal.main_arg21) (by simp)),
     (h c Cert.ReferenceIdeal.main_arg22).trans (Cert.ReferenceIdeal.RefValue.ref_keep (Idealize.ShloMosaic.StableHlo.launchContents m c) (r := Cert.ReferenceIdeal.main_arg22) (by simp)),
     (h c Cert.ReferenceIdeal.main_arg23).trans (Cert.ReferenceIdeal.RefValue.ref_keep (Idealize.ShloMosaic.StableHlo.launchContents m c) (r := Cert.ReferenceIdeal.main_arg23) (by simp)),
     (h c Cert.ReferenceIdeal.main_arg24).trans (Cert.ReferenceIdeal.RefValue.ref_keep (Idealize.ShloMosaic.StableHlo.launchContents m c) (r := Cert.ReferenceIdeal.main_arg24) (by simp)),
     (h c Cert.ReferenceIdeal.main_arg25).trans (Cert.ReferenceIdeal.RefValue.ref_keep (Idealize.ShloMosaic.StableHlo.launchContents m c) (r := Cert.ReferenceIdeal.main_arg25) (by simp)),
     (h c Cert.ReferenceIdeal.main_arg26).trans (Cert.ReferenceIdeal.RefValue.ref_keep (Idealize.ShloMosaic.StableHlo.launchContents m c) (r := Cert.ReferenceIdeal.main_arg26) (by simp)),
     (h c Cert.ReferenceIdeal.main_arg27).trans (Cert.ReferenceIdeal.RefValue.ref_keep (Idealize.ShloMosaic.StableHlo.launchContents m c) (r := Cert.ReferenceIdeal.main_arg27) (by simp)),
     (h c Cert.ReferenceIdeal.main_arg28).trans (Cert.ReferenceIdeal.RefValue.ref_keep (Idealize.ShloMosaic.StableHlo.launchContents m c) (r := Cert.ReferenceIdeal.main_arg28) (by simp))⟩)
    (Cert.ReferenceIdeal.RunP.run (F := Ideal) m ρ)

/-- The reference's result is the same function of its argument arrays as the kernel's of its own, when the two
    memories agree on the arguments: the two programs' dimension records and broadcast evidence for the row-mixing
    stage are the same literals. -/
theorem ref_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (e0 : Idealize.ShloMosaic.StableHlo.launchContents m' c (Proc.devRef .tc Cert.ReferenceIdeal.main_arg0) = m ((c.tc : Thread Cert.KernelIdeal.nD Cert.KernelIdeal.τ).loc Cert.KernelIdeal.main_arg0))
    (e1 : Idealize.ShloMosaic.StableHlo.launchContents m' c (Proc.devRef .tc Cert.ReferenceIdeal.main_arg1) = m ((c.tc : Thread Cert.KernelIdeal.nD Cert.KernelIdeal.τ).loc Cert.KernelIdeal.main_arg1))
    (e2 : Idealize.ShloMosaic.StableHlo.launchContents m' c (Proc.devRef .tc Cert.ReferenceIdeal.main_arg2) = m ((c.tc : Thread Cert.KernelIdeal.nD Cert.KernelIdeal.τ).loc Cert.KernelIdeal.main_arg2))
    (e3 : Idealize.ShloMosaic.StableHlo.launchContents m' c (Proc.devRef .tc Cert.ReferenceIdeal.main_arg3) = m ((c.tc : Thread Cert.KernelIdeal.nD Cert.KernelIdeal.τ).loc Cert.KernelIdeal.main_arg3))
    (e4 : Idealize.ShloMosaic.StableHlo.launchContents m' c (Proc.devRef .tc Cert.ReferenceIdeal.main_arg4) = m ((c.tc : Thread Cert.KernelIdeal.nD Cert.KernelIdeal.τ).loc Cert.KernelIdeal.main_arg4))
    (e5 : Idealize.ShloMosaic.StableHlo.launchContents m' c (Proc.devRef .tc Cert.ReferenceIdeal.main_arg5) = m ((c.tc : Thread Cert.KernelIdeal.nD Cert.KernelIdeal.τ).loc Cert.KernelIdeal.main_arg5))
    (e6 : Idealize.ShloMosaic.StableHlo.launchContents m' c (Proc.devRef .tc Cert.ReferenceIdeal.main_arg6) = m ((c.tc : Thread Cert.KernelIdeal.nD Cert.KernelIdeal.τ).loc Cert.KernelIdeal.main_arg6))
    (e7 : Idealize.ShloMosaic.StableHlo.launchContents m' c (Proc.devRef .tc Cert.ReferenceIdeal.main_arg7) = m ((c.tc : Thread Cert.KernelIdeal.nD Cert.KernelIdeal.τ).loc Cert.KernelIdeal.main_arg7))
    (e8 : Idealize.ShloMosaic.StableHlo.launchContents m' c (Proc.devRef .tc Cert.ReferenceIdeal.main_arg8) = m ((c.tc : Thread Cert.KernelIdeal.nD Cert.KernelIdeal.τ).loc Cert.KernelIdeal.main_arg8))
    (e9 : Idealize.ShloMosaic.StableHlo.launchContents m' c (Proc.devRef .tc Cert.ReferenceIdeal.main_arg9) = m ((c.tc : Thread Cert.KernelIdeal.nD Cert.KernelIdeal.τ).loc Cert.KernelIdeal.main_arg9))
    (e10 : Idealize.ShloMosaic.StableHlo.launchContents m' c (Proc.devRef .tc Cert.ReferenceIdeal.main_arg10) = m ((c.tc : Thread Cert.KernelIdeal.nD Cert.KernelIdeal.τ).loc Cert.KernelIdeal.main_arg10))
    (e11 : Idealize.ShloMosaic.StableHlo.launchContents m' c (Proc.devRef .tc Cert.ReferenceIdeal.main_arg11) = m ((c.tc : Thread Cert.KernelIdeal.nD Cert.KernelIdeal.τ).loc Cert.KernelIdeal.main_arg11))
    (e12 : Idealize.ShloMosaic.StableHlo.launchContents m' c (Proc.devRef .tc Cert.ReferenceIdeal.main_arg12) = m ((c.tc : Thread Cert.KernelIdeal.nD Cert.KernelIdeal.τ).loc Cert.KernelIdeal.main_arg12))
    (e13 : Idealize.ShloMosaic.StableHlo.launchContents m' c (Proc.devRef .tc Cert.ReferenceIdeal.main_arg13) = m ((c.tc : Thread Cert.KernelIdeal.nD Cert.KernelIdeal.τ).loc Cert.KernelIdeal.main_arg13))
    (e14 : Idealize.ShloMosaic.StableHlo.launchContents m' c (Proc.devRef .tc Cert.ReferenceIdeal.main_arg14) = m ((c.tc : Thread Cert.KernelIdeal.nD Cert.KernelIdeal.τ).loc Cert.KernelIdeal.main_arg14))
    (e15 : Idealize.ShloMosaic.StableHlo.launchContents m' c (Proc.devRef .tc Cert.ReferenceIdeal.main_arg15) = m ((c.tc : Thread Cert.KernelIdeal.nD Cert.KernelIdeal.τ).loc Cert.KernelIdeal.main_arg15))
    (e16 : Idealize.ShloMosaic.StableHlo.launchContents m' c (Proc.devRef .tc Cert.ReferenceIdeal.main_arg16) = m ((c.tc : Thread Cert.KernelIdeal.nD Cert.KernelIdeal.τ).loc Cert.KernelIdeal.main_arg16))
    (e17 : Idealize.ShloMosaic.StableHlo.launchContents m' c (Proc.devRef .tc Cert.ReferenceIdeal.main_arg17) = m ((c.tc : Thread Cert.KernelIdeal.nD Cert.KernelIdeal.τ).loc Cert.KernelIdeal.main_arg17))
    (e18 : Idealize.ShloMosaic.StableHlo.launchContents m' c (Proc.devRef .tc Cert.ReferenceIdeal.main_arg18) = m ((c.tc : Thread Cert.KernelIdeal.nD Cert.KernelIdeal.τ).loc Cert.KernelIdeal.main_arg18))
    (e19 : Idealize.ShloMosaic.StableHlo.launchContents m' c (Proc.devRef .tc Cert.ReferenceIdeal.main_arg19) = m ((c.tc : Thread Cert.KernelIdeal.nD Cert.KernelIdeal.τ).loc Cert.KernelIdeal.main_arg19))
    (e20 : Idealize.ShloMosaic.StableHlo.launchContents m' c (Proc.devRef .tc Cert.ReferenceIdeal.main_arg20) = m ((c.tc : Thread Cert.KernelIdeal.nD Cert.KernelIdeal.τ).loc Cert.KernelIdeal.main_arg20))
    (e21 : Idealize.ShloMosaic.StableHlo.launchContents m' c (Proc.devRef .tc Cert.ReferenceIdeal.main_arg21) = m ((c.tc : Thread Cert.KernelIdeal.nD Cert.KernelIdeal.τ).loc Cert.KernelIdeal.main_arg21))
    (e22 : Idealize.ShloMosaic.StableHlo.launchContents m' c (Proc.devRef .tc Cert.ReferenceIdeal.main_arg22) = m ((c.tc : Thread Cert.KernelIdeal.nD Cert.KernelIdeal.τ).loc Cert.KernelIdeal.main_arg22))
    (e23 : Idealize.ShloMosaic.StableHlo.launchContents m' c (Proc.devRef .tc Cert.ReferenceIdeal.main_arg23) = m ((c.tc : Thread Cert.KernelIdeal.nD Cert.KernelIdeal.τ).loc Cert.KernelIdeal.main_arg23))
    (e24 : Idealize.ShloMosaic.StableHlo.launchContents m' c (Proc.devRef .tc Cert.ReferenceIdeal.main_arg24) = m ((c.tc : Thread Cert.KernelIdeal.nD Cert.KernelIdeal.τ).loc Cert.KernelIdeal.main_arg24))
    (e25 : Idealize.ShloMosaic.StableHlo.launchContents m' c (Proc.devRef .tc Cert.ReferenceIdeal.main_arg25) = m ((c.tc : Thread Cert.KernelIdeal.nD Cert.KernelIdeal.τ).loc Cert.KernelIdeal.main_arg25))
    (e26 : Idealize.ShloMosaic.StableHlo.launchContents m' c (Proc.devRef .tc Cert.ReferenceIdeal.main_arg26) = m ((c.tc : Thread Cert.KernelIdeal.nD Cert.KernelIdeal.τ).loc Cert.KernelIdeal.main_arg26))
    (e27 : Idealize.ShloMosaic.StableHlo.launchContents m' c (Proc.devRef .tc Cert.ReferenceIdeal.main_arg27) = m ((c.tc : Thread Cert.KernelIdeal.nD Cert.KernelIdeal.τ).loc Cert.KernelIdeal.main_arg27))
    (e28 : Idealize.ShloMosaic.StableHlo.launchContents m' c (Proc.devRef .tc Cert.ReferenceIdeal.main_arg28) = m ((c.tc : Thread Cert.KernelIdeal.nD Cert.KernelIdeal.τ).loc Cert.KernelIdeal.main_arg28)) :
    Idealize.ShloMosaic.StableHlo.after (Cert.ReferenceIdeal.RunP.ops (F := Ideal)) (Idealize.ShloMosaic.StableHlo.launchContents m' c) (Proc.devRef .tc Cert.ReferenceIdeal.main_v69)
      = Cert.KernelIdeal.KValue.result m c := by
  rw [Cert.ReferenceIdeal.RefValue.ref_value, e0, e1, e2, e3, e4, e5, e6, e7, e8, e9, e10, e11, e12, e13, e14, e15, e16, e17, e18, e19, e20, e21, e22, e23, e24, e25, e26, e27, e28]
  rfl

/-- At the ideal instance the two programs, run from memories that agree on the arguments, end with equal results. -/
theorem algebraic : Cert.algebraic_KernelIdeal_ReferenceIdeal := by
  intro m g m' g' _ hagree
  refine ⟨fun c => Cert.KernelIdeal.KValue.result m c, ?_, ?_⟩
  · exact (θ_run Cert.KernelIdeal.defs _ _).mono (fun r h c => ⟨(h c).1.trans (Cert.KernelIdeal.KValue.kernel_value m g c), (h c).2⟩)
      (Cert.KernelIdeal.GenRun.run_named (F := Ideal) m g)
  · refine (θ_run Cert.ReferenceIdeal.defs _ _).mono (fun r h c => ?_) (Cert.ReferenceIdeal.RunP.run (F := Ideal) m' g')
    obtain ⟨a0, a1, a2, a3, a4, a5, a6, a7, a8, a9, a10, a11, a12, a13, a14, a15, a16, a17, a18, a19, a20, a21, a22, a23, a24, a25, a26, a27, a28⟩ := hagree c
    exact ⟨(h c Cert.ReferenceIdeal.main_v69).trans (ref_result m m' c a0 a1 a2 a3 a4 a5 a6 a7 a8 a9 a10 a11 a12 a13 a14 a15 a16 a17 a18 a19 a20 a21 a22 a23 a24 a25 a26 a27 a28),
     (h c Cert.ReferenceIdeal.main_arg0).trans (Cert.ReferenceIdeal.RefValue.ref_keep (Idealize.ShloMosaic.StableHlo.launchContents m' c) (r := Cert.ReferenceIdeal.main_arg0) (by simp)),
     (h c Cert.ReferenceIdeal.main_arg1).trans (Cert.ReferenceIdeal.RefValue.ref_keep (Idealize.ShloMosaic.StableHlo.launchContents m' c) (r := Cert.ReferenceIdeal.main_arg1) (by simp)),
     (h c Cert.ReferenceIdeal.main_arg2).trans (Cert.ReferenceIdeal.RefValue.ref_keep (Idealize.ShloMosaic.StableHlo.launchContents m' c) (r := Cert.ReferenceIdeal.main_arg2) (by simp)),
     (h c Cert.ReferenceIdeal.main_arg3).trans (Cert.ReferenceIdeal.RefValue.ref_keep (Idealize.ShloMosaic.StableHlo.launchContents m' c) (r := Cert.ReferenceIdeal.main_arg3) (by simp)),
     (h c Cert.ReferenceIdeal.main_arg4).trans (Cert.ReferenceIdeal.RefValue.ref_keep (Idealize.ShloMosaic.StableHlo.launchContents m' c) (r := Cert.ReferenceIdeal.main_arg4) (by simp)),
     (h c Cert.ReferenceIdeal.main_arg5).trans (Cert.ReferenceIdeal.RefValue.ref_keep (Idealize.ShloMosaic.StableHlo.launchContents m' c) (r := Cert.ReferenceIdeal.main_arg5) (by simp)),
     (h c Cert.ReferenceIdeal.main_arg6).trans (Cert.ReferenceIdeal.RefValue.ref_keep (Idealize.ShloMosaic.StableHlo.launchContents m' c) (r := Cert.ReferenceIdeal.main_arg6) (by simp)),
     (h c Cert.ReferenceIdeal.main_arg7).trans (Cert.ReferenceIdeal.RefValue.ref_keep (Idealize.ShloMosaic.StableHlo.launchContents m' c) (r := Cert.ReferenceIdeal.main_arg7) (by simp)),
     (h c Cert.ReferenceIdeal.main_arg8).trans (Cert.ReferenceIdeal.RefValue.ref_keep (Idealize.ShloMosaic.StableHlo.launchContents m' c) (r := Cert.ReferenceIdeal.main_arg8) (by simp)),
     (h c Cert.ReferenceIdeal.main_arg9).trans (Cert.ReferenceIdeal.RefValue.ref_keep (Idealize.ShloMosaic.StableHlo.launchContents m' c) (r := Cert.ReferenceIdeal.main_arg9) (by simp)),
     (h c Cert.ReferenceIdeal.main_arg10).trans (Cert.ReferenceIdeal.RefValue.ref_keep (Idealize.ShloMosaic.StableHlo.launchContents m' c) (r := Cert.ReferenceIdeal.main_arg10) (by simp)),
     (h c Cert.ReferenceIdeal.main_arg11).trans (Cert.ReferenceIdeal.RefValue.ref_keep (Idealize.ShloMosaic.StableHlo.launchContents m' c) (r := Cert.ReferenceIdeal.main_arg11) (by simp)),
     (h c Cert.ReferenceIdeal.main_arg12).trans (Cert.ReferenceIdeal.RefValue.ref_keep (Idealize.ShloMosaic.StableHlo.launchContents m' c) (r := Cert.ReferenceIdeal.main_arg12) (by simp)),
     (h c Cert.ReferenceIdeal.main_arg13).trans (Cert.ReferenceIdeal.RefValue.ref_keep (Idealize.ShloMosaic.StableHlo.launchContents m' c) (r := Cert.ReferenceIdeal.main_arg13) (by simp)),
     (h c Cert.ReferenceIdeal.main_arg14).trans (Cert.ReferenceIdeal.RefValue.ref_keep (Idealize.ShloMosaic.StableHlo.launchContents m' c) (r := Cert.ReferenceIdeal.main_arg14) (by simp)),
     (h c Cert.ReferenceIdeal.main_arg15).trans (Cert.ReferenceIdeal.RefValue.ref_keep (Idealize.ShloMosaic.StableHlo.launchContents m' c) (r := Cert.ReferenceIdeal.main_arg15) (by simp)),
     (h c Cert.ReferenceIdeal.main_arg16).trans (Cert.ReferenceIdeal.RefValue.ref_keep (Idealize.ShloMosaic.StableHlo.launchContents m' c) (r := Cert.ReferenceIdeal.main_arg16) (by simp)),
     (h c Cert.ReferenceIdeal.main_arg17).trans (Cert.ReferenceIdeal.RefValue.ref_keep (Idealize.ShloMosaic.StableHlo.launchContents m' c) (r := Cert.ReferenceIdeal.main_arg17) (by simp)),
     (h c Cert.ReferenceIdeal.main_arg18).trans (Cert.ReferenceIdeal.RefValue.ref_keep (Idealize.ShloMosaic.StableHlo.launchContents m' c) (r := Cert.ReferenceIdeal.main_arg18) (by simp)),
     (h c Cert.ReferenceIdeal.main_arg19).trans (Cert.ReferenceIdeal.RefValue.ref_keep (Idealize.ShloMosaic.StableHlo.launchContents m' c) (r := Cert.ReferenceIdeal.main_arg19) (by simp)),
     (h c Cert.ReferenceIdeal.main_arg20).trans (Cert.ReferenceIdeal.RefValue.ref_keep (Idealize.ShloMosaic.StableHlo.launchContents m' c) (r := Cert.ReferenceIdeal.main_arg20) (by simp)),
     (h c Cert.ReferenceIdeal.main_arg21).trans (Cert.ReferenceIdeal.RefValue.ref_keep (Idealize.ShloMosaic.StableHlo.launchContents m' c) (r := Cert.ReferenceIdeal.main_arg21) (by simp)),
     (h c Cert.ReferenceIdeal.main_arg22).trans (Cert.ReferenceIdeal.RefValue.ref_keep (Idealize.ShloMosaic.StableHlo.launchContents m' c) (r := Cert.ReferenceIdeal.main_arg22) (by simp)),
     (h c Cert.ReferenceIdeal.main_arg23).trans (Cert.ReferenceIdeal.RefValue.ref_keep (Idealize.ShloMosaic.StableHlo.launchContents m' c) (r := Cert.ReferenceIdeal.main_arg23) (by simp)),
     (h c Cert.ReferenceIdeal.main_arg24).trans (Cert.ReferenceIdeal.RefValue.ref_keep (Idealize.ShloMosaic.StableHlo.launchContents m' c) (r := Cert.ReferenceIdeal.main_arg24) (by simp)),
     (h c Cert.ReferenceIdeal.main_arg25).trans (Cert.ReferenceIdeal.RefValue.ref_keep (Idealize.ShloMosaic.StableHlo.launchContents m' c) (r := Cert.ReferenceIdeal.main_arg25) (by simp)),
     (h c Cert.ReferenceIdeal.main_arg26).trans (Cert.ReferenceIdeal.RefValue.ref_keep (Idealize.ShloMosaic.StableHlo.launchContents m' c) (r := Cert.ReferenceIdeal.main_arg26) (by simp)),
     (h c Cert.ReferenceIdeal.main_arg27).trans (Cert.ReferenceIdeal.RefValue.ref_keep (Idealize.ShloMosaic.StableHlo.launchContents m' c) (r := Cert.ReferenceIdeal.main_arg27) (by simp)),
     (h c Cert.ReferenceIdeal.main_arg28).trans (Cert.ReferenceIdeal.RefValue.ref_keep (Idealize.ShloMosaic.StableHlo.launchContents m' c) (r := Cert.ReferenceIdeal.main_arg28) (by simp))⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
